-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3 : Shape := ⟨2, ![100000, 3]⟩
abbrev S2x3200000 : Shape := ⟨2, ![2, 3200000]⟩
abbrev S3x64 : Shape := ⟨2, ![3, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S128x15 : Shape := ⟨2, ![128, 15]⟩
abbrev S15 : Shape := ⟨1, ![15]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel
  bcast_S_S3x64 : S_.BroadcastsInDim S3x64 (![] : Fin 0 → Fin S3x64.rank)
  reducesTo_S3x64_S_d0_1 : S3x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x15 : S_.BroadcastsInDim S128x15 (![] : Fin 0 → Fin S128x15.rank)
  reducesTo_S128x15_S_d0_1 : S128x15.ReducesTo [0, 1] S_
  bcast_S_S15 : S_.BroadcastsInDim S15 (![] : Fin 0 → Fin S15.rank)
  reducesTo_S15_S_d0 : S15.ReducesTo [0] S_

variable [Facts]

def fn_part2 {F : FTy → Type} [FloatOps F] (main_arg8 : FVec F S128x15 .f32) (main_arg9 : FVec F S15 .f32) (main_v33 : IVec S_ 1) : IVec S_ 1 :=
  let main_v34 : FVec F S128x15 .f32 := Host.absf main_arg8
  let main_cst_12 : FVec F S_ .f32 := constant S_ .f32 0x7F800000#32
  let main_v35 : FVec F S128x15 .f32 := broadcastInDim S128x15 ![] bcast_S_S128x15 main_cst_12
  let main_v36 : IVec S128x15 1 := cmpf .olt main_v34 main_v35
  let main_c_13 : IVec S_ 1 := constantI S_ 1 1#1
  let main_v37 : IVec S_ 1 := (fun x v => Host.reduce IntOp.andi x v reducesTo_S128x15_S_d0_1 h_S_) main_v36 main_c_13
  let main_v38 : IVec S_ 1 := andi main_v33 main_v37
  let main_v39 : FVec F S15 .f32 := Host.absf main_arg9
  let main_cst_14 : FVec F S_ .f32 := constant S_ .f32 0x7F800000#32
  let main_v40 : FVec F S15 .f32 := broadcastInDim S15 ![] bcast_S_S15 main_cst_14
  let main_v41 : IVec S15 1 := cmpf .olt main_v39 main_v40
  let main_c_15 : IVec S_ 1 := constantI S_ 1 1#1
  let main_v42 : IVec S_ 1 := (fun x v => Host.reduce IntOp.andi x v reducesTo_S15_S_d0 h_S_) main_v41 main_c_15
  let main_v43 : IVec S_ 1 := andi main_v38 main_v42
  main_v43

def fn_part1 {F : FTy → Type} [FloatOps F] (main_arg5 : FVec F S64 .f32) (main_arg6 : FVec F S64x128 .f32) (main_arg7 : FVec F S128 .f32) (main_arg8 : FVec F S128x15 .f32) (main_arg9 : FVec F S15 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x128 .f32 := Host.absf main_arg6
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S100000x3 .f32) (main_arg1 : IVec S2x3200000 32) (main_arg2 : FVec F S3x64 .f32) (main_arg3 : FVec F S64 .f32) (main_arg4 : FVec F S64x64 .f32) (main_arg5 : FVec F S64 .f32) (main_arg6 : FVec F S64x128 .f32) (main_arg7 : FVec F S128 .f32) (main_arg8 : FVec F S128x15 .f32) (main_arg9 : FVec F S15 .f32) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  let main_v4 : FVec F S3x64 .f32 := Host.absf main_arg2
  let main_cst_0 : FVec F S_ .f32 := constant S_ .f32 0x7F800000#32
  let main_v5 : FVec F S3x64 .f32 := broadcastInDim S3x64 ![] bcast_S_S3x64 main_cst_0
  let main_v6 : IVec S3x64 1 := cmpf .olt main_v4 main_v5
  let main_c_1 : IVec S_ 1 := constantI S_ 1 1#1
  let main_v7 : IVec S_ 1 := (fun x v => Host.reduce IntOp.andi x v reducesTo_S3x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_v13 main_v16
-- ==== Kernel.lean ====
abbrev S100000x3 : Shape := ⟨2, ![100000, 3]⟩
abbrev S2x3200000 : Shape := ⟨2, ![2, 3200000]⟩
abbrev S3x64 : Shape := ⟨2, ![3, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S128x15 : Shape := ⟨2, ![128, 15]⟩
abbrev S15 : Shape := ⟨1, ![15]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x1 : Shape := ⟨2, ![100000, 1]⟩
abbrev S100000x64 : Shape := ⟨2, ![100000, 64]⟩
abbrev S4000x3 : Shape := ⟨2, ![4000, 3]⟩
abbrev S4000x64 : Shape := ⟨2, ![4000, 64]⟩
abbrev S3300000x64 : Shape := ⟨2, ![3300000, 64]⟩
abbrev S1x64 : Shape := ⟨2, ![1, 64]⟩
abbrev S4000x1 : Shape := ⟨2, ![4000, 1]⟩
abbrev S1x128 : Shape := ⟨2, ![1, 128]⟩
abbrev S1x15 : Shape := ⟨2, ![1, 15]⟩
abbrev S100000x15 : Shape := ⟨2, ![100000, 15]⟩
abbrev S4000x15 : Shape := ⟨2, ![4000, 15]⟩
abbrev S4000x128 : Shape := ⟨2, ![4000, 128]⟩
abbrev S4000 : Shape := ⟨1, ![4000]⟩

abbrev nBuf : Space → Nat
  | .hbm => 70
  | .vmem => 24
  | .smem => 0
  | _ => 0

abbrev bufTy : (tb : Table) → Fin (tcTables nBuf tb) → BufTy
  | .hbm, ⟨0, _⟩ => ⟨S100000x3, .f32⟩
  | .hbm, ⟨1, _⟩ => ⟨S2x3200000, .i32⟩
  | .hbm, ⟨2, _⟩ => ⟨S3x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x128, .f32⟩
  | .hbm, ⟨7, _⟩ => ⟨S128, .f32⟩
  | .hbm, ⟨8, _⟩ => ⟨S128x15, .f32⟩
  | .hbm, ⟨9, _⟩ => ⟨S15, .f32⟩
  | .hbm, ⟨10, _⟩ => ⟨S100000, .i32⟩
  | .hbm, ⟨11, _⟩ => ⟨S1x3200000, .i32⟩
  | .hbm, ⟨12, _⟩ => ⟨S3200000, .i32⟩
  | .hbm, ⟨13, _⟩ => ⟨S3300000, .i32⟩
  | .hbm, ⟨14, _⟩ => ⟨S1x3200000, .i32⟩
  | .hbm, ⟨15, _⟩ => ⟨S3200000, .i32⟩
  | .hbm, ⟨16, _⟩ => ⟨S3300000, .i32⟩
  | .hbm, ⟨17, _⟩ => ⟨S_, .f32⟩
  | .hbm, ⟨18, _⟩ => ⟨S3300000, .f32⟩
  | .hbm, ⟨19, _⟩ => ⟨S_, .f32⟩
  | .hbm, ⟨20, _⟩ => ⟨S100000, .f32⟩
  | .hbm, ⟨21, _⟩ => ⟨S3300000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000, .f32⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x3, .f32⟩
  | .hbm, ⟨36, _⟩ => ⟨S100000x3, .f32⟩
  | .hbm, ⟨37, _⟩ => ⟨S100000x64, .f32⟩
  | .hbm, ⟨38, _⟩ => ⟨S_, .i32⟩
  | .hbm, ⟨39, _⟩ => ⟨S3300000, .i32⟩
  | .hbm, ⟨40, _⟩ => ⟨S3300000, .i1⟩
  | .hbm, ⟨41, _⟩ => ⟨S_, .i32⟩
  | .hbm, ⟨42, _⟩ => ⟨S3300000, .i32⟩
  | .hbm, ⟨43, _⟩ => ⟨S3300000, .i32⟩
  | .hbm, ⟨44, _⟩ => ⟨S3300000, .i32⟩
  | .hbm, ⟨45, _⟩ => ⟨S3300000x1, .i32⟩
  | .hbm, ⟨46, _⟩ => ⟨S3300000x64, .f32⟩
  | .hbm, ⟨47, _⟩ => ⟨S_, .f32⟩
  | .hbm, ⟨48, _⟩ => ⟨S100000x64, .f32⟩
  | .hbm, ⟨49, _⟩ => ⟨S3300000x1, .i32⟩
  | .hbm, ⟨50, _⟩ => ⟨S100000x64, .f32⟩
  | .hbm, ⟨51, _⟩ => ⟨S1x64, .f32⟩
  | .hbm, ⟨52, _⟩ => ⟨S100000x64, .f32⟩
  | .hbm, ⟨53, _⟩ => ⟨S_, .i32⟩
  | .hbm, ⟨54, _⟩ => ⟨S3300000, .i32⟩
  | .hbm, ⟨55, _⟩ => ⟨S3300000, .i1⟩
  | .hbm, ⟨56, _⟩ => ⟨S_, .i32⟩
  | .hbm, ⟨57, _⟩ => ⟨S3300000, .i32⟩
  | .hbm, ⟨58, _⟩ => ⟨S3300000, .i32⟩
  | .hbm, ⟨59, _⟩ => ⟨S3300000, .i32⟩
  | .hbm, ⟨60, _⟩ => ⟨S3300000x1, .i32⟩
  | .hbm, ⟨61, _⟩ => ⟨S3300000x64, .f32⟩
  | .hbm, ⟨62, _⟩ => ⟨S_, .f32⟩
  | .hbm, ⟨63, _⟩ => ⟨S100000x64, .f32⟩
  | .hbm, ⟨64, _⟩ => ⟨S3300000x1, .i32⟩
  | .hbm, ⟨65, _⟩ => ⟨S100000x64, .f32⟩
  | .hbm, ⟨66, _⟩ => ⟨S1x64, .f32⟩
  | .hbm, ⟨67, _⟩ => ⟨S1x128, .f32⟩
  | .hbm, ⟨68, _⟩ => ⟨S1x15, .f32⟩
  | .hbm, ⟨69, _⟩ => ⟨S100000x15, .f32⟩
  | .local _ .vmem, ⟨0, _⟩ => ⟨S4000x3, .f32⟩
  | .local _ .vmem, ⟨1, _⟩ => ⟨S4000x3, .f32⟩
  | .local _ .vmem, ⟨2, _⟩ => ⟨S3x64, .f32⟩
  | .local _ .vmem, ⟨3, _⟩ => ⟨S4000x64, .f32⟩
  | .local _ .vmem, ⟨4, _⟩ => ⟨S4000x64, .f32⟩
  | .local _ .vmem, ⟨5, _⟩ => ⟨S4000x64, .f32⟩
  | .local _ .vmem, ⟨6, _⟩ => ⟨S4000x64, .f32⟩
  | .local _ .vmem, ⟨7, _⟩ => ⟨S4000x1, .f32⟩
  | .local _ .vmem, ⟨8, _⟩ => ⟨S4000x1, .f32⟩
  | .local _ .vmem, ⟨9, _⟩ => ⟨S1x64, .f32⟩
  | .local _ .vmem, ⟨10, _⟩ => ⟨S64x64, .f32⟩
  | .local _ .vmem, ⟨11, _⟩ => ⟨S4000x64, .f32⟩
  | .local _ .vmem, ⟨12, _⟩ => ⟨S4000x64, .f32⟩
  | .local _ .vmem, ⟨13, _⟩ => ⟨S4000x64, .f32⟩
  | .local _ .vmem, ⟨14, _⟩ => ⟨S4000x64, .f32⟩
  | .local _ .vmem, ⟨15, _⟩ => ⟨S4000x1, .f32⟩
  | .local _ .vmem, ⟨16, _⟩ => ⟨S4000x1, .f32⟩
  | .local _ .vmem, ⟨17, _⟩ => ⟨S1x64, .f32⟩
  | .local _ .vmem, ⟨18, _⟩ => ⟨S64x128, .f32⟩
  | .local _ .vmem, ⟨19, _⟩ => ⟨S1x128, .f32⟩
  | .local _ .vmem, ⟨20, _⟩ => ⟨S128x15, .f32⟩
  | .local _ .vmem, ⟨21, _⟩ => ⟨S1x15, .f32⟩
  | .local _ .vmem, ⟨22, _⟩ => ⟨S4000x15, .f32⟩
  | .local _ .vmem, ⟨23, _⟩ => ⟨S4000x15, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c : Ref sig .tc := ⟨.hbm, 38, rfl⟩
abbrev main_v21 : Ref sig .tc := ⟨.hbm, 39, rfl⟩
abbrev main_v22 : Ref sig .tc := ⟨.hbm, 40, rfl⟩
abbrev main_c_4 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_5 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c_6 : Ref sig .tc := ⟨.hbm, 53, rfl⟩
abbrev main_v33 : Ref sig .tc := ⟨.hbm, 54, rfl⟩
abbrev main_v34 : Ref sig .tc := ⟨.hbm, 55, rfl⟩
abbrev main_c_7 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_8 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg6_0 : Ref sig .tc := ⟨.vmem, 21, rfl⟩
abbrev cc2_stg7_0 : Ref sig .tc := ⟨.vmem, 22, rfl⟩
abbrev cc2_stg7_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem4_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem3_0 : DmaSem sig := 18
abbrev cc2_sem4_0 : DmaSem sig := 19
abbrev cc2_sem5_0 : DmaSem sig := 20
abbrev cc2_sem6_0 : DmaSem sig := 21
abbrev cc2_sem7_0 : DmaSem sig := 22
abbrev cc2_sem7_1 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x15 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x15 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S4000x15 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  shapeCasts_S100000_S100000x1 : S100000.ShapeCasts S100000x1
  bcast_S100000x1_S100000x3_0_1 : S100000x1.BroadcastsInDim S100000x3 (![0, 1] : Fin 2 → Fin S100000x3.rank)
  inb_S4000x3_S4000x3_0_0 : ∀ a, (![0, 0] : Fin 2 → Nat) a + S4000x3.size a ≤ S4000x3.size a
  h_S4000x3 : 0 < S4000x3.numel
  shapeCasts_S4000x3_S4000x3 : S4000x3.ShapeCasts S4000x3
  bitsLt_bf16_f32 : FTy.bits .bf16 < FTy.bits .f32
  inb_S3x64_S3x64_0_0 : ∀ a, (![0, 0] : Fin 2 → Nat) a + S3x64.size a ≤ S3x64.size a
  h_S3x64 : 0 < S3x64.numel
  inb_S4000x64_S4000x64_0_0 : ∀ a, (![0, 0] : Fin 2 → Nat) a + S4000x64.size a ≤ S4000x64.size a
  h_S4000x64 : 0 < S4000x64.numel
  bcast_S_S100000x64 : S_.BroadcastsInDim S100000x64 (![] : Fin 0 → Fin S100000x64.rank)
  shapeCasts_S64_S1x64 : S64.ShapeCasts S1x64
  shapeCasts_S4000x64_S4000x64 : S4000x64.ShapeCasts S4000x64
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x64 : S4000x1.Broadcasts S4000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S64x64_S64x64_0_0 : ∀ a, (![0, 0] : Fin 2 → Nat) a + S64x64.size a ≤ S64x64.size a
  h_S64x64 : 0 < S64x64.numel
  shapeCasts_S128_S1x128 : S128.ShapeCasts S1x128
  shapeCasts_S15_S1x15 : S15.ShapeCasts S1x15
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S128x15_S128x15_0_0 : ∀ a, (![0, 0] : Fin 2 → Nat) a + S128x15.size a ≤ S128x15.size a
  h_S128x15 : 0 < S128x15.numel
  inb_S1x15_S1x15_0_0 : ∀ a, (![0, 0] : Fin 2 → Nat) a + S1x15.size a ≤ S1x15.size a
  h_S1x15 : 0 < S1x15.numel
  shapeCasts_S1x15_S1x15 : S1x15.ShapeCasts S1x15
  broadcasts_S1x15_S4000x15 : S1x15.Broadcasts S4000x15
  reduces_S4000x15_S4000 : S4000x15.Reduces [1] S4000
  shapeCasts_S4000_S4000x1 : S4000.ShapeCasts S4000x1
  broadcasts_S4000x1_S4000x15 : S4000x1.Broadcasts S4000x15
  inb_S4000x15_S4000x15_0_0 : ∀ a, (![0, 0] : Fin 2 → Nat) a + S4000x15.size a ≤ S4000x15.size a
  h_S4000x15 : 0 < S4000x15.numel
  scatter_S100000_S3300000x1_S3300000_n_0_0_1_wf : ScatterDims.WF S100000 S3300000x1 S3300000 [] [0] [0] 1
  dot_S4000x3_S3x64_S4000x64_1_0_0_1_n_n_wf : DotDims.WF S4000x3 S3x64 S4000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S4000x64_S64x64_S4000x64_1_0_0_1_n_n_wf : DotDims.WF S4000x64 S64x64 S4000x64 [1] [0] [0] [1] [] []
  dot_S4000x64_S64x128_S4000x128_1_0_0_1_n_n_wf : DotDims.WF S4000x64 S64x128 S4000x128 [1] [0] [0] [1] [] []
  dot_S4000x128_S128x15_S4000x15_1_0_0_1_n_n_wf : DotDims.WF S4000x128 S128x15 S4000x15 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x3.size a ≤ S100000x3.size a
  hwx0_0 : ∀ i : grid0.Coords, EltTy.bits .f32 = 32 ∨ (Rect.block (s := S100000x3) S4000x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x64.size a ≤ S3x64.size a
  hwx0_1 : ∀ i : grid0.Coords, EltTy.bits .f32 = 32 ∨ (Rect.block (s := S3x64) S3x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x64.size a ≤ S100000x64.size a
  hwx0_2 : ∀ i : grid0.Coords, EltTy.bits .f32 = 32 ∨ (Rect.block (s := S100000x64) S4000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .f32 = 32 ∨ (Rect.block (s := S100000x64) S4000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S100000x1.size a
  hwx1_1 : ∀ i : grid1.Coords, EltTy.bits .f32 = 32 ∨ (Rect.block (s := S100000x1) S4000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x64.size a ≤ S100000x64.size a
  hwx1_4 : ∀ i : grid1.Coords, EltTy.bits .f32 = 32 ∨ (Rect.block (s := S100000x64) S4000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x64.size a ≤ S100000x64.size a
  hwx2_0 : ∀ i : grid2.Coords, EltTy.bits .f32 = 32 ∨ (Rect.block (s := S100000x64) S4000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x1.size a ≤ S100000x1.size a
  hwx2_1 : ∀ i : grid2.Coords, EltTy.bits .f32 = 32 ∨ (Rect.block (s := S100000x1) S4000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x128.size a ≤ S64x128.size a
  hwx2_3 : ∀ i : grid2.Coords, EltTy.bits .f32 = 32 ∨ (Rect.block (s := S64x128) S64x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x15.size a ≤ S128x15.size a
  hwx2_5 : ∀ i : grid2.Coords, EltTy.bits .f32 = 32 ∨ (Rect.block (s := S128x15) S128x15.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x15.size a ≤ S1x15.size a
  hwx2_6 : ∀ i : grid2.Coords, EltTy.bits .f32 = 32 ∨ (Rect.block (s := S1x15) S1x15.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S4000x15.size a ≤ S100000x15.size a
  hwx2_7 : ∀ i : grid2.Coords, EltTy.bits .f32 = 32 ∨ (Rect.block (s := S100000x15) S4000x15.size (cc2_transform_7 i) (hinb2_7 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def dot_S4000x3_S3x64_S4000x64_1_0_0_1_n_n : DotDims S4000x3 S3x64 S4000x64 where
  lhsContracting := [1]
  rhsContracting := [0]
  lhsNonContracting := [0]
  rhsNonContracting := [1]
  lhsBatch := []
  rhsBatch := []
  wf := dot_S4000x3_S3x64_S4000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def dot_S4000x64_S64x128_S4000x128_1_0_0_1_n_n : DotDims S4000x64 S64x128 S4000x128 where
  lhsContracting := [1]
  rhsContracting := [0]
  lhsNonContracting := [0]
  rhsNonContracting := [1]
  lhsBatch := []
  rhsBatch := []
  wf := dot_S4000x64_S64x128_S4000x128_1_0_0_1_n_n_wf
def dot_S4000x128_S128x15_S4000x15_1_0_0_1_n_n : DotDims S4000x128 S128x15 S4000x15 where
  lhsContracting := [1]
  rhsContracting := [0]
  lhsNonContracting := [0]
  rhsNonContracting := [1]
  lhsBatch := []
  rhsBatch := []
  wf := dot_S4000x128_S128x15_S4000x15_1_0_0_1_n_n_wf

abbrev win0_0 : Pipeline.Window sig grid0 :=
  Pipeline.Window.ofSpec (Memref.whole main_v19) S4000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S3x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v20) S4000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v30) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v31) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v32) S4000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v42) S4000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17) S4000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v43) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S64x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v44) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg8) S128x15.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v45) S1x15.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v46) S4000x15.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S100000x3 : Shape := ⟨2, ![100000, 3]⟩
abbrev S2x3200000 : Shape := ⟨2, ![2, 3200000]⟩
abbrev S3x64 : Shape := ⟨2, ![3, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S128x15 : Shape := ⟨2, ![128, 15]⟩
abbrev S15 : Shape := ⟨1, ![15]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S3300000x64 : Shape := ⟨2, ![3300000, 64]⟩
abbrev S1x64 : Shape := ⟨2, ![1, 64]⟩
abbrev S100000x128 : Shape := ⟨2, ![100000, 128]⟩
abbrev S1x128 : Shape := ⟨2, ![1, 128]⟩
abbrev S100000x15 : Shape := ⟨2, ![100000, 15]⟩
abbrev S1x15 : Shape := ⟨2, ![1, 15]⟩
abbrev S100000x1 : Shape := ⟨2, ![100000, 1]⟩

abbrev nBuf : Space → Nat
  | .hbm => 179
  | .vmem => 0
  | .smem => 0
  | _ => 0

abbrev hbmTy0_0 (i : Nat) : BufTy := match i % 128 with
  | 0 => ⟨S100000x3, .f32⟩
  | 1 => ⟨S2x3200000, .i32⟩
  | 2 => ⟨S3x64, .f32⟩
  | 3 => ⟨S64, .f32⟩
  | 4 => ⟨S64x64, .f32⟩
  | 5 => ⟨S64, .f32⟩
  | 6 => ⟨S64x128, .f32⟩
  | 7 => ⟨S128, .f32⟩
  | 8 => ⟨S128x15, .f32⟩
  | 9 => ⟨S15, .f32⟩
  | 10 => ⟨S100000, .i32⟩
  | 11 => ⟨S1x3200000, .i32⟩
  | 12 => ⟨S3200000, .i32⟩
  | 13 => ⟨S3300000, .i32⟩
  | 14 => ⟨S1x3200000, .i32⟩
  | 15 => ⟨S3200000, .i32⟩
  | 16 => ⟨S3300000, .i32⟩
  | 17 => ⟨S_, .f32⟩
  | 18 => ⟨S3300000, .f32⟩
  | 19 => ⟨S_, .f32⟩
  | 20 => ⟨S100000, .f32⟩
  | 21 => ⟨S3300000x1, .i32⟩
  | 22 => ⟨S100000, .f32⟩
  | 23 => ⟨S_, .f32⟩
  | 24 => ⟨S100000, .f32⟩
  | 25 => ⟨S100000, .i1⟩
  | 26 => ⟨S_, .f32⟩
  | 27 => ⟨S100000, .f32⟩
  | 28 => ⟨S100000, .f32⟩
  | 29 => ⟨S100000, .f32⟩
  | 30 => ⟨S_, .f32⟩
  | 31 => ⟨S_, .f32⟩
  | 32 => ⟨S100000, .f32⟩
  | 33 => ⟨S100000, .f32⟩
  | 34 => ⟨S100000x64, .f32⟩
  | 35 => ⟨S_, .i32⟩
  | 36 => ⟨S3300000, .i32⟩
  | 37 => ⟨S3300000, .i1⟩
  | 38 => ⟨S_, .i32⟩
  | 39 => ⟨S3300000, .i32⟩
  | 40 => ⟨S3300000, .i32⟩
  | 41 => ⟨S3300000, .i32⟩
  | 42 => ⟨S3300000x1, .i32⟩
  | 43 => ⟨S3300000, .f32⟩
  | 44 => ⟨S_, .i32⟩
  | 45 => ⟨S3300000, .i32⟩
  | 46 => ⟨S3300000, .i1⟩
  | 47 => ⟨S_, .i32⟩
  | 48 => ⟨S3300000, .i32⟩
  | 49 => ⟨S3300000, .i32⟩
  | 50 => ⟨S3300000, .i32⟩
  | 51 => ⟨S3300000x1, .i32⟩
  | 52 => ⟨S3300000, .f32⟩
  | 53 => ⟨S3300000, .f32⟩
  | 54 => ⟨S_, .i32⟩
  | 55 => ⟨S3300000, .i32⟩
  | 56 => ⟨S3300000, .i1⟩
  | 57 => ⟨S_, .i32⟩
  | 58 => ⟨S3300000, .i32⟩
  | 59 => ⟨S3300000, .i32⟩
  | 60 => ⟨S3300000, .i32⟩
  | 61 => ⟨S3300000x1, .i32⟩
  | 62 => ⟨S3300000x64, .f32⟩
  | 63 => ⟨S3300000x1, .f32⟩
  | 64 => ⟨S3300000x64, .f32⟩
  | 65 => ⟨S3300000x64, .f32⟩
  | 66 => ⟨S_, .f32⟩
  | 67 => ⟨S100000x64, .f32⟩
  | 68 => ⟨S3300000x1, .i32⟩
  | 69 => ⟨S100000x64, .f32⟩
  | 70 => ⟨S1x64, .f32⟩
  | 71 => ⟨S100000x64, .f32⟩
  | 72 => ⟨S100000x64, .f32⟩
  | 73 => ⟨S_, .f32⟩
  | 74 => ⟨S100000x64, .f32⟩
  | 75 => ⟨S100000x64, .i1⟩
  | 76 => ⟨S_, .f32⟩
  | 77 => ⟨S100000x64, .f32⟩
  | 78 => ⟨S100000x64, .i1⟩
  | 79 => ⟨S_, .f32⟩
  | 80 => ⟨S_, .f32⟩
  | 81 => ⟨S100000x64, .f32⟩
  | 82 => ⟨S100000x64, .f32⟩
  | 83 => ⟨S100000x64, .f32⟩
  | 84 => ⟨S_, .f32⟩
  | 85 => ⟨S100000x64, .f32⟩
  | 86 => ⟨S100000x64, .f32⟩
  | 87 => ⟨S100000x64, .f32⟩
  | 88 => ⟨S100000x64, .f32⟩
  | 89 => ⟨S_, .i32⟩
  | 90 => ⟨S3300000, .i32⟩
  | 91 => ⟨S3300000, .i1⟩
  | 92 => ⟨S_, .i32⟩
  | 93 => ⟨S3300000, .i32⟩
  | 94 => ⟨S3300000, .i32⟩
  | 95 => ⟨S3300000, .i32⟩
  | 96 => ⟨S3300000x1, .i32⟩
  | 97 => ⟨S3300000, .f32⟩
  | 98 => ⟨S_, .i32⟩
  | 99 => ⟨S3300000, .i32⟩
  | 100 => ⟨S3300000, .i1⟩
  | 101 => ⟨S_, .i32⟩
  | 102 => ⟨S3300000, .i32⟩
  | 103 => ⟨S3300000, .i32⟩
  | 104 => ⟨S3300000, .i32⟩
  | 105 => ⟨S3300000x1, .i32⟩
  | 106 => ⟨S3300000, .f32⟩
  | 107 => ⟨S3300000, .f32⟩
  | 108 => ⟨S_, .i32⟩
  | 109 => ⟨S3300000, .i32⟩
  | 110 => ⟨S3300000, .i1⟩
  | 111 => ⟨S_, .i32⟩
  | 112 => ⟨S3300000, .i32⟩
  | 113 => ⟨S3300000, .i32⟩
  | 114 => ⟨S3300000, .i32⟩
  | 115 => ⟨S3300000x1, .i32⟩
  | 116 => ⟨S3300000x64, .f32⟩
  | 117 => ⟨S3300000x1, .f32⟩
  | 118 => ⟨S3300000x64, .f32⟩
  | 119 => ⟨S3300000x64, .f32⟩
  | 120 => ⟨S_, .f32⟩
  | 121 => ⟨S100000x64, .f32⟩
  | 122 => ⟨S3300000x1, .i32⟩
  | 123 => ⟨S100000x64, .f32⟩
  | 124 => ⟨S1x64, .f32⟩
  | 125 => ⟨S100000x64, .f32⟩
  | 126 => ⟨S100000x64, .f32⟩
  | 127 => ⟨S_, .f32⟩
  | _ => ⟨S100000x3, .f32⟩

abbrev hbmTy0_1 (i : Nat) : BufTy := match i % 128 with
  | 0 => ⟨S100000x64, .f32⟩
  | 1 => ⟨S100000x64, .i1⟩
  | 2 => ⟨S_, .f32⟩
  | 3 => ⟨S100000x64, .f32⟩
  | 4 => ⟨S100000x64, .i1⟩
  | 5 => ⟨S_, .f32⟩
  | 6 => ⟨S_, .f32⟩
  | 7 => ⟨S100000x64, .f32⟩
  | 8 => ⟨S100000x64, .f32⟩
  | 9 => ⟨S100000x64, .f32⟩
  | 10 => ⟨S_, .f32⟩
  | 11 => ⟨S100000x64, .f32⟩
  | 12 => ⟨S100000x64, .f32⟩
  | 13 => ⟨S100000x64, .f32⟩
  | 14 => ⟨S100000x128, .f32⟩
  | 15 => ⟨S1x128, .f32⟩
  | 16 => ⟨S100000x128, .f32⟩
  | 17 => ⟨S100000x128, .f32⟩
  | 18 => ⟨S_, .f32⟩
  | 19 => ⟨S100000x128, .f32⟩
  | 20 => ⟨S100000x128, .i1⟩
  | 21 => ⟨S_, .f32⟩
  | 22 => ⟨S100000x128, .f32⟩
  | 23 => ⟨S100000x128, .i1⟩
  | 24 => ⟨S_, .f32⟩
  | 25 => ⟨S_, .f32⟩
  | 26 => ⟨S100000x128, .f32⟩
  | 27 => ⟨S100000x128, .f32⟩
  | 28 => ⟨S100000x128, .f32⟩
  | 29 => ⟨S_, .f32⟩
  | 30 => ⟨S100000x128, .f32⟩
  | 31 => ⟨S100000x128, .f32⟩
  | 32 => ⟨S100000x128, .f32⟩
  | 33 => ⟨S100000x15, .f32⟩
  | 34 => ⟨S1x15, .f32⟩
  | 35 => ⟨S100000x15, .f32⟩
  | 36 => ⟨S100000x15, .f32⟩
  | 37 => ⟨S_, .f32⟩
  | 38 => ⟨S100000, .f32⟩
  | 39 => ⟨S_, .f32⟩
  | 40 => ⟨S100000, .f32⟩
  | 41 => ⟨S100000, .f32⟩
  | 42 => ⟨S100000x1, .f32⟩
  | 43 => ⟨S100000x15, .f32⟩
  | 44 => ⟨S100000x15, .f32⟩
  | 45 => ⟨S100000x15, .f32⟩
  | 46 => ⟨S_, .f32⟩
  | 47 => ⟨S100000, .f32⟩
  | 48 => ⟨S100000x1, .f32⟩
  | 49 => ⟨S100000x15, .f32⟩
  | 50 => ⟨S100000x15, .f32⟩
  | _ => ⟨S100000x3, .f32⟩

abbrev hbmTy (i : Nat) : BufTy := match i / 128 with
  | 0 => hbmTy0_0 i
  | 1 => hbmTy0_1 i
  | _ => ⟨S100000x3, .f32⟩

abbrev bufTy : (tb : Table) → Fin (tcTables nBuf tb) → BufTy
  | .hbm, ⟨i, _⟩ => hbmTy i
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v16 : Ref sig .tc := ⟨.hbm, 33, rfl⟩
abbrev main_v17 : Ref sig .tc := ⟨.hbm, 34, rfl⟩
abbrev main_c : Ref sig .tc := ⟨.hbm, 35, rfl⟩
abbrev main_v18 : Ref sig .tc := ⟨.hbm, 36, rfl⟩
abbrev main_v19 : Ref sig .tc := ⟨.hbm, 37, rfl⟩
abbrev main_c_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_c_5 : Ref sig .tc := ⟨.hbm, 44, rfl⟩
abbrev main_v25 : Ref sig .tc := ⟨.hbm, 45, rfl⟩
abbrev main_v26 : Ref sig .tc := ⟨.hbm, 46, rfl⟩
abbrev main_c_6 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_c_8 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_9 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_call1_cst : Ref sig .tc := ⟨.hbm, 73, rfl⟩
abbrev main_call1_v0 : Ref sig .tc := ⟨.hbm, 74, rfl⟩
abbrev main_call1_v1 : Ref sig .tc := ⟨.hbm, 75, rfl⟩
abbrev main_call1_cst_0 : Ref sig .tc := ⟨.hbm, 76, rfl⟩
abbrev main_call1_v2 : Ref sig .tc := ⟨.hbm, 77, rfl⟩
abbrev main_call1_v3 : Ref sig .tc := ⟨.hbm, 78, rfl⟩
abbrev main_call1_cst_1 : Ref sig .tc := ⟨.hbm, 79, rfl⟩
abbrev main_call1_call0_v0 : Ref sig .tc := ⟨.hbm, 80, rfl⟩
abbrev main_call1_call0_v1 : Ref sig .tc := ⟨.hbm, 81, rfl⟩
abbrev main_call1_v4 : Ref sig .tc := ⟨.hbm, 82, rfl⟩
abbrev main_call1_v5 : Ref sig .tc := ⟨.hbm, 83, rfl⟩
abbrev main_call1_cst_2 : Ref sig .tc := ⟨.hbm, 84, rfl⟩
abbrev main_call1_v6 : Ref sig .tc := ⟨.hbm, 85, rfl⟩
abbrev main_call1_v7 : Ref sig .tc := ⟨.hbm, 86, rfl⟩
abbrev main_v49 : Ref sig .tc := ⟨.hbm, 87, rfl⟩
abbrev main_v50 : Ref sig .tc := ⟨.hbm, 88, rfl⟩
abbrev main_c_10 : Ref sig .tc := ⟨.hbm, 89, rfl⟩
abbrev main_v51 : Ref sig .tc := ⟨.hbm, 90, rfl⟩
abbrev main_v52 : Ref sig .tc := ⟨.hbm, 91, rfl⟩
abbrev main_c_11 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_c_12 : Ref sig .tc := ⟨.hbm, 98, rfl⟩
abbrev main_v58 : Ref sig .tc := ⟨.hbm, 99, rfl⟩
abbrev main_v59 : Ref sig .tc := ⟨.hbm, 100, rfl⟩
abbrev main_c_13 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_c_14 : Ref sig .tc := ⟨.hbm, 108, rfl⟩
abbrev main_v66 : Ref sig .tc := ⟨.hbm, 109, rfl⟩
abbrev main_v67 : Ref sig .tc := ⟨.hbm, 110, rfl⟩
abbrev main_c_15 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_cst_16 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_call2_cst : Ref sig .tc := ⟨.hbm, 127, rfl⟩
abbrev main_call2_v0 : Ref sig .tc := ⟨.hbm, 128, rfl⟩
abbrev main_call2_v1 : Ref sig .tc := ⟨.hbm, 129, rfl⟩
abbrev main_call2_cst_0 : Ref sig .tc := ⟨.hbm, 130, rfl⟩
abbrev main_call2_v2 : Ref sig .tc := ⟨.hbm, 131, rfl⟩
abbrev main_call2_v3 : Ref sig .tc := ⟨.hbm, 132, rfl⟩
abbrev main_call2_cst_1 : Ref sig .tc := ⟨.hbm, 133, rfl⟩
abbrev main_call2_call0_v0 : Ref sig .tc := ⟨.hbm, 134, rfl⟩
abbrev main_call2_call0_v1 : Ref sig .tc := ⟨.hbm, 135, rfl⟩
abbrev main_call2_v4 : Ref sig .tc := ⟨.hbm, 136, rfl⟩
abbrev main_call2_v5 : Ref sig .tc := ⟨.hbm, 137, rfl⟩
abbrev main_call2_cst_2 : Ref sig .tc := ⟨.hbm, 138, rfl⟩
abbrev main_call2_v6 : Ref sig .tc := ⟨.hbm, 139, rfl⟩
abbrev main_call2_v7 : Ref sig .tc := ⟨.hbm, 140, rfl⟩
abbrev main_v82 : Ref sig .tc := ⟨.hbm, 141, rfl⟩
abbrev main_v83 : Ref sig .tc := ⟨.hbm, 142, rfl⟩
abbrev main_v84 : Ref sig .tc := ⟨.hbm, 143, rfl⟩
abbrev main_v85 : Ref sig .tc := ⟨.hbm, 144, rfl⟩
abbrev main_v86 : Ref sig .tc := ⟨.hbm, 145, rfl⟩
abbrev main_call3_cst : Ref sig .tc := ⟨.hbm, 146, rfl⟩
abbrev main_call3_v0 : Ref sig .tc := ⟨.hbm, 147, rfl⟩
abbrev main_call3_v1 : Ref sig .tc := ⟨.hbm, 148, rfl⟩
abbrev main_call3_cst_0 : Ref sig .tc := ⟨.hbm, 149, rfl⟩
abbrev main_call3_v2 : Ref sig .tc := ⟨.hbm, 150, rfl⟩
abbrev main_call3_v3 : Ref sig .tc := ⟨.hbm, 151, rfl⟩
abbrev main_call3_cst_1 : Ref sig .tc := ⟨.hbm, 152, rfl⟩
abbrev main_call3_call0_v0 : Ref sig .tc := ⟨.hbm, 153, rfl⟩
abbrev main_call3_call0_v1 : Ref sig .tc := ⟨.hbm, 154, rfl⟩
abbrev main_call3_v4 : Ref sig .tc := ⟨.hbm, 155, rfl⟩
abbrev main_call3_v5 : Ref sig .tc := ⟨.hbm, 156, rfl⟩
abbrev main_call3_cst_2 : Ref sig .tc := ⟨.hbm, 157, rfl⟩
abbrev main_call3_v6 : Ref sig .tc := ⟨.hbm, 158, rfl⟩
abbrev main_call3_v7 : Ref sig .tc := ⟨.hbm, 159, rfl⟩
abbrev main_v87 : Ref sig .tc := ⟨.hbm, 160, rfl⟩
abbrev main_v88 : Ref sig .tc := ⟨.hbm, 161, rfl⟩
abbrev main_v89 : Ref sig .tc := ⟨.hbm, 162, rfl⟩
abbrev main_v90 : Ref sig .tc := ⟨.hbm, 163, rfl⟩
abbrev main_v91 : Ref sig .tc := ⟨.hbm, 164, rfl⟩
abbrev main_cst_17 : Ref sig .tc := ⟨.hbm, 165, rfl⟩
abbrev main_v92 : Ref sig .tc := ⟨.hbm, 166, rfl⟩
abbrev main_cst_18 : Ref sig .tc := ⟨.hbm, 167, rfl⟩
abbrev main_v93 : Ref sig .tc := ⟨.hbm, 168, rfl⟩
abbrev main_v94 : Ref sig .tc := ⟨.hbm, 169, rfl⟩
abbrev main_v95 : Ref sig .tc := ⟨.hbm, 170, rfl⟩
abbrev main_v96 : Ref sig .tc := ⟨.hbm, 171, rfl⟩
abbrev main_v97 : Ref sig .tc := ⟨.hbm, 172, rfl⟩
abbrev main_v98 : Ref sig .tc := ⟨.hbm, 173, rfl⟩
abbrev main_cst_19 : Ref sig .tc := ⟨.hbm, 174, rfl⟩
abbrev main_v99 : Ref sig .tc := ⟨.hbm, 175, rfl⟩
abbrev main_v100 : Ref sig .tc := ⟨.hbm, 176, rfl⟩
abbrev main_v101 : Ref sig .tc := ⟨.hbm, 177, rfl⟩
abbrev main_v102 : Ref sig .tc := ⟨.hbm, 178, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S15_S1x15_1 : S15.BroadcastsInDim S1x15 (![1] : Fin 1 → Fin S1x15.rank)
  bcast_S1x15_S100000x15_0_1 : S1x15.BroadcastsInDim S100000x15 (![0, 1] : Fin 2 → Fin S100000x15.rank)
  reducesTo_S100000x15_S100000_d1 : S100000x15.ReducesTo [1] S100000
  h_S_ : 0 < S_.numel
  bcast_S100000_S100000x1_0 : S100000.BroadcastsInDim S100000x1 (![0] : Fin 1 → Fin S100000x1.rank)
  bcast_S100000x1_S100000x15_0_1 : S100000x1.BroadcastsInDim S100000x15 (![0, 1] : Fin 2 → Fin S100000x15.rank)
  scatter_S100000_S3300000x1_S3300000_n_0_0_1_wf : ScatterDims.WF S100000 S3300000x1 S3300000 [] [0] [0] 1
  dot_S100000x3_S3x64_S100000x64_1_0_0_1_n_n_wf : DotDims.WF S100000x3 S3x64 S100000x64 [1] [0] [0] [1] [] []
  gather_S100000_S3300000x1_S3300000_n_0_n_n_0_1_1_wf : GatherDims.WF S100000 S3300000x1 S3300000 [] [0] [] [0] [] 1 ![1]
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x64_S100000x64_1_0_0_1_n_n_wf : DotDims.WF S100000x64 S64x64 S100000x64 [1] [0] [0] [1] [] []
  dot_S100000x64_S64x128_S100000x128_1_0_0_1_n_n_wf : DotDims.WF S100000x64 S64x128 S100000x128 [1] [0] [0] [1] [] []
  dot_S100000x128_S128x15_S100000x15_1_0_0_1_n_n_wf : DotDims.WF S100000x128 S128x15 S100000x15 [1] [0] [0] [1] [] []

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def dot_S100000x3_S3x64_S100000x64_1_0_0_1_n_n : DotDims S100000x3 S3x64 S100000x64 where
  lhsContracting := [1]
  rhsContracting := [0]
  lhsNonContracting := [0]
  rhsNonContracting := [1]
  lhsBatch := []
  rhsBatch := []
  wf := dot_S100000x3_S3x64_S100000x64_1_0_0_1_n_n_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def dot_S100000x128_S128x15_S100000x15_1_0_0_1_n_n : DotDims S100000x128 S128x15 S100000x15 where
  lhsContracting := [1]
  rhsContracting := [0]
  lhsNonContracting := [0]
  rhsNonContracting := [1]
  lhsBatch := []
  rhsBatch := []
  wf := dot_S100000x128_S128x15_S100000x15_1_0_0_1_n_n_wf

class Facts : Prop extends Facts₀ where

variable [Facts]
-- ==== Proof.Spec.lean ====
/-
  The mathematics both programs compute, stated once over the extended reals, index by index.

  A graph convolution here is: project the node features (a row-by-column product), carry each projected row along every
  edge to the edge's target and add what arrives there (a gather followed by an accumulating scatter), scale by the
  inverse square roots of the degrees at both ends of the edge, add a bias, apply ELU. The two programs differ only in
  WHERE the degree scaling is applied: the reference multiplies each carried row by the product of the two end-point
  factors; the kernel scales the rows before they are carried (by the source's factor) and the sums after they have
  arrived (by the target's factor). The head is two dense layers and a row softmax, the same on both sides.
-/
import Idealize.ShloMosaic.PureOps.Ideal
import Idealize.ShloMosaic.Lib.ValueIdx

noncomputable section

namespace Cert.Spec

open Idealize.ShloMosaic Idealize.ShloMosaic.ValueIdx

/-- The shape of an n-by-k matrix, as a literal shape. -/
abbrev A2 (n k : Nat) : Shape := ⟨2, ![n, k]⟩
/-- The shape of a vector of length n, as a literal shape. -/
abbrev A1 (n : Nat) : Shape := ⟨1, ![n]⟩

/-- Rows times columns: entry (r, c) is the sum over l of X[r, l] · W[l, c]. -/
def mm {n k m : Nat} (X : (A2 n k).Idx → EReal) (W : (A2 k m).Idx → EReal) : (A2 n m).Idx → EReal :=
  fun j => ∑ l : Fin k, X (ix2 (j 0) l) * W (ix2 l (j 1))

/-- Row r multiplied by the r-th factor. -/
def rowScale {n k : Nat} (X : (A2 n k).Idx → EReal) (d : (A1 n).Idx → EReal) : (A2 n k).Idx → EReal :=
  fun j => X j * d (ix1 (j 0))

/-- The vector b added to every row. -/
def addRow {n k : Nat} (X : (A2 n k).Idx → EReal) (b : (A1 k).Idx → EReal) : (A2 n k).Idx → EReal :=
  fun j => X j + b (ix1 (j 1))

/-- ELU with unit slope: v where v is positive, exp(min(v, 0)) − 1 elsewhere. -/
def elu (v : EReal) : EReal := if 0 < v then v else Ideal.exp (min v 0) - 1

/-- ELU applied to every entry. -/
def eluAll {n k : Nat} (X : (A2 n k).Idx → EReal) : (A2 n k).Idx → EReal := fun j => elu (X j)

/-- The greatest entry of row r (the fold of max from −∞). -/
def rowMax {n k : Nat} (H : (A2 n k).Idx → EReal) (r : Fin n) : EReal :=
  (Finset.univ : Finset (Fin k)).fold max ⊥ (fun c => H (ix2 r c))

/-- The softmax of each row, shifted by the row's maximum: exp(H − max) over the row's sum of those. -/
def softmax {n k : Nat} (H : (A2 n k).Idx → EReal) : (A2 n k).Idx → EReal :=
  fun j => Ideal.div (Ideal.exp (H j - rowMax H (j 0)))
    (∑ c : Fin k, Ideal.exp (H (ix2 (j 0) c) - rowMax H (j 0)))

/-- Column 0 of an [n, 1] array, as a vector. -/
def colOf {n : Nat} (D : (A2 n 1).Idx → EReal) : (A1 n).Idx → EReal := fun i => D (ix2 (i 0) 0)
/-- Row 0 of a [1, k] array, as a vector. -/
def rowOf {k : Nat} (B : (A2 1 k).Idx → EReal) : (A1 k).Idx → EReal := fun i => B (ix2 0 (i 0))

/-- Every entry is a real number that is not negative. -/
def NonnegReal {ι : Type} (d : ι → EReal) : Prop := ∀ i, ∃ r : ℝ, 0 ≤ r ∧ d i = (r : EReal)

/-! ## The edge lists -/

/-- The number of nodes. -/
abbrev nN : Nat := 100000
/-- The number of edges once one self-loop per node is appended to the 3200000 edges of the input. -/
abbrev nE : Nat := 3300000

/-- An index vector over the edges laid out as a one-column matrix (what the gathers and scatters are given). -/
def col1 (v : IVec (A1 nE) 32) : IVec (A2 nE 1) 32 := fun j => v (ix1 (j 0))

/-- The wrap-around of a negative index: add the number of nodes to an entry that reads negative as a signed integer. -/
def wrapNeg (v : IVec (A1 nE) 32) : IVec (A1 nE) 32 :=
  fun e => if (v e).toInt < 0 then v e + 100000#32 else v e

/-- The gather of 64-wide rows, at the dimension numbers both programs state: entry (e, f) of the result is row idx[e, 0]
    of the operand at column f. -/
def g64 : GatherDims (A2 nN 64) (A2 nE 1) (A2 nE 64) where
  offsetDims := [1]
  collapsedSliceDims := [0]
  operandBatchingDims := []
  startIndicesBatchingDims := []
  startIndexMap := [0]
  indexVectorDim := 1
  sliceSizes := ![1, 64]
/-- The gather of scalars: entry e of the result is entry idx[e, 0] of the operand. -/
def g1 : GatherDims (A1 nN) (A2 nE 1) (A1 nE) where
  offsetDims := []
  collapsedSliceDims := [0]
  operandBatchingDims := []
  startIndicesBatchingDims := []
  startIndexMap := [0]
  indexVectorDim := 1
  sliceSizes := ![1]
/-- The accumulating scatter of 64-wide rows: update row e is added into row idx[e, 0] of the result. -/
def s64 : ScatterDims (A2 nN 64) (A2 nE 1) (A2 nE 64) where
  updateWindowDims := [1]
  insertedWindowDims := [0]
  scatterDimsToOperandDims := [0]
  indexVectorDim := 1
/-- The accumulating scatter of scalars: update e is added into entry idx[e, 0] of the result. -/
def s1 : ScatterDims (A1 nN) (A2 nE 1) (A1 nE) where
  updateWindowDims := []
  insertedWindowDims := [0]
  scatterDimsToOperandDims := [0]
  indexVectorDim := 1

/-- In-degree with the self-loop: at each node the number of edges whose (unwrapped) target is that node, as a sum of ones. -/
def deg (dstb : IVec (A2 nE 1) 32) : (A1 nN).Idx → EReal :=
  Ideal.hostScatterAdd s1 (fun _ => 0) dstb (fun _ => 1)

/-- The degree factor: 1/sqrt(max(deg, 1)) where the degree is positive, 0 elsewhere. -/
def disF (dg : (A1 nN).Idx → EReal) : (A1 nN).Idx → EReal :=
  fun i => if 0 < dg i then Ideal.rsqrt (max (dg i) 1) else 0

/-- The kernel's aggregation: carry row src[e] of X to dst[e] and add. -/
def aggK (srcn dstb : IVec (A2 nE 1) 32) (X : (A2 nN 64).Idx → EReal) : (A2 nN 64).Idx → EReal :=
  Ideal.hostScatterAdd s64 (fun _ => 0) dstb (Host.gather g64 X srcn)

/-- The reference's aggregation: each carried row multiplied by d[src[e]] · d[dst[e]] on the way. -/
def aggR (srcn dstn dstb : IVec (A2 nE 1) 32) (d : (A1 nN).Idx → EReal) (X : (A2 nN 64).Idx → EReal) :
    (A2 nN 64).Idx → EReal :=
  Ideal.hostScatterAdd s64 (fun _ => 0) dstb
    (fun j => Host.gather g64 X srcn j * (Host.gather g1 d srcn (ix1 (j 0)) * Host.gather g1 d dstn (ix1 (j 0))))

/-! ## The three dense kernels, each as one function of whole arrays -/

/-- The projection. -/
def R0 (X : (A2 nN 3).Idx → EReal) (W : (A2 3 64).Idx → EReal) : (A2 nN 64).Idx → EReal := mm X W

/-- Finish a convolution (scale by the target's factor, bias, ELU), project, scale by the source's factor of the next one. -/
def R1 (A : (A2 nN 64).Idx → EReal) (D : (A2 nN 1).Idx → EReal) (B : (A2 1 64).Idx → EReal) (W : (A2 64 64).Idx → EReal) :
    (A2 nN 64).Idx → EReal :=
  rowScale (mm (eluAll (addRow (rowScale A (colOf D)) (rowOf B))) W) (colOf D)

/-- Finish the second convolution, then the two dense layers and the softmax. -/
def R2 (A : (A2 nN 64).Idx → EReal) (D : (A2 nN 1).Idx → EReal) (B : (A2 1 64).Idx → EReal) (Wm1 : (A2 64 128).Idx → EReal)
    (Bm1 : (A2 1 128).Idx → EReal) (Wm2 : (A2 128 15).Idx → EReal) (Bm2 : (A2 1 15).Idx → EReal) : (A2 nN 15).Idx → EReal :=
  softmax (addRow (mm (eluAll (addRow (mm (eluAll (addRow (rowScale A (colOf D)) (rowOf B))) Wm1) (rowOf Bm1))) Wm2) (rowOf Bm2))

/-! ## The two programs' results -/

/-- The kernel program's result. -/
def OutK (x : (A2 nN 3).Idx → EReal) (W1 : (A2 3 64).Idx → EReal) (b1 : (A1 64).Idx → EReal) (W2 : (A2 64 64).Idx → EReal)
    (b2 : (A1 64).Idx → EReal) (Wm1 : (A2 64 128).Idx → EReal) (bm1 : (A1 128).Idx → EReal) (Wm2 : (A2 128 15).Idx → EReal)
    (bm2 : (A1 15).Idx → EReal) (srcn dstb : IVec (A2 nE 1) 32) : (A2 nN 15).Idx → EReal :=
  let d := disF (deg dstb)
  let hws1 := mm (rowScale x d) W1
  let hws2 := rowScale (mm (eluAll (addRow (rowScale (aggK srcn dstb hws1) d) b1)) W2) d
  softmax (addRow (mm (eluAll (addRow (mm (eluAll (addRow (rowScale (aggK srcn dstb hws2) d) b2)) Wm1) bm1)) Wm2) bm2)

/-- The reference program's result. -/
def OutR (x : (A2 nN 3).Idx → EReal) (W1 : (A2 3 64).Idx → EReal) (b1 : (A1 64).Idx → EReal) (W2 : (A2 64 64).Idx → EReal)
    (b2 : (A1 64).Idx → EReal) (Wm1 : (A2 64 128).Idx → EReal) (bm1 : (A1 128).Idx → EReal) (Wm2 : (A2 128 15).Idx → EReal)
    (bm2 : (A1 15).Idx → EReal) (srcn dstn dstb : IVec (A2 nE 1) 32) : (A2 nN 15).Idx → EReal :=
  let d := disF (deg dstb)
  let l1 := eluAll (addRow (aggR srcn dstn dstb d (mm x W1)) b1)
  let l2 := eluAll (addRow (aggR srcn dstn dstb d (mm l1 W2)) b2)
  softmax (addRow (mm (eluAll (addRow (mm l2 Wm1) bm1)) Wm2) bm2)

end Cert.Spec

end
-- ==== Proof.LibAlg.lean ====
import proofs.«407343_j65274912965021_3_alg».proof.Proof.Spec
import Mathlib.Data.EReal.Operations
import Mathlib.Data.EReal.Inv
import Mathlib.Analysis.SpecialFunctions.Sqrt

noncomputable section

namespace Cert.Spec

open Idealize.ShloMosaic Idealize.ShloMosaic.ValueIdx

/-- A sum of extended reals times a real that is not negative is the sum of the products. -/
theorem sum_mul_nonnegReal {ι : Type} (s : Finset ι) (f : ι → EReal) (r : ℝ) (hr : 0 ≤ r) :
    (∑ i ∈ s, f i) * (r : EReal) = ∑ i ∈ s, f i * (r : EReal) := by
  classical
  -- induction on the index set; the step is right-distributivity over a factor that is finite and not negative
  have hr0 : (0 : EReal) ≤ (r : EReal) := EReal.coe_nonneg.mpr hr
  induction s using Finset.induction_on with
  | empty => simp
  | insert a s ha ih =>
    rw [Finset.sum_insert ha, Finset.sum_insert ha,
      EReal.right_distrib_of_nonneg_of_ne_top hr0 (EReal.coe_ne_top r), ih]

/-- The degree factor is a real number that is not negative, whatever the degrees are. -/
theorem disF_nonnegReal (dg : (A1 nN).Idx → EReal) : NonnegReal (disF dg) := by
  intro i
  unfold disF
  by_cases h : 0 < dg i
  · rw [if_pos h]
    -- the argument of the inverse square root is at least 1: it is +∞ (value 0) or a real r ≥ 1 (value 1/√r)
    have h1 : (1 : EReal) ≤ max (dg i) 1 := le_max_right _ _
    generalize max (dg i) 1 = m at h1
    induction m using EReal.rec with
    | bot => exact absurd h1 (not_le.mpr (EReal.bot_lt_zero.trans zero_lt_one))
    | top => exact ⟨0, le_rfl, by simp⟩
    | coe r =>
      have hr1 : (1 : ℝ) ≤ r := by exact_mod_cast h1
      have hn : ¬ r < 0 := by linarith
      have hz : ¬ r = 0 := by linarith
      refine ⟨(Real.sqrt r)⁻¹, inv_nonneg.mpr (Real.sqrt_nonneg r), ?_⟩
      rw [Ideal.rsqrt_coe, if_neg hn, if_neg hz]
  · rw [if_neg h]
    exact ⟨0, le_rfl, by simp⟩

/-- Scaling the rows before the product is scaling them after it, for factors that are reals and not negative. -/
theorem mm_rowScale {n k m : Nat} (X : (A2 n k).Idx → EReal) (W : (A2 k m).Idx → EReal) (d : (A1 n).Idx → EReal)
    (hd : NonnegReal d) : mm (rowScale X d) W = rowScale (mm X W) d := by
  funext j
  obtain ⟨r, hr, hdr⟩ := hd (ix1 (j 0))
  -- every term of row j's sum carries the same factor d[j 0]; commute it to the right and pull it out of the sum
  show (∑ l : Fin k, (X (ix2 (j 0) l) * d (ix1 ((ix2 (j 0) l : (A2 n k).Idx) 0))) * W (ix2 l (j 1)))
      = (∑ l : Fin k, X (ix2 (j 0) l) * W (ix2 l (j 1))) * d (ix1 (j 0))
  have e : ∀ l : Fin k, (ix2 (j 0) l : (A2 n k).Idx) 0 = j 0 := fun l => rfl
  simp only [e]
  rw [hdr, sum_mul_nonnegReal _ _ r hr]
  exact Finset.sum_congr rfl (fun l _ => mul_right_comm _ _ _)

/-- ELU spelled with the dead branch's argument replaced by 0, the exponential minus one, and the slope 1 written out as a
    factor, is ELU. -/
theorem elu_ref (v : EReal) : (if 0 < v then v else 1 * (Ideal.exp (if 0 < v then 0 else v) - 1)) = elu v := by
  unfold elu
  by_cases h : 0 < v
  · rw [if_pos h, if_pos h]
  · rw [if_neg h, if_neg h, if_neg h, one_mul, min_eq_left (not_lt.mp h)]

end Cert.Spec

end
-- ==== Proof.LibGS.lean ====
import proofs.«407343_j65274912965021_3_alg».proof.Proof.Spec
import proofs.«407343_j65274912965021_3_alg».proof.Proof.LibAlg

noncomputable section

namespace Cert.Spec

open Idealize.ShloMosaic Idealize.ShloMosaic.ValueIdx

/-- A start index read as a signed integer and clamped into the node range [0, 99999]: the row a gather reads. -/
def clampN (v : BitVec 32) : Fin 100000 := ⟨min v.toInt.toNat 99999, by omega⟩

/-- The row gather read at (e, f): row clamp(idx[e, 0]) of the operand, column f. -/
theorem g64_read (Y : (A2 nN 64).Idx → EReal) (idx : IVec (A2 nE 1) 32) (e : Fin 3300000) (f : Fin 64) :
    Host.gather g64 Y idx (ix2 e f) = Y (ix2 (clampN (idx (ix2 e 0))) f) := by
  unfold Host.gather
  refine congrArg Y (funext fun a => Fin.ext ?_)
  have hsi : g64.siIdx (ix2 e f) ⟨List.idxOf (0 : Fin 2) g64.startIndexMap,
      List.idxOf_lt_length_iff.2 (List.mem_singleton.mpr rfl)⟩ = ix2 e 0 := by
    funext b; refine Fin.ext ?_
    match b with
    | ⟨0, _⟩ => rfl
    | ⟨1, _⟩ => rfl
  match a with
  | ⟨0, _⟩ =>
    show g64.start (ix2 e f) idx 0 + g64.batchCoord (ix2 e f) 0 + g64.offCoord (ix2 e f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ g64.startIndexMap from List.mem_singleton.mpr rfl), hsi]
    rfl
  | ⟨1, _⟩ =>
    show g64.start (ix2 e f) idx 1 + g64.batchCoord (ix2 e f) 1 + g64.offCoord (ix2 e f) 1 = f.val
    rw [GatherDims.batchCoord_eq_zero _ _ _ List.not_mem_nil]
    have hs : g64.start (ix2 e f) idx 1 = 0 := by
      unfold GatherDims.start
      rw [dif_neg (by decide)]
    have ho : g64.offCoord (ix2 e f) 1 = f.val := by
      unfold GatherDims.offCoord
      rw [dif_pos (by decide)]
      rfl
    rw [hs, ho, Nat.zero_add]

/-- The scalar gather read at e: entry clamp(idx[e, 0]) of the operand. -/
theorem g1_read (d : (A1 nN).Idx → EReal) (idx : IVec (A2 nE 1) 32) (e : Fin 3300000) :
    Host.gather g1 d idx (ix1 e) = d (ix1 (clampN (idx (ix2 e 0)))) := by
  unfold Host.gather
  refine congrArg d (funext fun a => Fin.ext ?_)
  have hsi : g1.siIdx (ix1 e) ⟨List.idxOf (0 : Fin 1) g1.startIndexMap,
      List.idxOf_lt_length_iff.2 (List.mem_singleton.mpr rfl)⟩ = ix2 e 0 := by
    funext b; refine Fin.ext ?_
    match b with
    | ⟨0, _⟩ => rfl
    | ⟨1, _⟩ => rfl
  match a with
  | ⟨0, _⟩ =>
    show g1.start (ix1 e) idx 0 + g1.batchCoord (ix1 e) 0 + g1.offCoord (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ g1.startIndexMap from List.mem_singleton.mpr rfl), hsi]
    rfl

/-- An update row (e, ·) that the accumulating scatter lands on row i has target dst[e] = i, read signed. -/
theorem s64_target (dst : IVec (A1 nE) 32) (e : Fin 3300000) (f : Fin 64) (i : (A2 nN 64).Idx)
    (h : s64.resultIdx? (ix2 e f) (col1 dst) = some i) : (dst (ix1 e)).toInt = ((i 0).val : Int) := by
  have hsi : s64.siIdx (ix2 e f) ⟨List.idxOf (0 : Fin 2) s64.scatterDimsToOperandDims,
      List.idxOf_lt_length_iff.2 (List.mem_singleton.mpr rfl)⟩ = ix2 e 0 := by
    funext b; refine Fin.ext ?_
    match b with
    | ⟨0, _⟩ => rfl
    | ⟨1, _⟩ => rfl
  have hs : s64.start (ix2 e f) (col1 dst) 0 = (dst (ix1 e)).toInt := by
    unfold ScatterDims.start
    rw [dif_pos (show (0 : Fin 2) ∈ s64.scatterDimsToOperandDims from List.mem_singleton.mpr rfl), hsi]
    rfl
  have hw : s64.window (ix2 e f) 0 = 0 := by
    unfold ScatterDims.window
    rw [dif_neg (by decide)]
  unfold ScatterDims.resultIdx? at h
  split at h
  · rename_i hall
    have hv := congrArg Fin.val (congrFun (Option.some.inj h) 0)
    have h0 := (hall 0).1
    rw [hs, hw] at h0
    change (s64.start (ix2 e f) (col1 dst) 0 + ((s64.window (ix2 e f) 0 : Nat) : Int)).toNat = (i 0).val at hv
    rw [hs, hw] at hv
    omega
  · exact absurd h (by simp)

/-- One edge's term: the two end-point factors, the source's read at the same node as the carried row and the
    target's being the landing node's, regroup by associativity. -/
theorem edge_term (srcn : IVec (A2 nE 1) 32) (dst : IVec (A1 nE) 32) (d : (A1 nN).Idx → EReal) (X : (A2 nN 64).Idx → EReal)
    (e : Fin 3300000) (f : Fin 64) (p : Fin 100000) (ht : (dst (ix1 e)).toInt = (p.val : Int)) :
    Host.gather g64 X srcn (ix2 e f) * (Host.gather g1 d srcn (ix1 e) * Host.gather g1 d (col1 (wrapNeg dst)) (ix1 e))
      = Host.gather g64 (rowScale X d) srcn (ix2 e f) * d (ix1 p) := by
  have hw : clampN (col1 (wrapNeg dst) (ix2 e 0)) = p := by
    show clampN (if (dst (ix1 e)).toInt < 0 then dst (ix1 e) + 100000#32 else dst (ix1 e)) = p
    rw [if_neg (by omega)]
    refine Fin.ext ?_
    show min (dst (ix1 e)).toInt.toNat 99999 = p.val
    rw [ht]
    have := p.isLt
    omega
  rw [g64_read, g64_read, g1_read, g1_read, hw]
  exact (mul_assoc _ _ _).symm

/-- The reference's aggregation, which scales every carried row by the factors of both ends of its edge, is the kernel's
    aggregation of rows scaled by their own factor beforehand, scaled by the target's factor afterwards: an edge that
    lands on node i has target i, so the target's factor is the same for every term of the sum at i. -/
theorem aggR_eq (srcn : IVec (A2 nE 1) 32) (dst : IVec (A1 nE) 32) (d : (A1 nN).Idx → EReal) (hd : NonnegReal d)
    (X : (A2 nN 64).Idx → EReal) :
    aggR srcn (col1 (wrapNeg dst)) (col1 dst) d X = rowScale (aggK srcn (col1 dst) (rowScale X d)) d := by
  funext i
  obtain ⟨r, hr, hdr⟩ := hd (ix1 (i 0))
  show Ideal.hostScatterAdd s64 (fun _ => 0) (col1 dst)
      (fun j => Host.gather g64 X srcn j * (Host.gather g1 d srcn (ix1 (j 0)) * Host.gather g1 d (col1 (wrapNeg dst)) (ix1 (j 0)))) i
    = Ideal.hostScatterAdd s64 (fun _ => 0) (col1 dst) (Host.gather g64 (rowScale X d) srcn) i * d (ix1 (i 0))
  unfold Ideal.hostScatterAdd
  rw [hdr, zero_add, zero_add, sum_mul_nonnegReal _ _ r hr, ← hdr]
  refine Finset.sum_congr rfl (fun j hj => ?_)
  have hj' := (Finset.mem_filter.mp hj).2
  obtain ⟨e, f, rfl⟩ : ∃ e f, j = ix2 e f := ⟨j 0, j 1, eq_ix2 j⟩
  exact edge_term srcn dst d X e f (i 0) (s64_target dst e f i hj')

end Cert.Spec

end
-- ==== Proof.Bridge.lean ====
import proofs.«407343_j65274912965021_3_alg».proof.Proof.Spec
import proofs.«407343_j65274912965021_3_alg».proof.Proof.LibAlg
import proofs.«407343_j65274912965021_3_alg».proof.Proof.LibGS

noncomputable section

namespace Cert.Spec

open Idealize.ShloMosaic Idealize.ShloMosaic.ValueIdx

/-- The two programs compute one function: moving the degree factors out of the carried rows (to the rows before they
    are carried, and to the sums after they arrive) changes nothing, since the factors are reals that are not negative. -/
theorem OutK_eq_OutR (x : (A2 nN 3).Idx → EReal) (W1 : (A2 3 64).Idx → EReal) (b1 : (A1 64).Idx → EReal) (W2 : (A2 64 64).Idx → EReal)
    (b2 : (A1 64).Idx → EReal) (Wm1 : (A2 64 128).Idx → EReal) (bm1 : (A1 128).Idx → EReal) (Wm2 : (A2 128 15).Idx → EReal)
    (bm2 : (A1 15).Idx → EReal) (srcn : IVec (A2 nE 1) 32) (dst : IVec (A1 nE) 32) :
    OutK x W1 b1 W2 b2 Wm1 bm1 Wm2 bm2 srcn (col1 dst)
      = OutR x W1 b1 W2 b2 Wm1 bm1 Wm2 bm2 srcn (col1 (wrapNeg dst)) (col1 dst) := by
  -- the degree factors, reals that are not negative
  have hd : NonnegReal (disF (deg (col1 dst))) := disF_nonnegReal _
  generalize hdd : disF (deg (col1 dst)) = d at hd
  -- first convolution: scaling x's rows before the projection is scaling the projected rows, and the reference's
  -- aggregation of the projected rows is the kernel's aggregation of the scaled ones, scaled again on arrival
  have e1 : rowScale (aggK srcn (col1 dst) (mm (rowScale x d) W1)) d
      = aggR srcn (col1 (wrapNeg dst)) (col1 dst) d (mm x W1) := by
    rw [mm_rowScale x W1 d hd, aggR_eq srcn dst d hd]
  -- second convolution: the same law of the aggregation, for the rows projected by W2
  have e2 : ∀ Y : (A2 nN 64).Idx → EReal, rowScale (aggK srcn (col1 dst) (rowScale Y d)) d
      = aggR srcn (col1 (wrapNeg dst)) (col1 dst) d Y := fun Y => (aggR_eq srcn dst d hd Y).symm
  show softmax (addRow (mm (eluAll (addRow (mm (eluAll (addRow (rowScale (aggK srcn (col1 dst)
        (rowScale (mm (eluAll (addRow (rowScale (aggK srcn (col1 dst) (mm (rowScale x (disF (deg (col1 dst)))) W1))
          (disF (deg (col1 dst)))) b1)) W2) (disF (deg (col1 dst))))) (disF (deg (col1 dst)))) b2)) Wm1) bm1)) Wm2) bm2)
    = softmax (addRow (mm (eluAll (addRow (mm (eluAll (addRow (aggR srcn (col1 (wrapNeg dst)) (col1 dst) (disF (deg (col1 dst)))
        (mm (eluAll (addRow (aggR srcn (col1 (wrapNeg dst)) (col1 dst) (disF (deg (col1 dst))) (mm x W1)) b1)) W2)) b2)) Wm1) bm1)) Wm2) bm2)
  rw [hdd, e1, e2]

end Cert.Spec

end
-- ==== Proof.KRegion0.lean ====
import proofs.«407343_j65274912965021_3_alg».proof.Proof.Gen.KernelIdeal.Frame
import proofs.«407343_j65274912965021_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KV

open Idealize.ShloMosaic Idealize.ShloMosaic.ValueIdx Idealize.ShloMosaic.TcCoe Idealize.SL.Sem
open Cert.KernelIdeal Cert.KernelIdeal.Gen
open Idealize.ShloMosaic.Pipeline (Dat Cfg Window)

/-- At output index (r, c) and contraction position k the left operand is read at row r … -/
theorem lhs_dot0_0 (j : S4000x64.Idx) (k : dot_S4000x3_S3x64_S4000x64_1_0_0_1_n_n.contr.Idx) :
    (dot_S4000x3_S3x64_S4000x64_1_0_0_1_n_n.lhsIdx j k 0 : ℕ) = (j 0).val := by
  simp [DotDims.lhsIdx, dot_S4000x3_S3x64_S4000x64_1_0_0_1_n_n]; rfl
/-- … and column k; -/
theorem lhs_dot0_1 (j : S4000x64.Idx) (k : dot_S4000x3_S3x64_S4000x64_1_0_0_1_n_n.contr.Idx) :
    (dot_S4000x3_S3x64_S4000x64_1_0_0_1_n_n.lhsIdx j k 1 : ℕ) = (k ⟨0, by decide⟩).val :=
  dot_S4000x3_S3x64_S4000x64_1_0_0_1_n_n.lhsIdx_val_of_single rfl j k
/-- the right operand is read at row k … -/
theorem rhs_dot0_0 (j : S4000x64.Idx) (k : dot_S4000x3_S3x64_S4000x64_1_0_0_1_n_n.contr.Idx) :
    (dot_S4000x3_S3x64_S4000x64_1_0_0_1_n_n.rhsIdx j k 0 : ℕ) = (k ⟨0, by decide⟩).val :=
  dot_S4000x3_S3x64_S4000x64_1_0_0_1_n_n.rhsIdx_val_of_single rfl j k
/-- … and column c. -/
theorem rhs_dot0_1 (j : S4000x64.Idx) (k : dot_S4000x3_S3x64_S4000x64_1_0_0_1_n_n.contr.Idx) :
    (dot_S4000x3_S3x64_S4000x64_1_0_0_1_n_n.rhsIdx j k 1 : ℕ) = (j 1).val := by
  simp [DotDims.rhsIdx, dot_S4000x3_S3x64_S4000x64_1_0_0_1_n_n]; rfl

/-- The block's payload at (p, q): row p of the loaded rows times column q of the weights. -/
theorem pay_apply (x0 : Vec Ideal S4000x3 .f32) (x1 : Vec Ideal S3x64 .f32) (p : Fin 4000) (q : Fin 64) :
    k0_pay1 (F := Ideal) x0 x1 (ix2 p q) = ∑ l : Fin 3, x0 (ix2 p l) * x1 (ix2 l q) := by
  unfold k0_pay1
  refine (Ideal.matmul_constant_zero_apply dot_S4000x3_S3x64_S4000x64_1_0_0_1_n_n none _ _ (ix2 p q)).trans ?_
  rw [← Equiv.sum_comp (contrEquiv1 dot_S4000x3_S3x64_S4000x64_1_0_0_1_n_n 3 rfl rfl).symm]
  refine Finset.sum_congr rfl fun l _ => ?_
  have c := contrEquiv1_symm_val dot_S4000x3_S3x64_S4000x64_1_0_0_1_n_n 3 rfl rfl l
  have hl : dot_S4000x3_S3x64_S4000x64_1_0_0_1_n_n.lhsIdx (ix2 p q)
      ((contrEquiv1 dot_S4000x3_S3x64_S4000x64_1_0_0_1_n_n 3 rfl rfl).symm l) = ix2 p l := by
    funext a; apply Fin.ext
    match a with
    | ⟨0, _⟩ => exact lhs_dot0_0 _ _
    | ⟨1, _⟩ => exact (lhs_dot0_1 _ _).trans c
  have hr : dot_S4000x3_S3x64_S4000x64_1_0_0_1_n_n.rhsIdx (ix2 p q)
      ((contrEquiv1 dot_S4000x3_S3x64_S4000x64_1_0_0_1_n_n 3 rfl rfl).symm l) = ix2 l q := by
    funext a; apply Fin.ext
    match a with
    | ⟨0, _⟩ => exact (rhs_dot0_0 _ _).trans c
    | ⟨1, _⟩ => exact rhs_dot0_1 _ _
  rw [hl, hr, truncf_apply, truncf_apply, shapeCast_self]

variable (V : (c : Dev nD) → (b : Ref sig .tc) → Buf (Elt Ideal) ((c : Thread nD τ).loc b))

/-- The block's payload read where the array's index says: at a block index j whose row of the loaded rows is row
    (i 0) of X and whose column of the weights is column (i 1) of W, it is the product X · W at i. -/
theorem pay_blk (x0 : Vec Ideal S4000x3 .f32) (x1 : Vec Ideal S3x64 .f32)
    (X : (Cert.Spec.A2 Cert.Spec.nN 3).Idx → EReal) (W : (Cert.Spec.A2 3 64).Idx → EReal)
    (j : S4000x64.Idx) (i : (Cert.Spec.A2 Cert.Spec.nN 64).Idx)
    (h0 : ∀ l : Fin 3, x0 (ix2 (j 0) l) = X (ix2 (i 0) l))
    (h1 : ∀ l : Fin 3, x1 (ix2 l (j 1)) = W (ix2 l (i 1))) :
    k0_pay1 (F := Ideal) x0 x1 j = Cert.Spec.R0 X W i := by
  obtain ⟨p, q, rfl⟩ : ∃ (p : Fin 4000) (q : Fin 64), j = ix2 p q := ⟨j 0, j 1, eq_ix2 j⟩
  rw [pay_apply]
  unfold Cert.Spec.R0 Cert.Spec.mm
  exact Finset.sum_congr rfl fun l _ => by rw [← h0 l, ← h1 l]

/-- The whole-block accesses start at offset (0, 0). -/
theorem hz0 : (![0, 0] : Fin 2 → Nat) = fun _ => 0 := funext fun a => by fin_cases a <;> rfl

/-- The printed index maps over the 25 points: the row-blocked windows sit at row block t, the weights at (0, 0). -/
theorem idx_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) ≤ 24
    ∧ win0_2.index t (1 : Fin 2) = 0 :=
  (by decide +kernel : ∀ t : Fin grid0.N, _)

/-- Every row block is some point's. -/
theorem idx_onto0 : ∀ (b : Fin 25), ∃ t : Fin cfg0.N, win0_2.index t = ![b.val, 0] :=
  (by decide +kernel : ∀ (b : Fin 25), ∃ t : Fin grid0.N, win0_2.index t = ![b.val, 0])

/-- What point t writes back is block t of the product of the region's two input arrays. -/
theorem flushed0_eq (c : Dev nD) (t : Fin cfg0.N) :
    (dat0 (F := Ideal) V c).flushed 2 t
      = ((cfg0.win 2).blk t).view.read (Elt Ideal) (Cert.Spec.R0 (V c main_v19) (V c main_arg2)) := by
  show (cfg0.win 2).cut (grid0.coords t) ((dat0 V c).after 2 t) = _
  rw [after0_2]
  unfold out0_2
  rw [View.canon_unit_zero hz0]
  simp only [View.ld_unit_zero (S := S4000x3) hz0, View.ld_unit_zero (S := S3x64) hz0]
  obtain ⟨e0, e1, e2, e3, e4, e5⟩ := idx_facts0 t
  funext j
  show k0_pay1 (F := Ideal) (iblk0 V c 0 t) (iblk0 V c 1 t) j
    = Cert.Spec.R0 (V c main_v19) (V c main_arg2) (((cfg0.win 2).blk t).view.emb j)
  refine pay_blk _ _ _ _ j _ (fun l => ?_) (fun l => ?_)
  · show V c main_v19 (((cfg0.win 0).blk t).view.emb (ix2 (j 0) l))
      = V c main_v19 (ix2 ((((cfg0.win 2).blk t).view.emb j) 0) l)
    refine congrArg _ ?_
    funext a; apply Fin.ext
    match a with
    | ⟨0, _⟩ => show win0_0.index t (0 : Fin 2) * 4000 + 1 * (j 0).val = win0_2.index t (0 : Fin 2) * 4000 + 1 * (j 0).val; omega
    | ⟨1, _⟩ => show win0_0.index t (1 : Fin 2) * 3 + 1 * l.val = l.val; omega
  · show V c main_arg2 (((cfg0.win 1).blk t).view.emb (ix2 l (j 1)))
      = V c main_arg2 (ix2 l ((((cfg0.win 2).blk t).view.emb j) 1))
    refine congrArg _ ?_
    funext a; apply Fin.ext
    match a with
    | ⟨0, _⟩ => show win0_1.index t (0 : Fin 2) * 3 + 1 * l.val = l.val; omega
    | ⟨1, _⟩ => show win0_1.index t (1 : Fin 2) * 64 + 1 * (j 1).val = win0_2.index t (1 : Fin 2) * 64 + 1 * (j 1).val; omega

/-- An index of the output array is in point t's block iff each coordinate is in the block's range on its axis. -/
theorem mem_blk0 (t : Fin cfg0.N) (i : S100000x64.Idx) :
    i ∈ ((cfg0.win 2).blk t).view.set ↔ ∀ a : Fin 2, win0_2.index t a * S4000x64.size a ≤ (i a).val ∧ (i a).val < win0_2.index t a * S4000x64.size a + S4000x64.size a := by
  show i ∈ ((View.whole main_v20).slice (win0_2.rect t)).set ↔ _
  rw [View.set_slice_whole, Rect.mem_set_unit]
  exact Iff.rfl

/-- The row blocks cover the array: row r is in block r / 4000. -/
theorem cover0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := idx_onto0 ⟨(i 0).val / 4000, by omega⟩
  have q0 : win0_2.index t (0 : Fin 2) = (i 0).val / 4000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 4000 ≤ (i 0).val ∧ (i 0).val < win0_2.index t (0 : Fin 2) * 4000 + 4000; omega
  | ⟨1, _⟩ => show win0_2.index t (1 : Fin 2) * 64 ≤ (i 1).val ∧ (i 1).val < win0_2.index t (1 : Fin 2) * 64 + 64; omega

/-- The projection kernel's output array after its 25 row blocks: every row of the scaled features times the weights. -/
theorem final0 (c : Dev nD) :
    (dat0 (F := Ideal) V c).arrAt 2 cfg0.N = Cert.Spec.R0 (V c main_v19) (V c main_arg2) :=
  (dat0 (F := Ideal) V c).arrAt_eq_of_cover 2 (Cert.Spec.R0 (V c main_v19) (V c main_arg2))
    (fun t _ => flushed0_eq V c t) cover0

end Cert.KernelIdeal.KV

end
-- ==== Proof.LibRead.lean ====
import proofs.«407343_j65274912965021_3_alg».proof.Proof.Spec
import Idealize.ShloMosaic.Lib.Pipeline.Value
import Idealize.ShloMosaic.Lib.ValueLayout
import Idealize.ShloMosaic.PureOps.Ideal.Laws

noncomputable section

namespace Cert.Spec

open Idealize.ShloMosaic Idealize.ShloMosaic.ValueIdx

/-- The f32 pattern 0x3F800000 is the number 1. -/
theorem ofBits_one_f32 : Ideal.ofBits .f32 0x3F800000#32 = 1 := by
  simp [Ideal.ofBits, Ideal.ieee]
  rw [← EReal.coe_mul, ← EReal.coe_one]
  congr 1
  norm_num
/-- The f32 pattern 0xFF800000 is −∞. -/
theorem ofBits_negInf_f32 : Ideal.ofBits .f32 0xFF800000#32 = ⊥ := by
  simp [Ideal.ofBits, Ideal.ieee]

/-- A coordinate on an axis of extent 1 is 0: the value a broadcast reads there. -/
theorem val_if_one {n : Nat} (x : Fin n) : x.val = if n = 1 then 0 else x.val := by
  split_ifs with h
  · subst h; omega
  · rfl

/-- A scalar float constant broadcast to any shape is that value everywhere. -/
theorem splat_read (s : Shape) (h : (⟨0, ![]⟩ : Shape).BroadcastsInDim s (![] : Fin 0 → Fin s.rank)) (b : BitVec 32) :
    broadcastInDim s ![] h (constant (F := Ideal) (⟨0, ![]⟩ : Shape) .f32 b) = fun _ => Ideal.ofBits .f32 b := by
  funext j
  exact broadcastInDim_apply ![] h _ j ix0 (fun a => a.elim0)
/-- A scalar integer constant broadcast to any shape is that word everywhere. -/
theorem splatI_read (s : Shape) (h : (⟨0, ![]⟩ : Shape).BroadcastsInDim s (![] : Fin 0 → Fin s.rank)) (b : BitVec 32) :
    broadcastInDim s ![] h (constantI (⟨0, ![]⟩ : Shape) 32 b) = fun _ => b := by
  funext j
  exact broadcastInDim_apply ![] h _ j ix0 (fun a => a.elim0)

/-- An [n, 1] column broadcast along the rows to [n, k] reads, at (r, c), the column's entry r. -/
theorem bcast_col_read {α : Type} {n k : Nat} (h : (A2 n 1).BroadcastsInDim (A2 n k) (![0, 1] : Fin 2 → Fin (A2 n k).rank))
    (D : (A2 n 1).Idx → α) : broadcastInDim (A2 n k) ![0, 1] h D = fun j => D (ix2 (j 0) 0) := by
  funext j
  refine broadcastInDim_apply ![0, 1] h D j (ix2 (j 0) 0) (fun a => ?_)
  match a with
  | ⟨0, _⟩ => exact val_if_one (n := n) (j 0)
  | ⟨1, _⟩ => rfl
/-- A [1, k] row broadcast down the columns to [n, k] reads, at (r, c), the row's entry c. -/
theorem bcast_row_read {α : Type} {n k : Nat} (h : (A2 1 k).BroadcastsInDim (A2 n k) (![0, 1] : Fin 2 → Fin (A2 n k).rank))
    (B : (A2 1 k).Idx → α) : broadcastInDim (A2 n k) ![0, 1] h B = fun j => B (ix2 0 (j 1)) := by
  funext j
  refine broadcastInDim_apply ![0, 1] h B j (ix2 0 (j 1)) (fun a => ?_)
  match a with
  | ⟨0, _⟩ => rfl
  | ⟨1, _⟩ => exact val_if_one (n := k) (j 1)
/-- A vector of length k laid out as the one row of a [1, k] array reads, at (0, c), the vector's entry c. -/
theorem bcast_vec_row_read {α : Type} {k : Nat} (h : (A1 k).BroadcastsInDim (A2 1 k) (![1] : Fin 1 → Fin (A2 1 k).rank))
    (b : (A1 k).Idx → α) : broadcastInDim (A2 1 k) ![1] h b = fun j => b (ix1 (j 1)) := by
  funext j
  refine broadcastInDim_apply ![1] h b j (ix1 (j 1)) (fun a => ?_)
  match a with
  | ⟨0, _⟩ => exact val_if_one (n := k) (j 1)
/-- A vector of length n laid out as the one column of an [n, 1] array reads, at (r, 0), the vector's entry r. -/
theorem bcast_vec_col_read {α : Type} {n : Nat} (h : (A1 n).BroadcastsInDim (A2 n 1) (![0] : Fin 1 → Fin (A2 n 1).rank))
    (d : (A1 n).Idx → α) : broadcastInDim (A2 n 1) ![0] h d = fun j => d (ix1 (j 0)) := by
  funext j
  refine broadcastInDim_apply ![0] h d j (ix1 (j 0)) (fun a => ?_)
  match a with
  | ⟨0, _⟩ => exact val_if_one (n := n) (j 0)

/-- An edge vector laid out as one column. -/
theorem col1_read (h : (A1 nE).BroadcastsInDim (A2 nE 1) (![0] : Fin 1 → Fin (A2 nE 1).rank)) (v : IVec (A1 nE) 32) :
    broadcastInDim (A2 nE 1) ![0] h v = col1 v :=
  bcast_vec_col_read h v

/-- A one-bit word decided by a proposition selects as the `if` on it. -/
theorem select_ofBool_decide {α : Type} (p : Prop) [Decidable p] (a b : α) :
    Scalar.select (BitVec.ofBool (decide p)) a b = if p then a else b := by
  by_cases hp : p
  · rw [if_pos hp, decide_eq_true hp]; exact select_one a b
  · rw [if_neg hp, decide_eq_false hp]; exact select_zero a b

/-- The wrap of negative indices as the programs print it: compare with 0, add the node count, select. -/
theorem wrapNeg_read (v z n : IVec (A1 nE) 32) (hz : z = fun _ => 0#32) (hn : n = fun _ => 100000#32) :
    select (cmpi .slt v z) (addi v n) v = wrapNeg v := by
  subst hz hn
  funext e
  show Scalar.select (BitVec.ofBool ((v e).slt 0#32)) (v e + 100000#32) (v e) = if (v e).toInt < 0 then v e + 100000#32 else v e
  have hs : (v e).slt 0#32 = decide ((v e).toInt < 0) := by
    simp [BitVec.slt]
  rw [hs]
  exact select_ofBool_decide _ _ _

/-- The degree factor as the programs print it. -/
theorem dis_read (dg z o z' : (A1 nN).Idx → EReal) (hz : z = fun _ => 0) (ho : o = fun _ => 1) (hz' : z' = fun _ => 0) :
    select (cmpf (F := Ideal) (φ := .f32) .ogt dg z) (Host.rsqrt (F := Ideal) (φ := .f32) (maximumf (F := Ideal) (φ := .f32) dg o)) z' = disF dg := by
  subst hz ho hz'
  funext i
  show Scalar.select (BitVec.ofBool (decide ((0 : EReal) < dg i))) (Ideal.rsqrt (max (dg i) 1)) 0 = if 0 < dg i then Ideal.rsqrt (max (dg i) 1) else 0
  exact select_ofBool_decide _ _ _

/-- A vector reshaped to one column and read back as a vector is itself: entry (p, 0) sits at row-major position p. -/
theorem colOf_reshape {n : Nat} (d : (A1 n).Idx → EReal) (h : (A1 n).ShapeCasts (A2 n 1)) :
    colOf (shapeCast (A2 n 1) d h) = d := by
  funext i
  obtain ⟨p, rfl⟩ : ∃ p, i = ix1 p := ⟨i 0, eq_ix1 i⟩
  show shapeCast (A2 n 1) d h (ix2 p 0) = d (ix1 p)
  refine shapeCast_apply d h _ _ ?_
  rw [Shape.rowMajor_val_two, Shape.rowMajor_val_one]
  show p.val = p.val * 1 + 0
  omega
/-- A vector reshaped to one row and read back as a vector is itself. -/
theorem rowOf_reshape {k : Nat} (b : (A1 k).Idx → EReal) (h : (A1 k).ShapeCasts (A2 1 k)) :
    rowOf (shapeCast (A2 1 k) b h) = b := by
  funext i
  obtain ⟨p, rfl⟩ : ∃ p, i = ix1 p := ⟨i 0, eq_ix1 i⟩
  exact shapeCast_a_1a_apply b h 0 p

end Cert.Spec

end
-- ==== Proof.KRegion1.lean ====
import proofs.«407343_j65274912965021_3_alg».proof.Proof.Gen.KernelIdeal.Frame
import proofs.«407343_j65274912965021_3_alg».proof.Proof.Spec
import proofs.«407343_j65274912965021_3_alg».proof.Proof.LibRead
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KV

open Idealize.ShloMosaic Idealize.ShloMosaic.ValueIdx Idealize.ShloMosaic.TcCoe Idealize.SL.Sem
open Cert.KernelIdeal Cert.KernelIdeal.Gen
open Idealize.ShloMosaic.Pipeline (Dat Cfg Window)

/-! ## The product's operand indices

The product contracts the left operand's axis 1 with the right operand's axis 0: at output index (r, c) and
contraction position l the left operand is read at (r, l), the right at (l, c). -/

/-- On its row axis the left operand is read at the output's row. -/
theorem lhs_mm1_0 (i : S4000x64.Idx) (q : dot_S4000x64_S64x64_S4000x64_1_0_0_1_n_n.contr.Idx) :
    (dot_S4000x64_S64x64_S4000x64_1_0_0_1_n_n.lhsIdx i q 0).val = (i 0).val := by
  unfold DotDims.lhsIdx
  rw [dif_neg (show ¬(0 : Fin S4000x64.rank) ∈ dot_S4000x64_S64x64_S4000x64_1_0_0_1_n_n.lhsBatch by decide),
    dif_pos (show (0 : Fin S4000x64.rank) ∈ dot_S4000x64_S64x64_S4000x64_1_0_0_1_n_n.lhsNonContracting by decide)]
  rfl
/-- On its column axis the left operand is read at the contraction position. -/
theorem lhs_mm1_1 (i : S4000x64.Idx) (q : dot_S4000x64_S64x64_S4000x64_1_0_0_1_n_n.contr.Idx) :
    (dot_S4000x64_S64x64_S4000x64_1_0_0_1_n_n.lhsIdx i q 1).val = (q ⟨0, by decide⟩).val :=
  dot_S4000x64_S64x64_S4000x64_1_0_0_1_n_n.lhsIdx_val_of_single rfl i q
/-- On its row axis the right operand is read at the contraction position. -/
theorem rhs_mm1_0 (i : S4000x64.Idx) (q : dot_S4000x64_S64x64_S4000x64_1_0_0_1_n_n.contr.Idx) :
    (dot_S4000x64_S64x64_S4000x64_1_0_0_1_n_n.rhsIdx i q 0).val = (q ⟨0, by decide⟩).val :=
  dot_S4000x64_S64x64_S4000x64_1_0_0_1_n_n.rhsIdx_val_of_single rfl i q
/-- On its column axis the right operand is read at the output's column. -/
theorem rhs_mm1_1 (i : S4000x64.Idx) (q : dot_S4000x64_S64x64_S4000x64_1_0_0_1_n_n.contr.Idx) :
    (dot_S4000x64_S64x64_S4000x64_1_0_0_1_n_n.rhsIdx i q 1).val = (i 1).val := by
  unfold DotDims.rhsIdx
  rw [dif_neg (show ¬(1 : Fin S64x64.rank) ∈ dot_S4000x64_S64x64_S4000x64_1_0_0_1_n_n.rhsBatch by decide),
    dif_pos (show (1 : Fin S64x64.rank) ∈ dot_S4000x64_S64x64_S4000x64_1_0_0_1_n_n.rhsNonContracting by decide)]
  rfl

/-- The product into the zero accumulator, read at (r, c): the sum over l of X[r, l] · W[l, c]. -/
theorem mm1_apply {φ₁ φ₂ : FTy} (X : FVec Ideal S4000x64 φ₁) (W : FVec Ideal S64x64 φ₂) (p : Fin 4000) (q : Fin 64) :
    FloatOps.matmul dot_S4000x64_S64x64_S4000x64_1_0_0_1_n_n none X W (constant (F := Ideal) S4000x64 .f32 0x00000000#32) (ix2 p q)
      = ∑ l : Fin 64, X (ix2 p l) * W (ix2 l q) := by
  rw [Ideal.matmul_constant_zero_apply, ← Equiv.sum_comp (contrEquiv1 dot_S4000x64_S64x64_S4000x64_1_0_0_1_n_n 64 rfl rfl).symm]
  refine Finset.sum_congr rfl fun k _ => ?_
  have hk := contrEquiv1_symm_val dot_S4000x64_S64x64_S4000x64_1_0_0_1_n_n 64 rfl rfl k
  have el : dot_S4000x64_S64x64_S4000x64_1_0_0_1_n_n.lhsIdx (ix2 p q) ((contrEquiv1 dot_S4000x64_S64x64_S4000x64_1_0_0_1_n_n 64 rfl rfl).symm k) = ix2 p k :=
    funext fun a => Fin.ext (by
      match a with
      | ⟨0, _⟩ => exact lhs_mm1_0 _ _
      | ⟨1, _⟩ => exact (lhs_mm1_1 _ _).trans hk)
  have er : dot_S4000x64_S64x64_S4000x64_1_0_0_1_n_n.rhsIdx (ix2 p q) ((contrEquiv1 dot_S4000x64_S64x64_S4000x64_1_0_0_1_n_n 64 rfl rfl).symm k) = ix2 k q :=
    funext fun a => Fin.ext (by
      match a with
      | ⟨0, _⟩ => exact (rhs_mm1_0 _ _).trans hk
      | ⟨1, _⟩ => exact rhs_mm1_1 _ _)
  rw [el, er]

/-! ## The two broadcasts: a column along the rows' entries, a row down the rows -/

/-- A [4000, 1] column broadcast to [4000, 64], read at (r, c), is the column's entry r. -/
theorem colB1_apply (x : Vec Ideal S4000x1 .f32) (p : Fin 4000) (q : Fin 64) :
    broadcastTo S4000x64 (shapeCast S4000x1 x shapeCasts_S4000x1_S4000x1) broadcasts_S4000x1_S4000x64 (ix2 p q) = x (ix2 p 0) := by
  rw [shapeCast_self]
  refine broadcastTo_apply x _ (ix2 p q) (ix2 p 0) fun a => ?_
  match a with
  | ⟨0, _⟩ => rfl
  | ⟨1, _⟩ => rfl

/-- A [1, 64] row broadcast to [4000, 64], read at (r, c), is the row's entry c. -/
theorem rowB1_apply (x : Vec Ideal S1x64 .f32) (p : Fin 4000) (q : Fin 64) :
    broadcastTo S4000x64 (shapeCast S1x64 x shapeCasts_S1x64_S1x64) broadcasts_S1x64_S4000x64 (ix2 p q) = x (ix2 0 q) := by
  rw [shapeCast_self]
  refine broadcastTo_apply x _ (ix2 p q) (ix2 0 q) fun a => ?_
  match a with
  | ⟨0, _⟩ => rfl
  | ⟨1, _⟩ => rfl

/-- The body's activation on one value, the choice on "v > 0" between v and exp(min(v, 0)) − 1, is ELU with unit slope. -/
theorem elu1_printed (v : EReal) :
    Scalar.select (FloatOps.cmpf (F := Ideal) (φ := .f32) .ogt v (Ideal.ofBits .f32 0x00000000#32)) v
      (Ideal.exp (min v (Ideal.ofBits .f32 0x00000000#32)) - Ideal.ofBits .f32 0x3F800000#32) = Cert.Spec.elu v := by
  rw [Ideal.ofBits_zero_f32, Cert.Spec.ofBits_one_f32, Ideal.cmpf_def]
  unfold Cert.Spec.elu Ideal.cmp
  by_cases h : (0 : EReal) < v
  · rw [if_pos h]
    show Scalar.select (BitVec.ofBool (decide (0 < v))) _ _ = _
    rw [decide_eq_true h]
    exact select_one _ _
  · rw [if_neg h]
    show Scalar.select (BitVec.ofBool (decide (0 < v))) _ _ = _
    rw [decide_eq_false h]
    exact select_zero _ _

/-! ## The block's payload -/

/-- The block before the activation: the loaded rows scaled by the column, plus the bias row. -/
def pre1 (x0 : Vec Ideal S4000x64 .f32) (x1 : Vec Ideal S4000x1 .f32) (x2 : Vec Ideal S1x64 .f32) : FVec Ideal S4000x64 .f32 :=
  addf (mulf (shapeCast S4000x64 x0 shapeCasts_S4000x64_S4000x64)
      (broadcastTo S4000x64 (shapeCast S4000x1 x1 shapeCasts_S4000x1_S4000x1) broadcasts_S4000x1_S4000x64))
    (broadcastTo S4000x64 (shapeCast S1x64 x2 shapeCasts_S1x64_S1x64) broadcasts_S1x64_S4000x64)

/-- At (p, l): entry (p, l) of the rows times entry p of the column, plus entry l of the bias row. -/
theorem pre1_apply (x0 : Vec Ideal S4000x64 .f32) (x1 : Vec Ideal S4000x1 .f32) (x2 : Vec Ideal S1x64 .f32)
    (p : Fin 4000) (l : Fin 64) : pre1 x0 x1 x2 (ix2 p l) = x0 (ix2 p l) * x1 (ix2 p 0) + x2 (ix2 0 l) := by
  unfold pre1
  rw [addf_apply, mulf_apply, shapeCast_self, colB1_apply, rowB1_apply]

/-- The body's activation of a block: the choice on "entry > 0" between the entry and exp(min(entry, 0)) − 1. -/
def act1 (v : FVec Ideal S4000x64 .f32) : FVec Ideal S4000x64 .f32 :=
  select (cmpf .ogt v (broadcast S4000x64 (Scalar.ofBits (F := Ideal) .f32 0x00000000#32))) v
    (subf (exp (minimumf v (broadcast S4000x64 (Scalar.ofBits (F := Ideal) .f32 0x00000000#32))))
      (broadcast S4000x64 (Scalar.ofBits (F := Ideal) .f32 0x3F800000#32)))

/-- At every index it is ELU of the entry. -/
theorem act1_apply (v : FVec Ideal S4000x64 .f32) (i : S4000x64.Idx) : act1 v i = Cert.Spec.elu (v i) :=
  elu1_printed (v i)

/-- The payload is the product of the activated block with the weights, scaled by the column. -/
theorem pay1_eq (x0 : Vec Ideal S4000x64 .f32) (x1 : Vec Ideal S4000x1 .f32) (x2 : Vec Ideal S1x64 .f32)
    (x3 : Vec Ideal S64x64 .f32) (x4 : Vec Ideal S4000x1 .f32) :
    k1_pay1 (F := Ideal) x0 x1 x2 x3 x4
      = mulf (matmul dot_S4000x64_S64x64_S4000x64_1_0_0_1_n_n none (truncf .bf16 (act1 (pre1 x0 x1 x2)) bitsLt_bf16_f32)
            (truncf .bf16 x3 bitsLt_bf16_f32) (constant S4000x64 .f32 0x00000000#32))
          (broadcastTo S4000x64 (shapeCast S4000x1 x4 shapeCasts_S4000x1_S4000x1) broadcasts_S4000x1_S4000x64) := rfl

/-- The payload at (p, q): row p scaled, biased and activated, times column q of the weights, scaled again. -/
theorem pay1_apply (x0 : Vec Ideal S4000x64 .f32) (x1 : Vec Ideal S4000x1 .f32) (x2 : Vec Ideal S1x64 .f32)
    (x3 : Vec Ideal S64x64 .f32) (x4 : Vec Ideal S4000x1 .f32) (p : Fin 4000) (q : Fin 64) :
    k1_pay1 (F := Ideal) x0 x1 x2 x3 x4 (ix2 p q)
      = (∑ l : Fin 64, Cert.Spec.elu (x0 (ix2 p l) * x1 (ix2 p 0) + x2 (ix2 0 l)) * x3 (ix2 l q)) * x4 (ix2 p 0) := by
  rw [pay1_eq]
  refine (mulf_apply _ _ _).trans ?_
  rw [colB1_apply]
  refine congrArg (· * x4 (ix2 p 0)) ?_
  refine (mm1_apply _ _ p q).trans ?_
  refine Finset.sum_congr rfl fun l _ => ?_
  rw [truncf_apply, truncf_apply, act1_apply, pre1_apply]

/-- The payload read where the array's index says: when the loaded entries of row p are the entries of row (i 0) of the
    arrays and column q of the weights is column (i 1), the payload at (p, q) is the whole-array function at i. -/
theorem pay1_blk (x0 : Vec Ideal S4000x64 .f32) (x1 : Vec Ideal S4000x1 .f32) (x2 : Vec Ideal S1x64 .f32)
    (x3 : Vec Ideal S64x64 .f32) (x4 : Vec Ideal S4000x1 .f32)
    (A : (Cert.Spec.A2 Cert.Spec.nN 64).Idx → EReal) (D : (Cert.Spec.A2 Cert.Spec.nN 1).Idx → EReal)
    (B : (Cert.Spec.A2 1 64).Idx → EReal) (W : (Cert.Spec.A2 64 64).Idx → EReal)
    (p : Fin 4000) (q : Fin 64) (i : (Cert.Spec.A2 Cert.Spec.nN 64).Idx)
    (h0 : ∀ l : Fin 64, x0 (ix2 p l) = A (ix2 (i 0) l))
    (h1 : x1 (ix2 p 0) = D (ix2 (i 0) 0))
    (h2 : ∀ l : Fin 64, x2 (ix2 0 l) = B (ix2 0 l))
    (h3 : ∀ l : Fin 64, x3 (ix2 l q) = W (ix2 l (i 1)))
    (h4 : x4 (ix2 p 0) = D (ix2 (i 0) 0)) :
    k1_pay1 (F := Ideal) x0 x1 x2 x3 x4 (ix2 p q) = Cert.Spec.R1 A D B W i := by
  rw [pay1_apply, h1, h4]
  show _ = (∑ l : Fin 64, Cert.Spec.elu (A (ix2 (i 0) l) * D (ix2 (i 0) 0) + B (ix2 0 l)) * W (ix2 l (i 1))) * D (ix2 (i 0) 0)
  refine congrArg (· * D (ix2 (i 0) 0)) (Finset.sum_congr rfl fun l _ => ?_)
  rw [h0 l, h2 l, h3 l]

/-! ## From the 25 row blocks to the array -/

variable (V : (c : Dev nD) → (b : Ref sig .tc) → Buf (Elt Ideal) ((c : Thread nD τ).loc b))

/-- The zero offsets on both axes, as a constant function. -/
theorem hz1 : (![0, 0] : Fin 2 → Nat) = fun _ => 0 := funext fun a => by fin_cases a <;> rfl

/-- The block indices at each of the 25 points: the aggregated rows and the degree column sit at the output's row
    block, the bias and the weights at (0, 0); the output's row block is at most 24 and its column block is 0. -/
theorem idx_facts1 : ∀ t : Fin cfg1.N, win1_0.index t (0 : Fin 2) = win1_4.index t (0 : Fin 2)
    ∧ win1_0.index t (1 : Fin 2) = 0
    ∧ win1_1.index t (0 : Fin 2) = win1_4.index t (0 : Fin 2)
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) ≤ 24
    ∧ win1_4.index t (1 : Fin 2) = 0 :=
  (by decide +kernel : ∀ t : Fin grid1.N, _)

/-- Every row block is some point's. -/
theorem idx_onto1 : ∀ (b : Fin 25), ∃ t : Fin cfg1.N, win1_4.index t = ![b.val, 0] :=
  (by decide +kernel : ∀ (b : Fin 25), ∃ t : Fin grid1.N, win1_4.index t = ![b.val, 0])

/-- What point t writes back is block t of the whole-array function of the region's four input arrays. -/
theorem flushed1_eq (c : Dev nD) (t : Fin cfg1.N) :
    (dat1 (F := Ideal) V c).flushed 4 t
      = ((cfg1.win 4).blk t).view.read (Elt Ideal)
          (Cert.Spec.R1 (V c main_v30) (V c main_v17) (V c main_v31) (V c main_arg4)) := by
  show (cfg1.win 4).cut (grid1.coords t) ((dat1 V c).after 4 t) = _
  rw [after1_4]
  unfold out1_4
  rw [View.canon_unit_zero hz1]
  simp only [View.ld_unit_zero (S := S4000x64) hz1, View.ld_unit_zero (S := S4000x1) hz1,
    View.ld_unit_zero (S := S1x64) hz1, View.ld_unit_zero (S := S64x64) hz1]
  obtain ⟨e0, e1, e2, e3, e4, e5, e6, e7, e8, e9⟩ := idx_facts1 t
  funext j
  obtain ⟨p, q, rfl⟩ : ∃ (p : Fin 4000) (q : Fin 64), j = ix2 p q := ⟨j 0, j 1, eq_ix2 j⟩
  show k1_pay1 (F := Ideal) (iblk1 V c 0 t) (iblk1 V c 1 t) (iblk1 V c 2 t) (iblk1 V c 3 t) (iblk1 V c 1 t) (ix2 p q)
    = Cert.Spec.R1 (V c main_v30) (V c main_v17) (V c main_v31) (V c main_arg4) (((cfg1.win 4).blk t).view.emb (ix2 p q))
  have hD : V c main_v17 (((cfg1.win 1).blk t).view.emb (ix2 p 0))
      = V c main_v17 (ix2 ((((cfg1.win 4).blk t).view.emb (ix2 p q)) 0) 0) := by
    refine congrArg _ ?_
    funext a; apply Fin.ext
    match a with
    | ⟨0, _⟩ => show win1_1.index t (0 : Fin 2) * 4000 + 1 * p.val = win1_4.index t (0 : Fin 2) * 4000 + 1 * p.val; omega
    | ⟨1, _⟩ => show win1_1.index t (1 : Fin 2) * 1 + 1 * 0 = 0; omega
  refine pay1_blk _ _ _ _ _ _ _ _ _ p q _ (fun l => ?_) hD (fun l => ?_) (fun l => ?_) hD
  · show V c main_v30 (((cfg1.win 0).blk t).view.emb (ix2 p l))
      = V c main_v30 (ix2 ((((cfg1.win 4).blk t).view.emb (ix2 p q)) 0) l)
    refine congrArg _ ?_
    funext a; apply Fin.ext
    match a with
    | ⟨0, _⟩ => show win1_0.index t (0 : Fin 2) * 4000 + 1 * p.val = win1_4.index t (0 : Fin 2) * 4000 + 1 * p.val; omega
    | ⟨1, _⟩ => show win1_0.index t (1 : Fin 2) * 64 + 1 * l.val = l.val; omega
  · show V c main_v31 (((cfg1.win 2).blk t).view.emb (ix2 0 l)) = V c main_v31 (ix2 0 l)
    refine congrArg _ ?_
    funext a; apply Fin.ext
    match a with
    | ⟨0, _⟩ => show win1_2.index t (0 : Fin 2) * 1 + 1 * 0 = 0; omega
    | ⟨1, _⟩ => show win1_2.index t (1 : Fin 2) * 64 + 1 * l.val = l.val; omega
  · show V c main_arg4 (((cfg1.win 3).blk t).view.emb (ix2 l q))
      = V c main_arg4 (ix2 l ((((cfg1.win 4).blk t).view.emb (ix2 p q)) 1))
    refine congrArg _ ?_
    funext a; apply Fin.ext
    match a with
    | ⟨0, _⟩ => show win1_3.index t (0 : Fin 2) * 64 + 1 * l.val = l.val; omega
    | ⟨1, _⟩ => show win1_3.index t (1 : Fin 2) * 64 + 1 * q.val = win1_4.index t (1 : Fin 2) * 64 + 1 * q.val; omega

/-- An index of the output array is in point t's block iff each coordinate is in the block's range on its axis. -/
theorem mem_blk1 (t : Fin cfg1.N) (i : S100000x64.Idx) :
    i ∈ ((cfg1.win 4).blk t).view.set ↔ ∀ a : Fin 2, win1_4.index t a * S4000x64.size a ≤ (i a).val ∧ (i a).val < win1_4.index t a * S4000x64.size a + S4000x64.size a := by
  show i ∈ ((View.whole main_v32).slice (win1_4.rect t)).set ↔ _
  rw [View.set_slice_whole, Rect.mem_set_unit]
  exact Iff.rfl

/-- The row blocks cover the array: row r is in block r / 4000. -/
theorem cover1 (i : S100000x64.Idx) :
    ∃ t : Fin cfg1.N, (cfg1.win 4).flush t = true ∧ i ∈ ((cfg1.win 4).blk t).view.set := by
  have hi0 : (i 0).val < 100000 := (i 0).isLt
  have hi1 : (i 1).val < 64 := (i 1).isLt
  obtain ⟨t, ht⟩ := idx_onto1 ⟨(i 0).val / 4000, by omega⟩
  have q0 : win1_4.index t (0 : Fin 2) = (i 0).val / 4000 := congrFun ht 0
  have q1 : win1_4.index t (1 : Fin 2) = 0 := congrFun ht 1
  refine ⟨t, flush1_4 t, ?_⟩
  rw [mem_blk1]
  intro a
  match a with
  | ⟨0, _⟩ => show win1_4.index t (0 : Fin 2) * 4000 ≤ (i 0).val ∧ (i 0).val < win1_4.index t (0 : Fin 2) * 4000 + 4000; omega
  | ⟨1, _⟩ => show win1_4.index t (1 : Fin 2) * 64 ≤ (i 1).val ∧ (i 1).val < win1_4.index t (1 : Fin 2) * 64 + 64; omega

/-- The second kernel's output array after its 25 row blocks: the aggregated rows scaled, biased, passed through ELU,
    projected, and scaled again, row by row. -/
theorem final1 (c : Dev nD) :
    (dat1 (F := Ideal) V c).arrAt 4 cfg1.N
      = Cert.Spec.R1 (V c main_v30) (V c main_v17) (V c main_v31) (V c main_arg4) :=
  (dat1 (F := Ideal) V c).arrAt_eq_of_cover 4 (Cert.Spec.R1 (V c main_v30) (V c main_v17) (V c main_v31) (V c main_arg4))
    (fun t _ => flushed1_eq V c t) cover1

end Cert.KernelIdeal.KV

end
-- ==== Proof.KRegion2Soft.lean ====
import proofs.«407343_j65274912965021_3_alg».proof.Proof.Spec
import Idealize.ShloMosaic.Lib.ValueIdx

noncomputable section

namespace Cert.KernelIdeal.KV

open Idealize.ShloMosaic Idealize.ShloMosaic.ValueIdx

/-- A row's softmax depends only on that row: two arrays (of any numbers of rows) whose rows p and p' agree entry by
    entry have the same row maximum and the same sum of shifted exponentials, hence the same softmax along the row. -/
theorem softmax_row_congr {n n' k : Nat} (H : (Cert.Spec.A2 n k).Idx → EReal) (H' : (Cert.Spec.A2 n' k).Idx → EReal)
    (p : Fin n) (p' : Fin n') (h : ∀ c : Fin k, H (ix2 p c) = H' (ix2 p' c)) (q : Fin k) :
    Cert.Spec.softmax H (ix2 p q) = Cert.Spec.softmax H' (ix2 p' q) := by
  have hm : Cert.Spec.rowMax H p = Cert.Spec.rowMax H' p' := by
    unfold Cert.Spec.rowMax
    exact congrArg (fun f => (Finset.univ : Finset (Fin k)).fold max ⊥ f) (funext h)
  show Ideal.div (Ideal.exp (H (ix2 p q) - Cert.Spec.rowMax H p))
      (∑ c : Fin k, Ideal.exp (H (ix2 p c) - Cert.Spec.rowMax H p))
    = Ideal.div (Ideal.exp (H' (ix2 p' q) - Cert.Spec.rowMax H' p'))
      (∑ c : Fin k, Ideal.exp (H' (ix2 p' c) - Cert.Spec.rowMax H' p'))
  rw [hm, h q]
  exact congrArg _ (Finset.sum_congr rfl fun c _ => by rw [h c])

end Cert.KernelIdeal.KV

end
-- ==== Proof.KRegion2.lean ====
import proofs.«407343_j65274912965021_3_alg».proof.Proof.Gen.KernelIdeal.Frame
import proofs.«407343_j65274912965021_3_alg».proof.Proof.Spec
import proofs.«407343_j65274912965021_3_alg».proof.Proof.LibRead
import proofs.«407343_j65274912965021_3_alg».proof.Proof.KRegion2Soft
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KV

open Idealize.ShloMosaic Idealize.ShloMosaic.ValueIdx Idealize.ShloMosaic.TcCoe Idealize.SL.Sem
open Cert.KernelIdeal Cert.KernelIdeal.Gen
open Idealize.ShloMosaic.Pipeline (Dat Cfg Window)

namespace Region2

open Cert.Spec (A2 A1 mm rowScale addRow elu eluAll rowMax softmax colOf rowOf)

/-! ## Layout operations of the body read at an index -/

/-- A column [n, 1] broadcast along the rows to [n, k] reads, at (p, q), the column at p. -/
theorem bcastCol_apply {α : Type} {n k : Nat} (x : (⟨2, ![n, 1]⟩ : Shape).Idx → α)
    (h : (⟨2, ![n, 1]⟩ : Shape).Broadcasts ⟨2, ![n, k]⟩) (p : Fin n) (q : Fin k) :
    broadcastTo ⟨2, ![n, k]⟩ x h (ix2 p q) = x (ix2 p (0 : Fin 1)) := by
  refine broadcastTo_apply x h (ix2 p q) (ix2 p (0 : Fin 1)) fun ax => ?_
  match ax with
  | ⟨0, _⟩ =>
    show p.val = if n = 1 then 0 else p.val
    split
    · have := p.isLt; omega
    · rfl
  | ⟨1, _⟩ => rfl

/-- A vector [n] cast to one column [n, 1] reads, at (p, u), the vector at p. -/
theorem castCol_apply {α : Type} {n : Nat} (x : (⟨1, ![n]⟩ : Shape).Idx → α)
    (h : (⟨1, ![n]⟩ : Shape).ShapeCasts ⟨2, ![n, 1]⟩) (p : Fin n) (u : Fin 1) :
    shapeCast ⟨2, ![n, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- The sum over the columns of row p. -/
theorem rowSum_apply {n k : Nat} (src : FVec Ideal ⟨2, ![n, k]⟩ .f32)
    (h : (⟨2, ![n, k]⟩ : Shape).Reduces [1] ⟨1, ![n]⟩) (hφ : FKind.Formats .f32)
    (hacc : (0x00000000#32 : BitVec 32) = 0x00000000#32) (p : Fin n) :
    multiReduction .add [1] ⟨1, ![n]⟩ src 0x00000000#32 h hφ hacc (ix1 p) = ∑ q : Fin k, src (ix2 p q) := by
  refine (Ideal.multiReduction_add_single src 0x00000000#32 h hφ hacc (ix1 p)).trans ?_
  refine Finset.sum_congr rfl fun q _ => congrArg src ?_
  funext a; apply Fin.ext
  match a with
  | ⟨0, _⟩ => rfl
  | ⟨1, _⟩ => rfl

/-- The greatest entry of row p, folded from −∞. -/
theorem rowMax_apply {n k : Nat} (src : FVec Ideal ⟨2, ![n, k]⟩ .f32)
    (h : (⟨2, ![n, k]⟩ : Shape).Reduces [1] ⟨1, ![n]⟩) (hφ : FKind.Formats .f32)
    (hacc : (0xFF800000#32 : BitVec 32) = 0xFF800000#32) (p : Fin n) :
    multiReduction .maximumf [1] ⟨1, ![n]⟩ src 0xFF800000#32 h hφ hacc (ix1 p) = rowMax src p := by
  refine (Ideal.multiReduction_maximumf_single src 0xFF800000#32 h hφ hacc (ix1 p)).trans ?_
  unfold rowMax
  show Finset.fold max (Ideal.ofBits .f32 0xFF800000#32) _ _ = _
  rw [Cert.Spec.ofBits_negInf_f32]
  refine congrArg (fun f => Finset.fold max (⊥ : EReal) f Finset.univ) (funext fun q => congrArg src ?_)
  funext a; apply Fin.ext
  match a with
  | ⟨0, _⟩ => rfl
  | ⟨1, _⟩ => rfl

/-- The body's row softmax of an [n, k] array H, as the operations it is printed with: the row maxima as a column spread
    over the rows, the exponential of the difference, the row sums likewise, the quotient. -/
def smBody {n k : Nat} (H : FVec Ideal ⟨2, ![n, k]⟩ .f32)
    (hr : (⟨2, ![n, k]⟩ : Shape).Reduces [1] ⟨1, ![n]⟩) (hc : (⟨1, ![n]⟩ : Shape).ShapeCasts ⟨2, ![n, 1]⟩)
    (hb : (⟨2, ![n, 1]⟩ : Shape).Broadcasts ⟨2, ![n, k]⟩) (hφ : FKind.Formats .f32)
    (hm : (0xFF800000#32 : BitVec 32) = 0xFF800000#32) (h0 : (0x00000000#32 : BitVec 32) = 0x00000000#32) :
    FVec Ideal ⟨2, ![n, k]⟩ .f32 :=
  have M : FVec Ideal ⟨2, ![n, k]⟩ .f32 :=
    broadcastTo ⟨2, ![n, k]⟩ (shapeCast ⟨2, ![n, 1]⟩ (multiReduction .maximumf [1] ⟨1, ![n]⟩ H 0xFF800000#32 hr hφ hm) hc) hb
  have E : FVec Ideal ⟨2, ![n, k]⟩ .f32 := exp (subf H M)
  divf E (broadcastTo ⟨2, ![n, k]⟩ (shapeCast ⟨2, ![n, 1]⟩ (multiReduction .add [1] ⟨1, ![n]⟩ E 0x00000000#32 hr hφ h0) hc) hb)

/-- Those operations are the softmax of H. -/
theorem smBody_eq {n k : Nat} (H : FVec Ideal ⟨2, ![n, k]⟩ .f32)
    (hr : (⟨2, ![n, k]⟩ : Shape).Reduces [1] ⟨1, ![n]⟩) (hc : (⟨1, ![n]⟩ : Shape).ShapeCasts ⟨2, ![n, 1]⟩)
    (hb : (⟨2, ![n, 1]⟩ : Shape).Broadcasts ⟨2, ![n, k]⟩) (hφ : FKind.Formats .f32)
    (hm : (0xFF800000#32 : BitVec 32) = 0xFF800000#32) (h0 : (0x00000000#32 : BitVec 32) = 0x00000000#32) :
    smBody H hr hc hb hφ hm h0 = softmax H := by
  funext j
  obtain ⟨p, q, rfl⟩ : ∃ (p : Fin n) (q : Fin k), j = ix2 p q := ⟨j 0, j 1, eq_ix2 j⟩
  have hM : ∀ q' : Fin k, broadcastTo ⟨2, ![n, k]⟩ (shapeCast ⟨2, ![n, 1]⟩
      (multiReduction .maximumf [1] ⟨1, ![n]⟩ H 0xFF800000#32 hr hφ hm) hc) hb (ix2 p q') = rowMax H p :=
    fun q' => (bcastCol_apply _ hb p q').trans ((castCol_apply _ hc p 0).trans (rowMax_apply H hr hφ hm p))
  have hE : ∀ q' : Fin k, exp (subf H (broadcastTo ⟨2, ![n, k]⟩ (shapeCast ⟨2, ![n, 1]⟩
      (multiReduction .maximumf [1] ⟨1, ![n]⟩ H 0xFF800000#32 hr hφ hm) hc) hb)) (ix2 p q')
        = Ideal.exp (H (ix2 p q') - rowMax H p) := fun q' => by
    show Ideal.exp (H (ix2 p q') - _) = _
    rw [hM q']
  unfold smBody softmax
  show Ideal.div _ _ = Ideal.div _ _
  rw [hE q]
  refine congrArg (Ideal.div _) ?_
  refine (bcastCol_apply _ hb p q).trans ((castCol_apply _ hc p 0).trans ((rowSum_apply _ hr hφ h0 p).trans ?_))
  exact Finset.sum_congr rfl fun c _ => hE c

/-- The body's closing stage: bias, then each row's softmax shifted by the row's maximum. -/
theorem pay1_eq (v37 : FVec Ideal S4000x15 .f32) (x6 : Vec Ideal S1x15 .f32) :
    k2_pay1 (F := Ideal) v37 x6 = softmax (addRow v37 (rowOf x6)) := by
  have e41 : addf v37 (broadcastTo S4000x15 (shapeCast S1x15 x6 shapeCasts_S1x15_S1x15) broadcasts_S1x15_S4000x15)
      = addRow v37 (rowOf x6) := by
    funext j
    obtain ⟨p, q, rfl⟩ : ∃ (p : Fin 4000) (q : Fin 15), j = ix2 p q := ⟨j 0, j 1, eq_ix2 j⟩
    show v37 (ix2 p q) + broadcastTo S4000x15 (shapeCast S1x15 x6 shapeCasts_S1x15_S1x15) broadcasts_S1x15_S4000x15 (ix2 p q)
      = v37 (ix2 p q) + x6 (ix2 (0 : Fin 1) q)
    rw [broadcastTo_1b_ab_apply, shapeCast_self]
  refine Eq.trans (?_ : _ = smBody (addf v37 (broadcastTo S4000x15 (shapeCast S1x15 x6 shapeCasts_S1x15_S1x15) broadcasts_S1x15_S4000x15))
    reduces_S4000x15_S4000 shapeCasts_S4000_S4000x1 broadcasts_S4000x1_S4000x15 (.inl rfl) rfl rfl) ?_
  · rfl
  · rw [e41]
    exact smBody_eq _ _ _ _ _ _ _

/-! ## The dense layers read at an index -/

/-- ELU as the body spells it: where the entry is above zero the entry, elsewhere exp(min(entry, 0)) − 1. -/
theorem elu_read {n k : Nat} (v : FVec Ideal ⟨2, ![n, k]⟩ .f32) :
    select (cmpf .ogt v (broadcast ⟨2, ![n, k]⟩ (Scalar.ofBits (F := Ideal) .f32 0x00000000#32))) v
        (subf (exp (minimumf v (broadcast ⟨2, ![n, k]⟩ (Scalar.ofBits (F := Ideal) .f32 0x00000000#32))))
          (broadcast ⟨2, ![n, k]⟩ (Scalar.ofBits (F := Ideal) .f32 0x3F800000#32)))
      = eluAll v := by
  funext j
  show Scalar.select (Ideal.cmp .ogt (v j) (Ideal.ofBits .f32 0x00000000#32)) (v j)
      (Ideal.exp (min (v j) (Ideal.ofBits .f32 0x00000000#32)) - Ideal.ofBits .f32 0x3F800000#32) = elu (v j)
  rw [Ideal.ofBits_zero_f32, Cert.Spec.ofBits_one_f32]
  unfold elu Ideal.cmp
  by_cases h : (0 : EReal) < v j
  · rw [if_pos h]
    show Scalar.select (BitVec.ofBool (decide (0 < v j))) _ _ = _
    rw [decide_eq_true h]
    exact select_one _ _
  · rw [if_neg h]
    show Scalar.select (BitVec.ofBool (decide (0 < v j))) _ _ = _
    rw [decide_eq_false h]
    exact select_zero _ _

/-- The first dense layer's product ([4000, 64] by [64, 128]): at output (r, c) and contraction position l the left operand
    is read at row r … -/
theorem lhs_mmA_0 (j : S4000x128.Idx) (k : dot_S4000x64_S64x128_S4000x128_1_0_0_1_n_n.contr.Idx) :
    (dot_S4000x64_S64x128_S4000x128_1_0_0_1_n_n.lhsIdx j k 0 : ℕ) = (j 0).val := by
  simp [DotDims.lhsIdx, dot_S4000x64_S64x128_S4000x128_1_0_0_1_n_n]; rfl
/-- … and column l; -/
theorem lhs_mmA_1 (j : S4000x128.Idx) (k : dot_S4000x64_S64x128_S4000x128_1_0_0_1_n_n.contr.Idx) :
    (dot_S4000x64_S64x128_S4000x128_1_0_0_1_n_n.lhsIdx j k 1 : ℕ) = (k ⟨0, by decide⟩).val :=
  dot_S4000x64_S64x128_S4000x128_1_0_0_1_n_n.lhsIdx_val_of_single rfl j k
/-- the right operand is read at row l … -/
theorem rhs_mmA_0 (j : S4000x128.Idx) (k : dot_S4000x64_S64x128_S4000x128_1_0_0_1_n_n.contr.Idx) :
    (dot_S4000x64_S64x128_S4000x128_1_0_0_1_n_n.rhsIdx j k 0 : ℕ) = (k ⟨0, by decide⟩).val :=
  dot_S4000x64_S64x128_S4000x128_1_0_0_1_n_n.rhsIdx_val_of_single rfl j k
/-- … and column c. -/
theorem rhs_mmA_1 (j : S4000x128.Idx) (k : dot_S4000x64_S64x128_S4000x128_1_0_0_1_n_n.contr.Idx) :
    (dot_S4000x64_S64x128_S4000x128_1_0_0_1_n_n.rhsIdx j k 1 : ℕ) = (j 1).val := by
  simp [DotDims.rhsIdx, dot_S4000x64_S64x128_S4000x128_1_0_0_1_n_n]; rfl

/-- The first dense layer's product ([4000, 64] by [64, 128]) into the zero accumulator is rows times columns. -/
theorem mmA_eq (X : FVec Ideal S4000x64 .f32) (W : FVec Ideal S64x128 .f32) :
    matmul dot_S4000x64_S64x128_S4000x128_1_0_0_1_n_n none (truncf .bf16 X bitsLt_bf16_f32) (truncf .bf16 W bitsLt_bf16_f32)
        (constant (F := Ideal) S4000x128 .f32 0x00000000#32) = mm X W := by
  funext j
  obtain ⟨p, q, rfl⟩ : ∃ (p : Fin 4000) (q : Fin 128), j = ix2 p q := ⟨j 0, j 1, eq_ix2 j⟩
  refine (Ideal.matmul_constant_zero_apply dot_S4000x64_S64x128_S4000x128_1_0_0_1_n_n none _ _ (ix2 p q)).trans ?_
  rw [← Equiv.sum_comp (contrEquiv1 dot_S4000x64_S64x128_S4000x128_1_0_0_1_n_n 64 rfl rfl).symm]
  refine Finset.sum_congr rfl fun l _ => ?_
  have c := contrEquiv1_symm_val dot_S4000x64_S64x128_S4000x128_1_0_0_1_n_n 64 rfl rfl l
  have hl : dot_S4000x64_S64x128_S4000x128_1_0_0_1_n_n.lhsIdx (ix2 p q)
      ((contrEquiv1 dot_S4000x64_S64x128_S4000x128_1_0_0_1_n_n 64 rfl rfl).symm l) = ix2 p l := by
    funext a; apply Fin.ext
    match a with
    | ⟨0, _⟩ => exact lhs_mmA_0 _ _
    | ⟨1, _⟩ => exact (lhs_mmA_1 _ _).trans c
  have hr : dot_S4000x64_S64x128_S4000x128_1_0_0_1_n_n.rhsIdx (ix2 p q)
      ((contrEquiv1 dot_S4000x64_S64x128_S4000x128_1_0_0_1_n_n 64 rfl rfl).symm l) = ix2 l q := by
    funext a; apply Fin.ext
    match a with
    | ⟨0, _⟩ => exact (rhs_mmA_0 _ _).trans c
    | ⟨1, _⟩ => exact rhs_mmA_1 _ _
  rw [hl, hr, truncf_apply, truncf_apply]

/-- The second dense layer's product ([4000, 128] by [128, 15]): at output (r, c) and contraction position l the left operand
    is read at row r … -/
theorem lhs_mmB_0 (j : S4000x15.Idx) (k : dot_S4000x128_S128x15_S4000x15_1_0_0_1_n_n.contr.Idx) :
    (dot_S4000x128_S128x15_S4000x15_1_0_0_1_n_n.lhsIdx j k 0 : ℕ) = (j 0).val := by
  simp [DotDims.lhsIdx, dot_S4000x128_S128x15_S4000x15_1_0_0_1_n_n]; rfl
/-- … and column l; -/
theorem lhs_mmB_1 (j : S4000x15.Idx) (k : dot_S4000x128_S128x15_S4000x15_1_0_0_1_n_n.contr.Idx) :
    (dot_S4000x128_S128x15_S4000x15_1_0_0_1_n_n.lhsIdx j k 1 : ℕ) = (k ⟨0, by decide⟩).val :=
  dot_S4000x128_S128x15_S4000x15_1_0_0_1_n_n.lhsIdx_val_of_single rfl j k
/-- the right operand is read at row l … -/
theorem rhs_mmB_0 (j : S4000x15.Idx) (k : dot_S4000x128_S128x15_S4000x15_1_0_0_1_n_n.contr.Idx) :
    (dot_S4000x128_S128x15_S4000x15_1_0_0_1_n_n.rhsIdx j k 0 : ℕ) = (k ⟨0, by decide⟩).val :=
  dot_S4000x128_S128x15_S4000x15_1_0_0_1_n_n.rhsIdx_val_of_single rfl j k
/-- … and column c. -/
theorem rhs_mmB_1 (j : S4000x15.Idx) (k : dot_S4000x128_S128x15_S4000x15_1_0_0_1_n_n.contr.Idx) :
    (dot_S4000x128_S128x15_S4000x15_1_0_0_1_n_n.rhsIdx j k 1 : ℕ) = (j 1).val := by
  simp [DotDims.rhsIdx, dot_S4000x128_S128x15_S4000x15_1_0_0_1_n_n]; rfl

/-- The second dense layer's product ([4000, 128] by [128, 15]) into the zero accumulator is rows times columns. -/
theorem mmB_eq (X : FVec Ideal S4000x128 .f32) (W : FVec Ideal S128x15 .f32) :
    matmul dot_S4000x128_S128x15_S4000x15_1_0_0_1_n_n none (truncf .bf16 X bitsLt_bf16_f32) (truncf .bf16 W bitsLt_bf16_f32)
        (constant (F := Ideal) S4000x15 .f32 0x00000000#32) = mm X W := by
  funext j
  obtain ⟨p, q, rfl⟩ : ∃ (p : Fin 4000) (q : Fin 15), j = ix2 p q := ⟨j 0, j 1, eq_ix2 j⟩
  refine (Ideal.matmul_constant_zero_apply dot_S4000x128_S128x15_S4000x15_1_0_0_1_n_n none _ _ (ix2 p q)).trans ?_
  rw [← Equiv.sum_comp (contrEquiv1 dot_S4000x128_S128x15_S4000x15_1_0_0_1_n_n 128 rfl rfl).symm]
  refine Finset.sum_congr rfl fun l _ => ?_
  have c := contrEquiv1_symm_val dot_S4000x128_S128x15_S4000x15_1_0_0_1_n_n 128 rfl rfl l
  have hl : dot_S4000x128_S128x15_S4000x15_1_0_0_1_n_n.lhsIdx (ix2 p q)
      ((contrEquiv1 dot_S4000x128_S128x15_S4000x15_1_0_0_1_n_n 128 rfl rfl).symm l) = ix2 p l := by
    funext a; apply Fin.ext
    match a with
    | ⟨0, _⟩ => exact lhs_mmB_0 _ _
    | ⟨1, _⟩ => exact (lhs_mmB_1 _ _).trans c
  have hr : dot_S4000x128_S128x15_S4000x15_1_0_0_1_n_n.rhsIdx (ix2 p q)
      ((contrEquiv1 dot_S4000x128_S128x15_S4000x15_1_0_0_1_n_n 128 rfl rfl).symm l) = ix2 l q := by
    funext a; apply Fin.ext
    match a with
    | ⟨0, _⟩ => exact (rhs_mmB_0 _ _).trans c
    | ⟨1, _⟩ => exact rhs_mmB_1 _ _
  rw [hl, hr, truncf_apply, truncf_apply]

/-- The body's dense stage: the second convolution finished (target factor, bias, ELU), the first dense layer with its
    bias and ELU, and the second dense layer's product. -/
theorem pay2_eq (x0 : Vec Ideal S4000x64 .f32) (x1 : Vec Ideal S4000x1 .f32) (x2 : Vec Ideal S1x64 .f32)
    (x3 : Vec Ideal S64x128 .f32) (x4 : Vec Ideal S1x128 .f32) (x5 : Vec Ideal S128x15 .f32) :
    k2_pay2 (F := Ideal) x0 x1 x2 x3 x4 x5
      = mm (eluAll (addRow (mm (eluAll (addRow (rowScale x0 (colOf x1)) (rowOf x2))) x3) (rowOf x4))) x5 := by
  have e9 : (addf (mulf (shapeCast S4000x64 x0 shapeCasts_S4000x64_S4000x64)
        (broadcastTo S4000x64 (shapeCast S4000x1 x1 shapeCasts_S4000x1_S4000x1) broadcasts_S4000x1_S4000x64))
        (broadcastTo S4000x64 (shapeCast S1x64 x2 shapeCasts_S1x64_S1x64) broadcasts_S1x64_S4000x64) : FVec Ideal S4000x64 .f32)
      = addRow (rowScale x0 (colOf x1)) (rowOf x2) := by
    funext j
    obtain ⟨p, q, rfl⟩ : ∃ (p : Fin 4000) (q : Fin 64), j = ix2 p q := ⟨j 0, j 1, eq_ix2 j⟩
    show shapeCast S4000x64 x0 shapeCasts_S4000x64_S4000x64 (ix2 p q)
          * broadcastTo S4000x64 (shapeCast S4000x1 x1 shapeCasts_S4000x1_S4000x1) broadcasts_S4000x1_S4000x64 (ix2 p q)
        + broadcastTo S4000x64 (shapeCast S1x64 x2 shapeCasts_S1x64_S1x64) broadcasts_S1x64_S4000x64 (ix2 p q)
      = x0 (ix2 p q) * x1 (ix2 p (0 : Fin 1)) + x2 (ix2 (0 : Fin 1) q)
    rw [bcastCol_apply, broadcastTo_1b_ab_apply, shapeCast_self, shapeCast_self, shapeCast_self]
  have e25 : ∀ Y : FVec Ideal S4000x128 .f32,
      addf Y (broadcastTo S4000x128 (shapeCast S1x128 x4 shapeCasts_S1x128_S1x128) broadcasts_S1x128_S4000x128)
        = addRow Y (rowOf x4) := fun Y => by
    funext j
    obtain ⟨p, q, rfl⟩ : ∃ (p : Fin 4000) (q : Fin 128), j = ix2 p q := ⟨j 0, j 1, eq_ix2 j⟩
    show Y (ix2 p q) + broadcastTo S4000x128 (shapeCast S1x128 x4 shapeCasts_S1x128_S1x128) broadcasts_S1x128_S4000x128 (ix2 p q)
      = Y (ix2 p q) + x4 (ix2 (0 : Fin 1) q)
    rw [broadcastTo_1b_ab_apply, shapeCast_self]
  unfold k2_pay2
  dsimp only
  rw [e9, elu_read, mmA_eq, e25, elu_read, mmB_eq]

/-! ## Every stage works row by row -/

/-- The dense layers before the softmax work row by row: row p of the result from row p of the features and the p-th degree factor. -/
theorem dense_rows {n n' : Nat} (a : (A2 n 64).Idx → EReal) (A : (A2 n' 64).Idx → EReal)
    (d : (A2 n 1).Idx → EReal) (D : (A2 n' 1).Idx → EReal) (B : (A2 1 64).Idx → EReal) (Wm1 : (A2 64 128).Idx → EReal)
    (Bm1 : (A2 1 128).Idx → EReal) (Wm2 : (A2 128 15).Idx → EReal) (Bm2 : (A2 1 15).Idx → EReal) (p : Fin n) (p' : Fin n')
    (ha : ∀ l : Fin 64, a (ix2 p l) = A (ix2 p' l)) (hd : d (ix2 p (0 : Fin 1)) = D (ix2 p' (0 : Fin 1))) (c : Fin 15) :
    addRow (mm (eluAll (addRow (mm (eluAll (addRow (rowScale a (colOf d)) (rowOf B))) Wm1) (rowOf Bm1))) Wm2) (rowOf Bm2) (ix2 p c)
      = addRow (mm (eluAll (addRow (mm (eluAll (addRow (rowScale A (colOf D)) (rowOf B))) Wm1) (rowOf Bm1))) Wm2) (rowOf Bm2) (ix2 p' c) := by
  show (∑ l2 : Fin 128, elu ((∑ l1 : Fin 64, elu (a (ix2 p l1) * d (ix2 p (0 : Fin 1)) + B (ix2 (0 : Fin 1) l1)) * Wm1 (ix2 l1 l2))
        + Bm1 (ix2 (0 : Fin 1) l2)) * Wm2 (ix2 l2 c)) + Bm2 (ix2 (0 : Fin 1) c)
    = (∑ l2 : Fin 128, elu ((∑ l1 : Fin 64, elu (A (ix2 p' l1) * D (ix2 p' (0 : Fin 1)) + B (ix2 (0 : Fin 1) l1)) * Wm1 (ix2 l1 l2))
        + Bm1 (ix2 (0 : Fin 1) l2)) * Wm2 (ix2 l2 c)) + Bm2 (ix2 (0 : Fin 1) c)
  simp only [ha, hd]

/-- The body's whole payload read where the array's index says: at a block index j whose row of the loaded feature and
    factor rows is row (i 0) of the arrays, with the weights and biases the whole arrays, it is R2 at i. -/
theorem out_blk (x0 : Vec Ideal S4000x64 .f32) (x1 : Vec Ideal S4000x1 .f32) (x2 : Vec Ideal S1x64 .f32)
    (x3 : Vec Ideal S64x128 .f32) (x4 : Vec Ideal S1x128 .f32) (x5 : Vec Ideal S128x15 .f32) (x6 : Vec Ideal S1x15 .f32)
    (A : (A2 Cert.Spec.nN 64).Idx → EReal) (D : (A2 Cert.Spec.nN 1).Idx → EReal) (B : (A2 1 64).Idx → EReal)
    (Wm1 : (A2 64 128).Idx → EReal) (Bm1 : (A2 1 128).Idx → EReal) (Wm2 : (A2 128 15).Idx → EReal) (Bm2 : (A2 1 15).Idx → EReal)
    (j : S4000x15.Idx) (i : (A2 Cert.Spec.nN 15).Idx)
    (h0 : ∀ l : Fin 64, x0 (ix2 (j 0) l) = A (ix2 (i 0) l))
    (h1 : x1 (ix2 (j 0) (0 : Fin 1)) = D (ix2 (i 0) (0 : Fin 1)))
    (h2 : x2 = B) (h3 : x3 = Wm1) (h4 : x4 = Bm1) (h5 : x5 = Wm2) (h6 : x6 = Bm2)
    (hq : (j 1).val = (i 1).val) :
    k2_pay1 (F := Ideal) (k2_pay2 x0 x1 x2 x3 x4 x5) x6 j = Cert.Spec.R2 A D B Wm1 Bm1 Wm2 Bm2 i := by
  obtain ⟨p, q, rfl⟩ : ∃ (p : Fin 4000) (q : Fin 15), j = ix2 p q := ⟨j 0, j 1, eq_ix2 j⟩
  obtain ⟨p', q', rfl⟩ : ∃ (p' : Fin Cert.Spec.nN) (q' : Fin 15), i = ix2 p' q' := ⟨i 0, i 1, eq_ix2 i⟩
  obtain rfl : q = q' := Fin.ext hq
  subst h2 h3 h4 h5 h6
  rw [pay1_eq, pay2_eq]
  unfold Cert.Spec.R2
  exact softmax_row_congr _ _ p p' (fun c => dense_rows x0 A x1 D x2 x3 x4 x5 x6 p p' h0 h1 c) q

/-! ## From the 25 row blocks to the array -/

variable (V : (c : Dev nD) → (b : Ref sig .tc) → Buf (Elt Ideal) ((c : Thread nD τ).loc b))

/-- The whole-block accesses start at offset (0, 0). -/
theorem zeroOffset : (![0, 0] : Fin 2 → Nat) = fun _ => 0 := funext fun a => by fin_cases a <;> rfl

/-- The printed index maps over the 25 points: the feature rows, the factor rows and the output rows sit at row block t;
    the weights and the biases at (0, 0). -/
theorem blockIndices : ∀ t : Fin cfg2.N, win2_0.index t (0 : Fin 2) = win2_7.index t (0 : Fin 2)
    ∧ win2_0.index t (1 : Fin 2) = 0
    ∧ win2_1.index t (0 : Fin 2) = win2_7.index t (0 : Fin 2)
    ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) ≤ 24
    ∧ win2_7.index t (1 : Fin 2) = 0 :=
  (by decide +kernel : ∀ t : Fin grid2.N, _)

/-- Every row block is some point's. -/
theorem blockOnto : ∀ (b : Fin 25), ∃ t : Fin cfg2.N, win2_7.index t = ![b.val, 0] :=
  (by decide +kernel : ∀ (b : Fin 25), ∃ t : Fin grid2.N, win2_7.index t = ![b.val, 0])

/-- What point t writes back is block t of R2 of the region's seven input arrays. -/
theorem flushed_eq (c : Dev nD) (t : Fin cfg2.N) :
    (dat2 (F := Ideal) V c).flushed 7 t
      = ((cfg2.win 7).blk t).view.read (Elt Ideal)
          (Cert.Spec.R2 (V c main_v42) (V c main_v17) (V c main_v43) (V c main_arg6) (V c main_v44) (V c main_arg8) (V c main_v45)) := by
  show (cfg2.win 7).cut (grid2.coords t) ((dat2 V c).after 7 t) = _
  rw [after2_7]
  unfold out2_7
  rw [View.canon_unit_zero zeroOffset]
  simp only [View.ld_unit_zero (S := S4000x64) zeroOffset, View.ld_unit_zero (S := S4000x1) zeroOffset,
    View.ld_unit_zero (S := S1x64) zeroOffset, View.ld_unit_zero (S := S64x128) zeroOffset,
    View.ld_unit_zero (S := S1x128) zeroOffset, View.ld_unit_zero (S := S128x15) zeroOffset,
    View.ld_unit_zero (S := S1x15) zeroOffset]
  obtain ⟨e00, e01, e10, e11, e20, e21, e30, e31, e40, e41, e50, e51, e60, e61, e70, e71⟩ := blockIndices t
  funext j
  show k2_pay1 (F := Ideal) (k2_pay2 (iblk2 V c 0 t) (iblk2 V c 1 t) (iblk2 V c 2 t) (iblk2 V c 3 t) (iblk2 V c 4 t) (iblk2 V c 5 t))
      (iblk2 V c 6 t) j
    = Cert.Spec.R2 (V c main_v42) (V c main_v17) (V c main_v43) (V c main_arg6) (V c main_v44) (V c main_arg8) (V c main_v45)
        (((cfg2.win 7).blk t).view.emb j)
  refine out_blk _ _ _ _ _ _ _ _ _ _ _ _ _ _ j _ (fun l => ?_) ?_ ?_ ?_ ?_ ?_ ?_ ?_
  · show V c main_v42 (((cfg2.win 0).blk t).view.emb (ix2 (j 0) l))
      = V c main_v42 (ix2 ((((cfg2.win 7).blk t).view.emb j) 0) l)
    refine congrArg _ ?_
    funext a; apply Fin.ext
    match a with
    | ⟨0, _⟩ => show win2_0.index t (0 : Fin 2) * 4000 + 1 * (j 0).val = win2_7.index t (0 : Fin 2) * 4000 + 1 * (j 0).val; omega
    | ⟨1, _⟩ => show win2_0.index t (1 : Fin 2) * 64 + 1 * l.val = l.val; omega
  · show V c main_v17 (((cfg2.win 1).blk t).view.emb (ix2 (j 0) (0 : Fin 1)))
      = V c main_v17 (ix2 ((((cfg2.win 7).blk t).view.emb j) 0) (0 : Fin 1))
    refine congrArg _ ?_
    funext a; apply Fin.ext
    match a with
    | ⟨0, _⟩ => show win2_1.index t (0 : Fin 2) * 4000 + 1 * (j 0).val = win2_7.index t (0 : Fin 2) * 4000 + 1 * (j 0).val; omega
    | ⟨1, _⟩ => show win2_1.index t (1 : Fin 2) * 1 + 1 * 0 = 0; omega
  · funext y
    show V c main_v43 (((cfg2.win 2).blk t).view.emb y) = V c main_v43 y
    refine congrArg _ ?_
    funext a; apply Fin.ext
    match a with
    | ⟨0, _⟩ => show win2_2.index t (0 : Fin 2) * 1 + 1 * (y 0).val = (y 0).val; omega
    | ⟨1, _⟩ => show win2_2.index t (1 : Fin 2) * 64 + 1 * (y 1).val = (y 1).val; omega
  · funext y
    show V c main_arg6 (((cfg2.win 3).blk t).view.emb y) = V c main_arg6 y
    refine congrArg _ ?_
    funext a; apply Fin.ext
    match a with
    | ⟨0, _⟩ => show win2_3.index t (0 : Fin 2) * 64 + 1 * (y 0).val = (y 0).val; omega
    | ⟨1, _⟩ => show win2_3.index t (1 : Fin 2) * 128 + 1 * (y 1).val = (y 1).val; omega
  · funext y
    show V c main_v44 (((cfg2.win 4).blk t).view.emb y) = V c main_v44 y
    refine congrArg _ ?_
    funext a; apply Fin.ext
    match a with
    | ⟨0, _⟩ => show win2_4.index t (0 : Fin 2) * 1 + 1 * (y 0).val = (y 0).val; omega
    | ⟨1, _⟩ => show win2_4.index t (1 : Fin 2) * 128 + 1 * (y 1).val = (y 1).val; omega
  · funext y
    show V c main_arg8 (((cfg2.win 5).blk t).view.emb y) = V c main_arg8 y
    refine congrArg _ ?_
    funext a; apply Fin.ext
    match a with
    | ⟨0, _⟩ => show win2_5.index t (0 : Fin 2) * 128 + 1 * (y 0).val = (y 0).val; omega
    | ⟨1, _⟩ => show win2_5.index t (1 : Fin 2) * 15 + 1 * (y 1).val = (y 1).val; omega
  · funext y
    show V c main_v45 (((cfg2.win 6).blk t).view.emb y) = V c main_v45 y
    refine congrArg _ ?_
    funext a; apply Fin.ext
    match a with
    | ⟨0, _⟩ => show win2_6.index t (0 : Fin 2) * 1 + 1 * (y 0).val = (y 0).val; omega
    | ⟨1, _⟩ => show win2_6.index t (1 : Fin 2) * 15 + 1 * (y 1).val = (y 1).val; omega
  · show (j 1).val = win2_7.index t (1 : Fin 2) * 15 + 1 * (j 1).val
    omega

/-- An index of the output array is in point t's block iff each coordinate is in the block's range on its axis. -/
theorem mem_blk (t : Fin cfg2.N) (i : S100000x15.Idx) :
    i ∈ ((cfg2.win 7).blk t).view.set ↔ ∀ a : Fin 2, win2_7.index t a * S4000x15.size a ≤ (i a).val ∧ (i a).val < win2_7.index t a * S4000x15.size a + S4000x15.size a := by
  show i ∈ ((View.whole main_v46).slice (win2_7.rect t)).set ↔ _
  rw [View.set_slice_whole, Rect.mem_set_unit]
  exact Iff.rfl

/-- The row blocks cover the array: row r is in block r / 4000. -/
theorem cover (i : S100000x15.Idx) :
    ∃ t : Fin cfg2.N, (cfg2.win 7).flush t = true ∧ i ∈ ((cfg2.win 7).blk t).view.set := by
  have hi0 : (i 0).val < 100000 := (i 0).isLt
  have hi1 : (i 1).val < 15 := (i 1).isLt
  obtain ⟨t, ht⟩ := blockOnto ⟨(i 0).val / 4000, by omega⟩
  have q0 : win2_7.index t (0 : Fin 2) = (i 0).val / 4000 := congrFun ht 0
  have q1 : win2_7.index t (1 : Fin 2) = 0 := congrFun ht 1
  refine ⟨t, flush2_7 t, ?_⟩
  rw [mem_blk]
  intro a
  match a with
  | ⟨0, _⟩ => show win2_7.index t (0 : Fin 2) * 4000 ≤ (i 0).val ∧ (i 0).val < win2_7.index t (0 : Fin 2) * 4000 + 4000; omega
  | ⟨1, _⟩ => show win2_7.index t (1 : Fin 2) * 15 ≤ (i 1).val ∧ (i 1).val < win2_7.index t (1 : Fin 2) * 15 + 15; omega

end Region2

variable (V : (c : Dev nD) → (b : Ref sig .tc) → Buf (Elt Ideal) ((c : Thread nD τ).loc b))

/-- The last kernel's output array after its 25 row blocks: the second convolution finished, the two dense layers and the
    softmax, row by row. -/
theorem final2 (c : Dev nD) :
    (dat2 (F := Ideal) V c).arrAt 7 cfg2.N
      = Cert.Spec.R2 (V c main_v42) (V c main_v17) (V c main_v43) (V c main_arg6) (V c main_v44) (V c main_arg8) (V c main_v45) :=
  (dat2 (F := Ideal) V c).arrAt_eq_of_cover 7
    (Cert.Spec.R2 (V c main_v42) (V c main_v17) (V c main_v43) (V c main_arg6) (V c main_v44) (V c main_arg8) (V c main_v45))
    (fun t _ => Region2.flushed_eq V c t) Region2.cover

end Cert.KernelIdeal.KV

end
-- ==== Proof.KHost.lean ====
import proofs.«407343_j65274912965021_3_alg».proof.Proof.Gen.KernelIdeal.Frame
import proofs.«407343_j65274912965021_3_alg».proof.Proof.Spec
import proofs.«407343_j65274912965021_3_alg».proof.Proof.KRegion0
import proofs.«407343_j65274912965021_3_alg».proof.Proof.KRegion1
import proofs.«407343_j65274912965021_3_alg».proof.Proof.KRegion2
import proofs.«407343_j65274912965021_3_alg».proof.Proof.LibRead
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KV

open Idealize.ShloMosaic Idealize.ShloMosaic.ValueIdx Idealize.ShloMosaic.TcCoe Idealize.SL.Sem
open Cert.KernelIdeal Cert.KernelIdeal.Gen
open Idealize.ShloMosaic.Pipeline (Dat Cfg Window)

/-- The edge sources with the self-loops appended: row 0 of the edge array followed by 0 … 99999. -/
def src (ei : IVec S2x3200000 32) : IVec S3300000 32 :=
  concatenate S3300000 0 [⟨S3200000, shapeCast S3200000 (extractStridedSlice S1x3200000 ![0, 0] ei slices_S2x3200000_S1x3200000_0_0) shapeCasts_S1x3200000_S3200000⟩, ⟨S100000, iotaInDim S100000 32 0⟩] concatenates_S3200000_S100000_S3300000_d0
/-- The edge targets with the self-loops appended: row 1 of the edge array followed by 0 … 99999. -/
def dst (ei : IVec S2x3200000 32) : IVec S3300000 32 :=
  concatenate S3300000 0 [⟨S3200000, shapeCast S3200000 (extractStridedSlice S1x3200000 ![1, 0] ei slices_S2x3200000_S1x3200000_1_0) shapeCasts_S1x3200000_S3200000⟩, ⟨S100000, iotaInDim S100000 32 0⟩] concatenates_S3200000_S100000_S3300000_d0

/-- A buffer none of a host stretch's operations writes. -/
macro "nw" : tactic => `(tactic| (
  refine List.forall_iff_forall_mem.mp ?_
  simp only [hostOps0, hostOps0_1, hostOps0_2, hostOps1, hostOps2, List.Forall, StableHlo.nullary_writes, StableHlo.unary_writes,
    StableHlo.binary_writes, StableHlo.ternary_writes, StableHlo.reshape_writes, Finset.mem_singleton]
  repeat' apply And.intro
  all_goals exact StableHlo.devRef_ne_of_ne (by decide)))

/-! ## The host operations' compositions, over named arrays -/

/-- One layer's carrying of rows along the edges: wrap the negative sources, lay both edge vectors out as columns, gather
    the rows at the sources and add them up at the targets, from an array of zeros. -/
theorem agg_read (X : S100000x64.Idx → EReal) (s d : IVec S3300000 32) :
    Host.scatterAdd (F := Ideal) (φ := .f32) scatter_S100000x64_S3300000x1_S3300000x64_1_0_0_1
        (broadcastInDim S100000x64 ![] bcast_S_S100000x64 (constant (F := Ideal) S_ .f32 0x00000000#32))
        (broadcastInDim S3300000x1 ![0] bcast_S3300000_S3300000x1_0 d)
        (Host.gather gather_S100000x64_S3300000x1_S3300000x64_1_0_n_n_0_1_164 X
          (broadcastInDim S3300000x1 ![0] bcast_S3300000_S3300000x1_0
            (select (cmpi .slt s (broadcastInDim S3300000 ![] bcast_S_S3300000 (constantI S_ 32 0#32)))
              (addi s (broadcastInDim S3300000 ![] bcast_S_S3300000 (constantI S_ 32 100000#32))) s)))
      = Cert.Spec.aggK (Cert.Spec.col1 (Cert.Spec.wrapNeg s)) (Cert.Spec.col1 d) X := by
  rw [Cert.Spec.splat_read, Cert.Spec.splatI_read, Cert.Spec.splatI_read, Cert.Spec.wrapNeg_read s _ _ rfl rfl,
    Cert.Spec.col1_read, Cert.Spec.col1_read, Ideal.ofBits_zero_f32]
  rfl

/-- The in-degrees: ones added up at the targets, from zeros. -/
theorem deg_read (d : IVec S3300000 32) :
    Host.scatterAdd (F := Ideal) (φ := .f32) scatter_S100000_S3300000x1_S3300000_n_0_0_1
        (broadcastInDim S100000 ![] bcast_S_S100000 (constant (F := Ideal) S_ .f32 0x00000000#32))
        (broadcastInDim S3300000x1 ![0] bcast_S3300000_S3300000x1_0 d)
        (broadcastInDim S3300000 ![] bcast_S_S3300000 (constant (F := Ideal) S_ .f32 0x3F800000#32))
      = Cert.Spec.deg (Cert.Spec.col1 d) := by
  rw [Cert.Spec.splat_read, Cert.Spec.splat_read, Cert.Spec.col1_read, Ideal.ofBits_zero_f32, Cert.Spec.ofBits_one_f32]
  rfl

/-- The degree factor of those in-degrees: compare with 0, take the inverse square root of the maximum with 1, select. -/
theorem disdeg_read (d : IVec S3300000 32) :
    select
      (cmpf (F := Ideal) (φ := .f32) .ogt
        (Host.scatterAdd (F := Ideal) (φ := .f32) scatter_S100000_S3300000x1_S3300000_n_0_0_1
          (broadcastInDim S100000 ![] bcast_S_S100000 (constant (F := Ideal) S_ .f32 0x00000000#32))
          (broadcastInDim S3300000x1 ![0] bcast_S3300000_S3300000x1_0 d)
          (broadcastInDim S3300000 ![] bcast_S_S3300000 (constant (F := Ideal) S_ .f32 0x3F800000#32)))
        (broadcastInDim S100000 ![] bcast_S_S100000 (constant (F := Ideal) S_ .f32 0x00000000#32)))
      (Host.rsqrt (F := Ideal) (φ := .f32)
        (maximumf (F := Ideal) (φ := .f32)
          (Host.scatterAdd (F := Ideal) (φ := .f32) scatter_S100000_S3300000x1_S3300000_n_0_0_1
            (broadcastInDim S100000 ![] bcast_S_S100000 (constant (F := Ideal) S_ .f32 0x00000000#32))
            (broadcastInDim S3300000x1 ![0] bcast_S3300000_S3300000x1_0 d)
            (broadcastInDim S3300000 ![] bcast_S_S3300000 (constant (F := Ideal) S_ .f32 0x3F800000#32)))
          (broadcastInDim S100000 ![] bcast_S_S100000 (constant (F := Ideal) S_ .f32 0x3F800000#32))))
      (broadcastInDim S100000 ![] bcast_S_S100000 (constant (F := Ideal) S_ .f32 0x00000000#32))
      = Cert.Spec.disF (Cert.Spec.deg (Cert.Spec.col1 d)) := by
  rw [deg_read d]
  exact Cert.Spec.dis_read _ _ _ _ (by rw [Cert.Spec.splat_read, Ideal.ofBits_zero_f32])
    (by rw [Cert.Spec.splat_read, Cert.Spec.ofBits_one_f32]) (by rw [Cert.Spec.splat_read, Ideal.ofBits_zero_f32])

/-- The features times the degree factor laid out as a column and spread along the rows: each row scaled by its factor. -/
theorem scale_read (x : S100000x3.Idx → EReal) (d : S100000.Idx → EReal) :
    mulf (F := Ideal) (φ := .f32) x
        (broadcastInDim S100000x3 ![0, 1] bcast_S100000x1_S100000x3_0_1 (shapeCast S100000x1 d shapeCasts_S100000_S100000x1))
      = Cert.Spec.rowScale x d := by
  rw [Cert.Spec.bcast_col_read]
  funext j
  rw [mulf_apply]
  exact congrArg (x j * ·) (congrFun (Cert.Spec.colOf_reshape d shapeCasts_S100000_S100000x1) (ix1 (j 0)))

/-- The three kernels composed, once the column and the rows they are handed are read back as the vectors they were
    reshaped from. -/
theorem compose (x : S100000x3.Idx → EReal) (w1 : S3x64.Idx → EReal) (b1 : S64.Idx → EReal) (w2 : S64x64.Idx → EReal)
    (b2 : S64.Idx → EReal) (wm1 : S64x128.Idx → EReal) (bm1 : S128.Idx → EReal) (wm2 : S128x15.Idx → EReal)
    (bm2 : S15.Idx → EReal) (sn db : IVec S3300000x1 32) (d : S100000.Idx → EReal) :
    Cert.Spec.R2
        (Cert.Spec.aggK sn db
          (Cert.Spec.R1 (Cert.Spec.aggK sn db (Cert.Spec.R0 (Cert.Spec.rowScale x d) w1))
            (shapeCast S100000x1 d shapeCasts_S100000_S100000x1) (shapeCast S1x64 b1 shapeCasts_S64_S1x64) w2))
        (shapeCast S100000x1 d shapeCasts_S100000_S100000x1) (shapeCast S1x64 b2 shapeCasts_S64_S1x64) wm1
        (shapeCast S1x128 bm1 shapeCasts_S128_S1x128) wm2 (shapeCast S1x15 bm2 shapeCasts_S15_S1x15)
      = Cert.Spec.softmax (Cert.Spec.addRow (Cert.Spec.mm (Cert.Spec.eluAll (Cert.Spec.addRow (Cert.Spec.mm (Cert.Spec.eluAll
          (Cert.Spec.addRow (Cert.Spec.rowScale (Cert.Spec.aggK sn db
            (Cert.Spec.rowScale (Cert.Spec.mm (Cert.Spec.eluAll (Cert.Spec.addRow (Cert.Spec.rowScale
              (Cert.Spec.aggK sn db (Cert.Spec.mm (Cert.Spec.rowScale x d) w1)) d) b1)) w2) d)) d) b2)) wm1) bm1)) wm2) bm2) := by
  unfold Cert.Spec.R2 Cert.Spec.R1 Cert.Spec.R0
  rw [Cert.Spec.colOf_reshape d shapeCasts_S100000_S100000x1, Cert.Spec.rowOf_reshape b1 shapeCasts_S64_S1x64,
    Cert.Spec.rowOf_reshape b2 shapeCasts_S64_S1x64, Cert.Spec.rowOf_reshape bm1 shapeCasts_S128_S1x128,
    Cert.Spec.rowOf_reshape bm2 shapeCasts_S15_S1x15]

variable (m : (ℓ : Loc nD τ sig) → Buf (Elt Ideal) ℓ) (ρ : Dev nD → PrngReg)

/-! ## The first host stretches: the edge lists, the degree factor, the scaled features -/

/-- After the first host stretch the source list is row 0 of the edge array with the self-loops appended. -/
theorem r1_v3 (c : Dev nD) :
    (W1 (F := Ideal) m ρ c (Proc.devRef .tc main_v3) : IVec S3300000 32) = src (W0 m ρ c (Proc.devRef .tc main_arg1)) := by
  show StableHlo.after hostOps0 (W0 m ρ c) (Proc.devRef .tc main_v3) = _
  generalize W0 m ρ c = V
  after_results
  rfl

/-- After the first host stretch the target list is row 1 of the edge array with the self-loops appended. -/
theorem r1_v6 (c : Dev nD) :
    (W1 (F := Ideal) m ρ c (Proc.devRef .tc main_v6) : IVec S3300000 32) = dst (W0 m ρ c (Proc.devRef .tc main_arg1)) := by
  show StableHlo.after hostOps0 (W0 m ρ c) (Proc.devRef .tc main_v6) = _
  generalize W0 m ρ c = V
  after_results
  rfl

/-- After the first host stretch: the comparison with 0 of the in-degrees (ones added up at the targets, from zeros). -/
theorem r1_v12 (c : Dev nD) :
    (W1 (F := Ideal) m ρ c (Proc.devRef .tc main_v12) : IVec S100000 1)
      = cmpf (F := Ideal) (φ := .f32) .ogt (Host.scatterAdd (F := Ideal) (φ := .f32) scatter_S100000_S3300000x1_S3300000_n_0_0_1
          (broadcastInDim S100000 ![] bcast_S_S100000 (constant (F := Ideal) S_ .f32 0x00000000#32))
          (broadcastInDim S3300000x1 ![0] bcast_S3300000_S3300000x1_0 (dst (W0 m ρ c (Proc.devRef .tc main_arg1))))
          (broadcastInDim S3300000 ![] bcast_S_S3300000 (constant (F := Ideal) S_ .f32 0x3F800000#32))) (broadcastInDim S100000 ![] bcast_S_S100000 (constant (F := Ideal) S_ .f32 0x00000000#32)) := by
  show StableHlo.after hostOps0 (W0 m ρ c) (Proc.devRef .tc main_v12) = _
  generalize W0 m ρ c = V
  after_results
  rfl

/-- After the first host stretch: the inverse square root of the maximum of those in-degrees with 1. -/
theorem r1_v15 (c : Dev nD) :
    (W1 (F := Ideal) m ρ c (Proc.devRef .tc main_v15) : S100000.Idx → EReal)
      = Host.rsqrt (F := Ideal) (φ := .f32) (maximumf (F := Ideal) (φ := .f32) (Host.scatterAdd (F := Ideal) (φ := .f32) scatter_S100000_S3300000x1_S3300000_n_0_0_1
          (broadcastInDim S100000 ![] bcast_S_S100000 (constant (F := Ideal) S_ .f32 0x00000000#32))
          (broadcastInDim S3300000x1 ![0] bcast_S3300000_S3300000x1_0 (dst (W0 m ρ c (Proc.devRef .tc main_arg1))))
          (broadcastInDim S3300000 ![] bcast_S_S3300000 (constant (F := Ideal) S_ .f32 0x3F800000#32))) (broadcastInDim S100000 ![] bcast_S_S100000 (constant (F := Ideal) S_ .f32 0x3F800000#32))) := by
  show StableHlo.after hostOps0 (W0 m ρ c) (Proc.devRef .tc main_v15) = _
  generalize W0 m ρ c = V
  after_results
  rfl

/-- After the first host stretch the scalar constant kept for the select is 0. -/
theorem r1_cst3 (c : Dev nD) :
    (W1 (F := Ideal) m ρ c (Proc.devRef .tc main_cst_3) : S_.Idx → EReal) = constant (F := Ideal) S_ .f32 0x00000000#32 := by
  show StableHlo.after hostOps0 (W0 m ρ c) (Proc.devRef .tc main_cst_3) = _
  generalize W0 m ρ c = V
  after_results

/-- After the second host stretch the degree factor is disF of the in-degrees: the select of the two arrays above against 0. -/
theorem r2_v16 (c : Dev nD) :
    (W2 (F := Ideal) m ρ c (Proc.devRef .tc main_v16) : S100000.Idx → EReal)
      = Cert.Spec.disF (Cert.Spec.deg (Cert.Spec.col1 (dst (W0 m ρ c (Proc.devRef .tc main_arg1))))) := by
  have e : (W2 (F := Ideal) m ρ c (Proc.devRef .tc main_v16) : S100000.Idx → EReal)
      = select (W1 m ρ c (Proc.devRef .tc main_v12) : IVec S100000 1) (W1 m ρ c (Proc.devRef .tc main_v15) : S100000.Idx → EReal)
          (broadcastInDim S100000 ![] bcast_S_S100000 (W1 m ρ c (Proc.devRef .tc main_cst_3) : S_.Idx → EReal)) := by
    show StableHlo.after hostOps0_1 (W1 m ρ c) (Proc.devRef .tc main_v16) = _
    generalize W1 m ρ c = V
    after_results
    rfl
  rw [e, r1_v12, r1_v15, r1_cst3]
  exact disdeg_read _

/-- After the third host stretch: the degree factor reshaped to one column. -/
theorem r3_v17 (c : Dev nD) :
    (W3 (F := Ideal) m ρ c (Proc.devRef .tc main_v17) : S100000x1.Idx → EReal)
      = shapeCast S100000x1 (W2 m ρ c (Proc.devRef .tc main_v16) : S100000.Idx → EReal) shapeCasts_S100000_S100000x1 := by
  show StableHlo.after hostOps0_2 (W2 m ρ c) (Proc.devRef .tc main_v17) = _
  generalize W2 m ρ c = V
  after_results
  rfl

/-- After the third host stretch: the features with each row scaled by its degree factor. -/
theorem r3_v19 (c : Dev nD) :
    (W3 (F := Ideal) m ρ c (Proc.devRef .tc main_v19) : S100000x3.Idx → EReal)
      = Cert.Spec.rowScale (W2 m ρ c (Proc.devRef .tc main_arg0)) (W2 m ρ c (Proc.devRef .tc main_v16)) := by
  show StableHlo.after hostOps0_2 (W2 m ρ c) (Proc.devRef .tc main_v19) = _
  generalize W2 m ρ c = V
  after_results
  exact scale_read _ _

/-! ## What no stretch and no kernel writes is read back unchanged -/

/-- A buffer that none of the first three host stretches writes holds after them what it held at the launch … -/
theorem down3 (c : Dev nD) (b : Ref sig .tc) (h0 : (∀ op ∈ (hostOps0 : List (HloOp τ sig (Elt Ideal))), Proc.devRef .tc b ∉ op.writes)) (h1 : (∀ op ∈ (hostOps0_1 : List (HloOp τ sig (Elt Ideal))), Proc.devRef .tc b ∉ op.writes)) (h2 : (∀ op ∈ (hostOps0_2 : List (HloOp τ sig (Elt Ideal))), Proc.devRef .tc b ∉ op.writes)) :
    W3 (F := Ideal) m ρ c (Proc.devRef .tc b) = W0 m ρ c (Proc.devRef .tc b) :=
  (StableHlo.after_of_forall_not_mem _ _ h2).trans
    ((StableHlo.after_of_forall_not_mem _ _ h1).trans (StableHlo.after_of_forall_not_mem _ _ h0))

/-- … and still after the first kernel, when it is none of that kernel's arrays … -/
theorem down4 (c : Dev nD) (b : Ref sig .tc) (hr0 : ∀ w, Pipeline.arrRef spec0 w ≠ b)
    (h0 : (∀ op ∈ (hostOps0 : List (HloOp τ sig (Elt Ideal))), Proc.devRef .tc b ∉ op.writes)) (h1 : (∀ op ∈ (hostOps0_1 : List (HloOp τ sig (Elt Ideal))), Proc.devRef .tc b ∉ op.writes)) (h2 : (∀ op ∈ (hostOps0_2 : List (HloOp τ sig (Elt Ideal))), Proc.devRef .tc b ∉ op.writes)) :
    W4 (F := Ideal) m ρ c (Proc.devRef .tc b) = W0 m ρ c (Proc.devRef .tc b) :=
  (W4_of_ne m ρ c b hr0).trans (down3 m ρ c b h0 h1 h2)

/-- … and after the fourth host stretch, when that stretch does not write it either … -/
theorem down5 (c : Dev nD) (b : Ref sig .tc) (h3 : (∀ op ∈ (hostOps1 : List (HloOp τ sig (Elt Ideal))), Proc.devRef .tc b ∉ op.writes)) (hr0 : ∀ w, Pipeline.arrRef spec0 w ≠ b)
    (h0 : (∀ op ∈ (hostOps0 : List (HloOp τ sig (Elt Ideal))), Proc.devRef .tc b ∉ op.writes)) (h1 : (∀ op ∈ (hostOps0_1 : List (HloOp τ sig (Elt Ideal))), Proc.devRef .tc b ∉ op.writes)) (h2 : (∀ op ∈ (hostOps0_2 : List (HloOp τ sig (Elt Ideal))), Proc.devRef .tc b ∉ op.writes)) :
    W5 (F := Ideal) m ρ c (Proc.devRef .tc b) = W0 m ρ c (Proc.devRef .tc b) :=
  (StableHlo.after_of_forall_not_mem _ _ h3).trans (down4 m ρ c b hr0 h0 h1 h2)

/-- … and after the second kernel, when it is none of that kernel's arrays … -/
theorem down6 (c : Dev nD) (b : Ref sig .tc) (hr1 : ∀ w, Pipeline.arrRef spec1 w ≠ b) (h3 : (∀ op ∈ (hostOps1 : List (HloOp τ sig (Elt Ideal))), Proc.devRef .tc b ∉ op.writes))
    (hr0 : ∀ w, Pipeline.arrRef spec0 w ≠ b) (h0 : (∀ op ∈ (hostOps0 : List (HloOp τ sig (Elt Ideal))), Proc.devRef .tc b ∉ op.writes)) (h1 : (∀ op ∈ (hostOps0_1 : List (HloOp τ sig (Elt Ideal))), Proc.devRef .tc b ∉ op.writes)) (h2 : (∀ op ∈ (hostOps0_2 : List (HloOp τ sig (Elt Ideal))), Proc.devRef .tc b ∉ op.writes)) :
    W6 (F := Ideal) m ρ c (Proc.devRef .tc b) = W0 m ρ c (Proc.devRef .tc b) :=
  (W6_of_ne m ρ c b hr1).trans (down5 m ρ c b h3 hr0 h0 h1 h2)

/-- … and after the fifth host stretch, when that stretch does not write it either. -/
theorem down7 (c : Dev nD) (b : Ref sig .tc) (h4 : (∀ op ∈ (hostOps2 : List (HloOp τ sig (Elt Ideal))), Proc.devRef .tc b ∉ op.writes)) (hr1 : ∀ w, Pipeline.arrRef spec1 w ≠ b) (h3 : (∀ op ∈ (hostOps1 : List (HloOp τ sig (Elt Ideal))), Proc.devRef .tc b ∉ op.writes))
    (hr0 : ∀ w, Pipeline.arrRef spec0 w ≠ b) (h0 : (∀ op ∈ (hostOps0 : List (HloOp τ sig (Elt Ideal))), Proc.devRef .tc b ∉ op.writes)) (h1 : (∀ op ∈ (hostOps0_1 : List (HloOp τ sig (Elt Ideal))), Proc.devRef .tc b ∉ op.writes)) (h2 : (∀ op ∈ (hostOps0_2 : List (HloOp τ sig (Elt Ideal))), Proc.devRef .tc b ∉ op.writes)) :
    W7 (F := Ideal) m ρ c (Proc.devRef .tc b) = W0 m ρ c (Proc.devRef .tc b) :=
  (StableHlo.after_of_forall_not_mem _ _ h4).trans (down6 m ρ c b hr1 h3 hr0 h0 h1 h2)

/-- The features (argument 0) still hold their launch contents when the third host stretch begins. -/
theorem arg0_2 (c : Dev nD) : W2 (F := Ideal) m ρ c (Proc.devRef .tc main_arg0) = W0 m ρ c (Proc.devRef .tc main_arg0) :=
  (StableHlo.after_of_forall_not_mem _ _ (by nw)).trans (StableHlo.after_of_forall_not_mem _ _ (by nw))
/-- The first layer's weights (argument 2) still hold their launch contents at the entry of the first kernel. -/
theorem arg2_3 (c : Dev nD) : W3 (F := Ideal) m ρ c (Proc.devRef .tc main_arg2) = W0 m ρ c (Proc.devRef .tc main_arg2) :=
  down3 m ρ c main_arg2 (by nw) (by nw) (by nw)
/-- The first bias (argument 3) still holds its launch contents after the first kernel. -/
theorem arg3_4 (c : Dev nD) : W4 (F := Ideal) m ρ c (Proc.devRef .tc main_arg3) = W0 m ρ c (Proc.devRef .tc main_arg3) :=
  down4 m ρ c main_arg3 (by decide) (by nw) (by nw) (by nw)
/-- The second layer's weights (argument 4) still hold their launch contents at the entry of the second kernel. -/
theorem arg4_5 (c : Dev nD) : W5 (F := Ideal) m ρ c (Proc.devRef .tc main_arg4) = W0 m ρ c (Proc.devRef .tc main_arg4) :=
  down5 m ρ c main_arg4 (by nw) (by decide) (by nw) (by nw) (by nw)
/-- The second bias (argument 5) still holds its launch contents after the second kernel; -/
theorem arg5_6 (c : Dev nD) : W6 (F := Ideal) m ρ c (Proc.devRef .tc main_arg5) = W0 m ρ c (Proc.devRef .tc main_arg5) :=
  down6 m ρ c main_arg5 (by decide) (by nw) (by decide) (by nw) (by nw) (by nw)
/-- so does the first dense layer's bias (argument 7), -/
theorem arg7_6 (c : Dev nD) : W6 (F := Ideal) m ρ c (Proc.devRef .tc main_arg7) = W0 m ρ c (Proc.devRef .tc main_arg7) :=
  down6 m ρ c main_arg7 (by decide) (by nw) (by decide) (by nw) (by nw) (by nw)
/-- and the second dense layer's bias (argument 9). -/
theorem arg9_6 (c : Dev nD) : W6 (F := Ideal) m ρ c (Proc.devRef .tc main_arg9) = W0 m ρ c (Proc.devRef .tc main_arg9) :=
  down6 m ρ c main_arg9 (by decide) (by nw) (by decide) (by nw) (by nw) (by nw)
/-- The first dense layer's weights (argument 6) still hold their launch contents at the entry of the third kernel; -/
theorem arg6_7 (c : Dev nD) : W7 (F := Ideal) m ρ c (Proc.devRef .tc main_arg6) = W0 m ρ c (Proc.devRef .tc main_arg6) :=
  down7 m ρ c main_arg6 (by nw) (by decide) (by nw) (by decide) (by nw) (by nw) (by nw)
/-- so do the second dense layer's weights (argument 8). -/
theorem arg8_7 (c : Dev nD) : W7 (F := Ideal) m ρ c (Proc.devRef .tc main_arg8) = W0 m ρ c (Proc.devRef .tc main_arg8) :=
  down7 m ρ c main_arg8 (by nw) (by decide) (by nw) (by decide) (by nw) (by nw) (by nw)

/-- A buffer that nothing writes between the end of the first host stretch and the first kernel's exit holds there what it
    held after that stretch (the edge lists are such buffers). -/
theorem mid4 (c : Dev nD) (b : Ref sig .tc) (hr0 : ∀ w, Pipeline.arrRef spec0 w ≠ b) (h1 : (∀ op ∈ (hostOps0_1 : List (HloOp τ sig (Elt Ideal))), Proc.devRef .tc b ∉ op.writes)) (h2 : (∀ op ∈ (hostOps0_2 : List (HloOp τ sig (Elt Ideal))), Proc.devRef .tc b ∉ op.writes)) :
    W4 (F := Ideal) m ρ c (Proc.devRef .tc b) = W1 m ρ c (Proc.devRef .tc b) :=
  (W4_of_ne m ρ c b hr0).trans ((StableHlo.after_of_forall_not_mem _ _ h2).trans (StableHlo.after_of_forall_not_mem _ _ h1))
/-- … and likewise up to the second kernel's exit, when the fourth host stretch and the second kernel do not write it either. -/
theorem mid6 (c : Dev nD) (b : Ref sig .tc) (hr1 : ∀ w, Pipeline.arrRef spec1 w ≠ b) (h3 : (∀ op ∈ (hostOps1 : List (HloOp τ sig (Elt Ideal))), Proc.devRef .tc b ∉ op.writes))
    (hr0 : ∀ w, Pipeline.arrRef spec0 w ≠ b) (h1 : (∀ op ∈ (hostOps0_1 : List (HloOp τ sig (Elt Ideal))), Proc.devRef .tc b ∉ op.writes)) (h2 : (∀ op ∈ (hostOps0_2 : List (HloOp τ sig (Elt Ideal))), Proc.devRef .tc b ∉ op.writes)) :
    W6 (F := Ideal) m ρ c (Proc.devRef .tc b) = W1 m ρ c (Proc.devRef .tc b) :=
  (W6_of_ne m ρ c b hr1).trans ((StableHlo.after_of_forall_not_mem _ _ h3).trans (mid4 m ρ c b hr0 h1 h2))

/-- After the first kernel the source list is still row 0 of the edge array with the self-loops appended; -/
theorem v3_4 (c : Dev nD) : (W4 (F := Ideal) m ρ c (Proc.devRef .tc main_v3) : IVec S3300000 32) = src (W0 m ρ c (Proc.devRef .tc main_arg1)) :=
  (mid4 m ρ c main_v3 (by decide) (by nw) (by nw)).trans (r1_v3 m ρ c)
/-- the target list is still row 1 of the edge array with the self-loops appended. -/
theorem v6_4 (c : Dev nD) : (W4 (F := Ideal) m ρ c (Proc.devRef .tc main_v6) : IVec S3300000 32) = dst (W0 m ρ c (Proc.devRef .tc main_arg1)) :=
  (mid4 m ρ c main_v6 (by decide) (by nw) (by nw)).trans (r1_v6 m ρ c)
/-- After the second kernel the source list is still the same, -/
theorem v3_6 (c : Dev nD) : (W6 (F := Ideal) m ρ c (Proc.devRef .tc main_v3) : IVec S3300000 32) = src (W0 m ρ c (Proc.devRef .tc main_arg1)) :=
  (mid6 m ρ c main_v3 (by decide) (by nw) (by decide) (by nw) (by nw)).trans (r1_v3 m ρ c)
/-- and so is the target list. -/
theorem v6_6 (c : Dev nD) : (W6 (F := Ideal) m ρ c (Proc.devRef .tc main_v6) : IVec S3300000 32) = dst (W0 m ρ c (Proc.devRef .tc main_arg1)) :=
  (mid6 m ρ c main_v6 (by decide) (by nw) (by decide) (by nw) (by nw)).trans (r1_v6 m ρ c)

/-- The degree factor's column, written once by the third host stretch, is unchanged at the entry of the second kernel … -/
theorem v17_5 (c : Dev nD) : W5 (F := Ideal) m ρ c (Proc.devRef .tc main_v17) = W3 m ρ c (Proc.devRef .tc main_v17) :=
  (StableHlo.after_of_forall_not_mem _ _ (by nw)).trans (W4_of_ne m ρ c main_v17 (by decide))
/-- … and at the entry of the third kernel. -/
theorem v17_7 (c : Dev nD) : W7 (F := Ideal) m ρ c (Proc.devRef .tc main_v17) = W3 m ρ c (Proc.devRef .tc main_v17) :=
  (StableHlo.after_of_forall_not_mem _ _ (by nw)).trans (((W6_arr m ρ c 1).trans (((dat1 (V5 m ρ) c).arrAt_in 1 rfl _).trans (A_eq1 (V5 m ρ) c 1))).trans (v17_5 m ρ c))

/-! ## The later stretches and the three kernels -/

/-- After the fourth host stretch: the first kernel's output rows carried along the edges and added up at the targets. -/
theorem r5_v30 (c : Dev nD) :
    (W5 (F := Ideal) m ρ c (Proc.devRef .tc main_v30) : S100000x64.Idx → EReal)
      = Cert.Spec.aggK (Cert.Spec.col1 (Cert.Spec.wrapNeg (W4 m ρ c (Proc.devRef .tc main_v3))))
          (Cert.Spec.col1 (W4 m ρ c (Proc.devRef .tc main_v6))) (W4 m ρ c (Proc.devRef .tc main_v20)) := by
  show StableHlo.after hostOps1 (W4 m ρ c) (Proc.devRef .tc main_v30) = _
  generalize W4 m ρ c = V
  after_results
  exact agg_read _ _ _

/-- After the fourth host stretch: the first bias reshaped to one row. -/
theorem r5_v31 (c : Dev nD) :
    (W5 (F := Ideal) m ρ c (Proc.devRef .tc main_v31) : S1x64.Idx → EReal)
      = shapeCast S1x64 (W4 m ρ c (Proc.devRef .tc main_arg3) : S64.Idx → EReal) shapeCasts_S64_S1x64 := by
  show StableHlo.after hostOps1 (W4 m ρ c) (Proc.devRef .tc main_v31) = _
  generalize W4 m ρ c = V
  after_results
  rfl

/-- After the fifth host stretch: the second kernel's output rows carried along the edges and added up at the targets. -/
theorem r7_v42 (c : Dev nD) :
    (W7 (F := Ideal) m ρ c (Proc.devRef .tc main_v42) : S100000x64.Idx → EReal)
      = Cert.Spec.aggK (Cert.Spec.col1 (Cert.Spec.wrapNeg (W6 m ρ c (Proc.devRef .tc main_v3))))
          (Cert.Spec.col1 (W6 m ρ c (Proc.devRef .tc main_v6))) (W6 m ρ c (Proc.devRef .tc main_v32)) := by
  show StableHlo.after hostOps2 (W6 m ρ c) (Proc.devRef .tc main_v42) = _
  generalize W6 m ρ c = V
  after_results
  exact agg_read _ _ _

/-- After the fifth host stretch: the second bias reshaped to one row; -/
theorem r7_v43 (c : Dev nD) :
    (W7 (F := Ideal) m ρ c (Proc.devRef .tc main_v43) : S1x64.Idx → EReal)
      = shapeCast S1x64 (W6 m ρ c (Proc.devRef .tc main_arg5) : S64.Idx → EReal) shapeCasts_S64_S1x64 := by
  show StableHlo.after hostOps2 (W6 m ρ c) (Proc.devRef .tc main_v43) = _
  generalize W6 m ρ c = V
  after_results
  rfl

/-- the first dense layer's bias reshaped to one row; -/
theorem r7_v44 (c : Dev nD) :
    (W7 (F := Ideal) m ρ c (Proc.devRef .tc main_v44) : S1x128.Idx → EReal)
      = shapeCast S1x128 (W6 m ρ c (Proc.devRef .tc main_arg7) : S128.Idx → EReal) shapeCasts_S128_S1x128 := by
  show StableHlo.after hostOps2 (W6 m ρ c) (Proc.devRef .tc main_v44) = _
  generalize W6 m ρ c = V
  after_results
  rfl

/-- the second dense layer's bias reshaped to one row. -/
theorem r7_v45 (c : Dev nD) :
    (W7 (F := Ideal) m ρ c (Proc.devRef .tc main_v45) : S1x15.Idx → EReal)
      = shapeCast S1x15 (W6 m ρ c (Proc.devRef .tc main_arg9) : S15.Idx → EReal) shapeCasts_S15_S1x15 := by
  show StableHlo.after hostOps2 (W6 m ρ c) (Proc.devRef .tc main_v45) = _
  generalize W6 m ρ c = V
  after_results
  rfl

/-- The first kernel's output array at its exit: the projection R0 of the scaled features by the first layer's weights. -/
theorem k0 (c : Dev nD) :
    (W4 (F := Ideal) m ρ c (Proc.devRef .tc main_v20) : S100000x64.Idx → EReal)
      = Cert.Spec.R0 (W3 m ρ c (Proc.devRef .tc main_v19)) (W3 m ρ c (Proc.devRef .tc main_arg2)) :=
  (W4_arr m ρ c 2).trans (final0 (V3 m ρ) c)
/-- The second kernel's output array at its exit: R1 of the arrays it is handed. -/
theorem k1 (c : Dev nD) :
    (W6 (F := Ideal) m ρ c (Proc.devRef .tc main_v32) : S100000x64.Idx → EReal)
      = Cert.Spec.R1 (W5 m ρ c (Proc.devRef .tc main_v30)) (W5 m ρ c (Proc.devRef .tc main_v17))
          (W5 m ρ c (Proc.devRef .tc main_v31)) (W5 m ρ c (Proc.devRef .tc main_arg4)) :=
  (W6_arr m ρ c 4).trans (final1 (V5 m ρ) c)
/-- The third kernel's output array at its exit: R2 of the arrays it is handed. -/
theorem k2 (c : Dev nD) :
    (W8 (F := Ideal) m ρ c (Proc.devRef .tc main_v46) : S100000x15.Idx → EReal)
      = Cert.Spec.R2 (W7 m ρ c (Proc.devRef .tc main_v42)) (W7 m ρ c (Proc.devRef .tc main_v17))
          (W7 m ρ c (Proc.devRef .tc main_v43)) (W7 m ρ c (Proc.devRef .tc main_arg6))
          (W7 m ρ c (Proc.devRef .tc main_v44)) (W7 m ρ c (Proc.devRef .tc main_arg8)) (W7 m ρ c (Proc.devRef .tc main_v45)) :=
  (W8_arr m ρ c 7).trans (final2 (V7 m ρ) c)

/-- The result buffer at the end of the run, as one function of the arguments: the host stretches and the three kernels composed. -/
theorem value (c : Dev nD) :
    W8 (F := Ideal) m ρ c (Proc.devRef .tc main_v46)
      = Cert.Spec.OutK (m ((c : Thread nD τ).loc main_arg0)) (m ((c : Thread nD τ).loc main_arg2)) (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) (m ((c : Thread nD τ).loc main_arg9))
          (Cert.Spec.col1 (Cert.Spec.wrapNeg (src (m ((c : Thread nD τ).loc main_arg1))))) (Cert.Spec.col1 (dst (m ((c : Thread nD τ).loc main_arg1)))) := by
  have a0 : W0 (F := Ideal) m ρ c (Proc.devRef .tc main_arg0) = m ((c : Thread nD τ).loc main_arg0) := rfl
  have a1 : W0 (F := Ideal) m ρ c (Proc.devRef .tc main_arg1) = m ((c : Thread nD τ).loc main_arg1) := rfl
  have a2 : W0 (F := Ideal) m ρ c (Proc.devRef .tc main_arg2) = m ((c : Thread nD τ).loc main_arg2) := rfl
  have a3 : W0 (F := Ideal) m ρ c (Proc.devRef .tc main_arg3) = m ((c : Thread nD τ).loc main_arg3) := rfl
  have a4 : W0 (F := Ideal) m ρ c (Proc.devRef .tc main_arg4) = m ((c : Thread nD τ).loc main_arg4) := rfl
  have a5 : W0 (F := Ideal) m ρ c (Proc.devRef .tc main_arg5) = m ((c : Thread nD τ).loc main_arg5) := rfl
  have a6 : W0 (F := Ideal) m ρ c (Proc.devRef .tc main_arg6) = m ((c : Thread nD τ).loc main_arg6) := rfl
  have a7 : W0 (F := Ideal) m ρ c (Proc.devRef .tc main_arg7) = m ((c : Thread nD τ).loc main_arg7) := rfl
  have a8 : W0 (F := Ideal) m ρ c (Proc.devRef .tc main_arg8) = m ((c : Thread nD τ).loc main_arg8) := rfl
  have a9 : W0 (F := Ideal) m ρ c (Proc.devRef .tc main_arg9) = m ((c : Thread nD τ).loc main_arg9) := rfl
  -- down from the last kernel to the launch memory, one buffer at a time
  rw [k2, r7_v42, v17_7, r7_v43, r7_v44, r7_v45, arg6_7, arg8_7, arg5_6, arg7_6, arg9_6, v3_6, v6_6,
    k1, r5_v30, v17_5, r5_v31, arg4_5, arg3_4, v3_4, v6_4,
    k0, r3_v19, arg2_3, arg0_2, r3_v17, r2_v16,
    a0, a1, a2, a3, a4, a5, a6, a7, a8, a9]
  -- the columns and rows the kernels were handed are the vectors they were reshaped from
  unfold Cert.Spec.OutK
  exact compose _ _ _ _ _ _ _ _ _ _ _ _

end Cert.KernelIdeal.KV

end
-- ==== Proof.RefTerm.lean ====
import proofs.«407343_j65274912965021_3_alg».proof.Defs
import proofs.«407343_j65274912965021_3_alg».proof.Proof.Gen.ReferenceIdeal
import proofs.«407343_j65274912965021_3_alg».proof.Proof.Spec
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RV

open Idealize.ShloMosaic Idealize.ShloMosaic.ValueIdx Idealize.ShloMosaic.TcCoe Idealize.SL.Sem
open Cert.ReferenceIdeal Cert.ReferenceIdeal.Gen

/-- The edge sources with the self-loops appended: row 0 of the edge array followed by 0 … 99999. -/
def src (ei : IVec S2x3200000 32) : IVec S3300000 32 :=
  concatenate S3300000 0 [⟨S3200000, shapeCast S3200000 (extractStridedSlice S1x3200000 ![0, 0] ei slices_S2x3200000_S1x3200000_0_0) shapeCasts_S1x3200000_S3200000⟩, ⟨S100000, iotaInDim S100000 32 0⟩] concatenates_S3200000_S100000_S3300000_d0
/-- The edge targets with the self-loops appended: row 1 of the edge array followed by 0 … 99999. -/
def dst (ei : IVec S2x3200000 32) : IVec S3300000 32 :=
  concatenate S3300000 0 [⟨S3200000, shapeCast S3200000 (extractStridedSlice S1x3200000 ![1, 0] ei slices_S2x3200000_S1x3200000_1_0) shapeCasts_S1x3200000_S3200000⟩, ⟨S100000, iotaInDim S100000 32 0⟩] concatenates_S3200000_S100000_S3300000_d0

/-- An index vector over the edges with its negative entries wrapped (compare with 0, add the node count, select), laid out
    as one column. -/
def wrapCol (v : IVec S3300000 32) : IVec S3300000x1 32 :=
  have c : IVec S_ 32 := constantI S_ 32 0#32
  have z : IVec S3300000 32 := broadcastInDim S3300000 ![] bcast_S_S3300000 c
  have lt : IVec S3300000 1 := cmpi .slt v z
  have c' : IVec S_ 32 := constantI S_ 32 100000#32
  have n : IVec S3300000 32 := broadcastInDim S3300000 ![] bcast_S_S3300000 c'
  have a : IVec S3300000 32 := addi v n
  have s : IVec S3300000 32 := select lt a v
  broadcastInDim S3300000x1 ![0] bcast_S3300000_S3300000x1_0 s

/-- ELU on a [100000, 64] array as the program spells it: two comparisons with 0, the dead branch's argument replaced by 0,
    exp(·) − 1, times the slope 1, select. -/
def elu64 (X : FVec Ideal S100000x64 .f32) : FVec Ideal S100000x64 .f32 :=
  have cst : FVec Ideal S_ .f32 := constant (F := Ideal) S_ .f32 0x00000000#32
  have v0 : FVec Ideal S100000x64 .f32 := broadcastInDim S100000x64 ![] bcast_S_S100000x64 cst
  have v1 : IVec S100000x64 1 := cmpf .ogt X v0
  have cst_0 : FVec Ideal S_ .f32 := constant (F := Ideal) S_ .f32 0x00000000#32
  have v2 : FVec Ideal S100000x64 .f32 := broadcastInDim S100000x64 ![] bcast_S_S100000x64 cst_0
  have v3 : IVec S100000x64 1 := cmpf .ogt X v2
  have cst_1 : FVec Ideal S_ .f32 := constant (F := Ideal) S_ .f32 0x00000000#32
  have w0 : FVec Ideal S_ .f32 := id cst_1
  have w1 : FVec Ideal S100000x64 .f32 := broadcastInDim S100000x64 ![] bcast_S_S100000x64 w0
  have v4 : FVec Ideal S100000x64 .f32 := select v3 w1 X
  have v5 : FVec Ideal S100000x64 .f32 := Host.expm1 v4
  have cst_2 : FVec Ideal S_ .f32 := constant (F := Ideal) S_ .f32 0x3F800000#32
  have v6 : FVec Ideal S100000x64 .f32 := broadcastInDim S100000x64 ![] bcast_S_S100000x64 cst_2
  have v7 : FVec Ideal S100000x64 .f32 := mulf v6 v5
  select v1 X v7

/-- The same ELU on a [100000, 128] array. -/
def elu128 (X : FVec Ideal S100000x128 .f32) : FVec Ideal S100000x128 .f32 :=
  have cst : FVec Ideal S_ .f32 := constant (F := Ideal) S_ .f32 0x00000000#32
  have v0 : FVec Ideal S100000x128 .f32 := broadcastInDim S100000x128 ![] bcast_S_S100000x128 cst
  have v1 : IVec S100000x128 1 := cmpf .ogt X v0
  have cst_0 : FVec Ideal S_ .f32 := constant (F := Ideal) S_ .f32 0x00000000#32
  have v2 : FVec Ideal S100000x128 .f32 := broadcastInDim S100000x128 ![] bcast_S_S100000x128 cst_0
  have v3 : IVec S100000x128 1 := cmpf .ogt X v2
  have cst_1 : FVec Ideal S_ .f32 := constant (F := Ideal) S_ .f32 0x00000000#32
  have w0 : FVec Ideal S_ .f32 := id cst_1
  have w1 : FVec Ideal S100000x128 .f32 := broadcastInDim S100000x128 ![] bcast_S_S100000x128 w0
  have v4 : FVec Ideal S100000x128 .f32 := select v3 w1 X
  have v5 : FVec Ideal S100000x128 .f32 := Host.expm1 v4
  have cst_2 : FVec Ideal S_ .f32 := constant (F := Ideal) S_ .f32 0x3F800000#32
  have v6 : FVec Ideal S100000x128 .f32 := broadcastInDim S100000x128 ![] bcast_S_S100000x128 cst_2
  have v7 : FVec Ideal S100000x128 .f32 := mulf v6 v5
  select v1 X v7

/-- One graph convolution after the projection H: gather the degree factor at both ends of every edge and multiply, gather
    the rows of H at the sources, scale each carried row, add the rows that arrive at each target, add the bias. -/
def conv (d : FVec Ideal S100000 .f32) (s t : IVec S3300000 32) (H : FVec Ideal S100000x64 .f32) (b : FVec Ideal S64 .f32) :
    FVec Ideal S100000x64 .f32 :=
  have g0 : FVec Ideal S3300000 .f32 := Host.gather gather_S100000_S3300000x1_S3300000_n_0_n_n_0_1_1 d (wrapCol s)
  have g1 : FVec Ideal S3300000 .f32 := Host.gather gather_S100000_S3300000x1_S3300000_n_0_n_n_0_1_1 d (wrapCol t)
  have p : FVec Ideal S3300000 .f32 := mulf g0 g1
  have r : FVec Ideal S3300000x64 .f32 := Host.gather gather_S100000x64_S3300000x1_S3300000x64_1_0_n_n_0_1_164 H (wrapCol s)
  have p1 : FVec Ideal S3300000x1 .f32 := broadcastInDim S3300000x1 ![0] bcast_S3300000_S3300000x1_0 p
  have p2 : FVec Ideal S3300000x64 .f32 := broadcastInDim S3300000x64 ![0, 1] bcast_S3300000x1_S3300000x64_0_1 p1
  have m : FVec Ideal S3300000x64 .f32 := mulf r p2
  have cz : FVec Ideal S_ .f32 := constant (F := Ideal) S_ .f32 0x00000000#32
  have z : FVec Ideal S100000x64 .f32 := broadcastInDim S100000x64 ![] bcast_S_S100000x64 cz
  have tc : IVec S3300000x1 32 := broadcastInDim S3300000x1 ![0] bcast_S3300000_S3300000x1_0 t
  have a : FVec Ideal S100000x64 .f32 := Host.scatterAdd (F := Ideal) scatter_S100000x64_S3300000x1_S3300000x64_1_0_0_1 z tc m
  have b1 : FVec Ideal S1x64 .f32 := broadcastInDim S1x64 ![1] bcast_S64_S1x64_1 b
  have b2 : FVec Ideal S100000x64 .f32 := broadcastInDim S100000x64 ![0, 1] bcast_S1x64_S100000x64_0_1 b1
  addf a b2

/-- The degree factor as the program computes it: scatter ones at the targets into zeros, compare with 0, maximum with 1,
    reciprocal square root, select against 0. -/
def disT (t : IVec S3300000 32) : FVec Ideal S100000 .f32 :=
  have cst : FVec Ideal S_ .f32 := constant (F := Ideal) S_ .f32 0x3F800000#32
  have v7 : FVec Ideal S3300000 .f32 := broadcastInDim S3300000 ![] bcast_S_S3300000 cst
  have cst_0 : FVec Ideal S_ .f32 := constant (F := Ideal) S_ .f32 0x00000000#32
  have v8 : FVec Ideal S100000 .f32 := broadcastInDim S100000 ![] bcast_S_S100000 cst_0
  have v9 : IVec S3300000x1 32 := broadcastInDim S3300000x1 ![0] bcast_S3300000_S3300000x1_0 t
  have v10 : FVec Ideal S100000 .f32 := Host.scatterAdd (F := Ideal) scatter_S100000_S3300000x1_S3300000_n_0_0_1 v8 v9 v7
  have cst_1 : FVec Ideal S_ .f32 := constant (F := Ideal) S_ .f32 0x00000000#32
  have v11 : FVec Ideal S100000 .f32 := broadcastInDim S100000 ![] bcast_S_S100000 cst_1
  have v12 : IVec S100000 1 := cmpf .ogt v10 v11
  have cst_2 : FVec Ideal S_ .f32 := constant (F := Ideal) S_ .f32 0x3F800000#32
  have v13 : FVec Ideal S100000 .f32 := broadcastInDim S100000 ![] bcast_S_S100000 cst_2
  have v14 : FVec Ideal S100000 .f32 := maximumf v10 v13
  have v15 : FVec Ideal S100000 .f32 := Host.rsqrt v14
  have cst_3 : FVec Ideal S_ .f32 := constant (F := Ideal) S_ .f32 0x00000000#32
  have w0 : FVec Ideal S_ .f32 := id cst_3
  have w1 : FVec Ideal S100000 .f32 := broadcastInDim S100000 ![] bcast_S_S100000 w0
  select v12 v15 w1

/-- The row softmax as the program computes it: the row maximum from −∞, subtract, exponential, the row sum from 0, divide. -/
def softmaxT (v91 : FVec Ideal S100000x15 .f32) : FVec Ideal S100000x15 .f32 :=
  have cst_17 : FVec Ideal S_ .f32 := constant (F := Ideal) S_ .f32 0xFF800000#32
  have v92 : FVec Ideal S100000 .f32 := Host.reduce (FloatOps.maximumf (F := Ideal) (φ := .f32)) v91 cst_17 reducesTo_S100000x15_S100000_d1 h_S_
  have cst_18 : FVec Ideal S_ .f32 := constant (F := Ideal) S_ .f32 0xFF800000#32
  have v93 : FVec Ideal S100000 .f32 := broadcastInDim S100000 ![] bcast_S_S100000 cst_18
  have v94 : FVec Ideal S100000 .f32 := maximumf v93 v92
  have v95 : FVec Ideal S100000x1 .f32 := broadcastInDim S100000x1 ![0] bcast_S100000_S100000x1_0 v94
  have v96 : FVec Ideal S100000x15 .f32 := broadcastInDim S100000x15 ![0, 1] bcast_S100000x1_S100000x15_0_1 v95
  have v97 : FVec Ideal S100000x15 .f32 := subf v91 v96
  have v98 : FVec Ideal S100000x15 .f32 := Host.exp v97
  have cst_19 : FVec Ideal S_ .f32 := constant (F := Ideal) S_ .f32 0x00000000#32
  have v99 : FVec Ideal S100000 .f32 := Host.reduceAdd (F := Ideal) v98 cst_19 reducesTo_S100000x15_S100000_d1 h_S_
  have v100 : FVec Ideal S100000x1 .f32 := broadcastInDim S100000x1 ![0] bcast_S100000_S100000x1_0 v99
  have v101 : FVec Ideal S100000x15 .f32 := broadcastInDim S100000x15 ![0, 1] bcast_S100000x1_S100000x15_0_1 v100
  Host.divf (F := Ideal) v98 v101

/-- The reference's result as the composition of its operations on the argument arrays: the degree factor, two graph
    convolutions each followed by ELU, two dense layers, the row softmax. -/
def term (x : FVec Ideal S100000x3 .f32) (ei : IVec S2x3200000 32) (W1 : FVec Ideal S3x64 .f32) (b1 : FVec Ideal S64 .f32)
    (W2 : FVec Ideal S64x64 .f32) (b2 : FVec Ideal S64 .f32) (Wm1 : FVec Ideal S64x128 .f32) (bm1 : FVec Ideal S128 .f32)
    (Wm2 : FVec Ideal S128x15 .f32) (bm2 : FVec Ideal S15 .f32) : FVec Ideal S100000x15 .f32 :=
  have v3 : IVec S3300000 32 := src ei
  have v6 : IVec S3300000 32 := dst ei
  have v16 : FVec Ideal S100000 .f32 := disT v6
  have v17 : FVec Ideal S100000x64 .f32 := Host.dotGeneral (F := Ideal) dot_S100000x3_S3x64_S100000x64_1_0_0_1_n_n none x W1
  have v48 : FVec Ideal S100000x64 .f32 := conv v16 v3 v6 v17 b1
  have v49 : FVec Ideal S100000x64 .f32 := elu64 v48
  have v50 : FVec Ideal S100000x64 .f32 := Host.dotGeneral (F := Ideal) dot_S100000x64_S64x64_S100000x64_1_0_0_1_n_n none v49 W2
  have v81 : FVec Ideal S100000x64 .f32 := conv v16 v3 v6 v50 b2
  have v82 : FVec Ideal S100000x64 .f32 := elu64 v81
  have v83 : FVec Ideal S100000x128 .f32 := Host.dotGeneral (F := Ideal) dot_S100000x64_S64x128_S100000x128_1_0_0_1_n_n none v82 Wm1
  have v84 : FVec Ideal S1x128 .f32 := broadcastInDim S1x128 ![1] bcast_S128_S1x128_1 bm1
  have v85 : FVec Ideal S100000x128 .f32 := broadcastInDim S100000x128 ![0, 1] bcast_S1x128_S100000x128_0_1 v84
  have v86 : FVec Ideal S100000x128 .f32 := addf v83 v85
  have v87 : FVec Ideal S100000x128 .f32 := elu128 v86
  have v88 : FVec Ideal S100000x15 .f32 := Host.dotGeneral (F := Ideal) dot_S100000x128_S128x15_S100000x15_1_0_0_1_n_n none v87 Wm2
  have v89 : FVec Ideal S1x15 .f32 := broadcastInDim S1x15 ![1] bcast_S15_S1x15_1 bm2
  have v90 : FVec Ideal S100000x15 .f32 := broadcastInDim S100000x15 ![0, 1] bcast_S1x15_S100000x15_0_1 v89
  have v91 : FVec Ideal S100000x15 .f32 := addf v88 v90
  softmaxT v91

end Cert.ReferenceIdeal.RV

end
-- ==== Proof.RefRun.lean ====
import proofs.«407343_j65274912965021_3_alg».proof.Defs
import proofs.«407343_j65274912965021_3_alg».proof.Proof.Gen.ReferenceIdeal
import proofs.«407343_j65274912965021_3_alg».proof.Proof.Spec
import proofs.«407343_j65274912965021_3_alg».proof.Proof.RefTerm
import Idealize.ShloMosaic.Adequacy
import Idealize.ShloMosaic.Init
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RV

open Idealize.ShloMosaic Idealize.ShloMosaic.ValueIdx Idealize.ShloMosaic.TcCoe Idealize.SL.Sem Idealize.ShloMosaic.StableHlo
open Cert.ReferenceIdeal Cert.ReferenceIdeal.Gen

namespace Run

/-! ## The program as a list of operations

@main's 126 statements are 169 operations once each outlined function's body stands at its call over the call's own
buffers (each written at the buffer the call's record names: along a typed reference the transport of contents is the
identity there). They are listed in program order in eleven stretches, cut where a named stage of the result ends: the edge
ends with the self-loops, the degree factor, the first projection and the product of the factors at both ends of an
edge, the first aggregation, its bias and ELU, the second projection and the product again, the second aggregation
with its bias, its ELU, the first dense layer with its ELU, the second dense layer up to the exponentials, the row sums
and the quotient. -/

section Ops

variable {F : FTy → Type} [FloatOps F]

/-- The edge sources and targets, the self-loops appended (%0 … %6). -/
abbrev seg0 : List (HloOp τ sig (Elt F)) :=
  [ StableHlo.nullary main_v0 (iotaInDim S100000 32 0),
    StableHlo.unary main_arg1 main_v1 ((extractStridedSlice S1x3200000 ![0, 0] · slices_S2x3200000_S1x3200000_0_0) : (⟨S2x3200000, .i32⟩ : BufTy).Contents (Elt F) → (⟨S1x3200000, .i32⟩ : BufTy).Contents (Elt F)),
    StableHlo.reshape main_v1 main_v2 rfl shapeCasts_S1x3200000_S3200000,
    StableHlo.binary main_v2 main_v0 main_v3 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    StableHlo.unary main_arg1 main_v4 ((extractStridedSlice S1x3200000 ![1, 0] · slices_S2x3200000_S1x3200000_1_0) : (⟨S2x3200000, .i32⟩ : BufTy).Contents (Elt F) → (⟨S1x3200000, .i32⟩ : BufTy).Contents (Elt F)),
    StableHlo.reshape main_v4 main_v5 rfl shapeCasts_S1x3200000_S3200000,
    StableHlo.binary main_v5 main_v0 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)) ]

/-- The in-degrees as a sum of ones, and the degree factor (%cst … %16, `_where` at its call). -/
abbrev seg1 : List (HloOp τ sig (Elt F)) :=
  [ StableHlo.nullary main_cst (constant S_ .f32 0x3F800000#32),
    StableHlo.unary main_cst main_v7 (broadcastInDim S3300000 ![] bcast_S_S3300000 : (⟨S_, .f32⟩ : BufTy).Contents (Elt F) → (⟨S3300000, .f32⟩ : BufTy).Contents (Elt F)),
    StableHlo.nullary main_cst_0 (constant S_ .f32 0x00000000#32),
    StableHlo.unary main_cst_0 main_v8 (broadcastInDim S100000 ![] bcast_S_S100000 : (⟨S_, .f32⟩ : BufTy).Contents (Elt F) → (⟨S100000, .f32⟩ : BufTy).Contents (Elt F)),
    StableHlo.unary main_v6 main_v9 (broadcastInDim S3300000x1 ![0] bcast_S3300000_S3300000x1_0 : (⟨S3300000, .i32⟩ : BufTy).Contents (Elt F) → (⟨S3300000x1, .i32⟩ : BufTy).Contents (Elt F)),
    StableHlo.ternary main_v8 main_v9 main_v7 main_v10 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    StableHlo.nullary main_cst_1 (constant S_ .f32 0x00000000#32),
    StableHlo.unary main_cst_1 main_v11 (broadcastInDim S100000 ![] bcast_S_S100000 : (⟨S_, .f32⟩ : BufTy).Contents (Elt F) → (⟨S100000, .f32⟩ : BufTy).Contents (Elt F)),
    StableHlo.binary main_v10 main_v11 main_v12 (cmpf .ogt : (⟨S100000, .f32⟩ : BufTy).Contents (Elt F) → (⟨S100000, .f32⟩ : BufTy).Contents (Elt F) → (⟨S100000, .i1⟩ : BufTy).Contents (Elt F)),
    StableHlo.nullary main_cst_2 (constant S_ .f32 0x3F800000#32),
    StableHlo.unary main_cst_2 main_v13 (broadcastInDim S100000 ![] bcast_S_S100000 : (⟨S_, .f32⟩ : BufTy).Contents (Elt F) → (⟨S100000, .f32⟩ : BufTy).Contents (Elt F)),
    StableHlo.binary main_v10 main_v13 main_v14 (maximumf : (⟨S100000, .f32⟩ : BufTy).Contents (Elt F) → (⟨S100000, .f32⟩ : BufTy).Contents (Elt F) → (⟨S100000, .f32⟩ : BufTy).Contents (Elt F)),
    StableHlo.unary main_v14 main_v15 (Host.rsqrt : (⟨S100000, .f32⟩ : BufTy).Contents (Elt F) → (⟨S100000, .f32⟩ : BufTy).Contents (Elt F)),
    StableHlo.nullary main_cst_3 (constant S_ .f32 0x00000000#32),
    StableHlo.unary main_cst_3 main_call0_v0 (id : (⟨S_, .f32⟩ : BufTy).Contents (Elt F) → (⟨S_, .f32⟩ : BufTy).Contents (Elt F)),
    StableHlo.unary main_call0_v0 main_call0_v1 (broadcastInDim S100000 ![] bcast_S_S100000 : (⟨S_, .f32⟩ : BufTy).Contents (Elt F) → (⟨S100000, .f32⟩ : BufTy).Contents (Elt F)),
    StableHlo.ternary main_v12 main_v15 main_call0_v1 main_v16 (select : (⟨S100000, .i1⟩ : BufTy).Contents (Elt F) → (⟨S100000, .f32⟩ : BufTy).Contents (Elt F) → (⟨S100000, .f32⟩ : BufTy).Contents (Elt F) → (⟨S100000, .f32⟩ : BufTy).Contents (Elt F)) ]

/-- The first projection and, per edge, the product of the degree factors at its two ends (%17 … %32). -/
abbrev seg2 : List (HloOp τ sig (Elt F)) :=
  [ StableHlo.binary main_arg0 main_arg2 main_v17 ((fun l r => Host.dotGeneral dot_S100000x3_S3x64_S100000x64_1_0_0_1_n_n none l r) : (⟨S100000x3, .f32⟩ : BufTy).Contents (Elt F) → (⟨S3x64, .f32⟩ : BufTy).Contents (Elt F) → (⟨S100000x64, .f32⟩ : BufTy).Contents (Elt F)),
    StableHlo.nullary main_c (constantI S_ 32 0#32),
    StableHlo.unary main_c main_v18 (broadcastInDim S3300000 ![] bcast_S_S3300000 : (⟨S_, .i32⟩ : BufTy).Contents (Elt F) → (⟨S3300000, .i32⟩ : BufTy).Contents (Elt F)),
    StableHlo.binary main_v3 main_v18 main_v19 (cmpi .slt : (⟨S3300000, .i32⟩ : BufTy).Contents (Elt F) → (⟨S3300000, .i32⟩ : BufTy).Contents (Elt F) → (⟨S3300000, .i1⟩ : BufTy).Contents (Elt F)),
    StableHlo.nullary main_c_4 (constantI S_ 32 100000#32),
    StableHlo.unary main_c_4 main_v20 (broadcastInDim S3300000 ![] bcast_S_S3300000 : (⟨S_, .i32⟩ : BufTy).Contents (Elt F) → (⟨S3300000, .i32⟩ : BufTy).Contents (Elt F)),
    StableHlo.binary main_v3 main_v20 main_v21 (addi : (⟨S3300000, .i32⟩ : BufTy).Contents (Elt F) → (⟨S3300000, .i32⟩ : BufTy).Contents (Elt F) → (⟨S3300000, .i32⟩ : BufTy).Contents (Elt F)),
    StableHlo.ternary main_v19 main_v21 main_v3 main_v22 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v22 main_v23 (broadcastInDim S3300000x1 ![0] bcast_S3300000_S3300000x1_0 : (⟨S3300000, .i32⟩ : BufTy).Contents (Elt F) → (⟨S3300000x1, .i32⟩ : BufTy).Contents (Elt F)),
    StableHlo.binary main_v16 main_v23 main_v24 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    StableHlo.nullary main_c_5 (constantI S_ 32 0#32),
    StableHlo.unary main_c_5 main_v25 (broadcastInDim S3300000 ![] bcast_S_S3300000 : (⟨S_, .i32⟩ : BufTy).Contents (Elt F) → (⟨S3300000, .i32⟩ : BufTy).Contents (Elt F)),
    StableHlo.binary main_v6 main_v25 main_v26 (cmpi .slt : (⟨S3300000, .i32⟩ : BufTy).Contents (Elt F) → (⟨S3300000, .i32⟩ : BufTy).Contents (Elt F) → (⟨S3300000, .i1⟩ : BufTy).Contents (Elt F)),
    StableHlo.nullary main_c_6 (constantI S_ 32 100000#32),
    StableHlo.unary main_c_6 main_v27 (broadcastInDim S3300000 ![] bcast_S_S3300000 : (⟨S_, .i32⟩ : BufTy).Contents (Elt F) → (⟨S3300000, .i32⟩ : BufTy).Contents (Elt F)),
    StableHlo.binary main_v6 main_v27 main_v28 (addi : (⟨S3300000, .i32⟩ : BufTy).Contents (Elt F) → (⟨S3300000, .i32⟩ : BufTy).Contents (Elt F) → (⟨S3300000, .i32⟩ : BufTy).Contents (Elt F)),
    StableHlo.ternary main_v26 main_v28 main_v6 main_v29 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v29 main_v30 (broadcastInDim S3300000x1 ![0] bcast_S3300000_S3300000x1_0 : (⟨S3300000, .i32⟩ : BufTy).Contents (Elt F) → (⟨S3300000x1, .i32⟩ : BufTy).Contents (Elt F)),
    StableHlo.binary main_v16 main_v30 main_v31 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    StableHlo.binary main_v24 main_v31 main_v32 (mulf : (⟨S3300000, .f32⟩ : BufTy).Contents (Elt F) → (⟨S3300000, .f32⟩ : BufTy).Contents (Elt F) → (⟨S3300000, .f32⟩ : BufTy).Contents (Elt F)) ]

/-- The projected rows carried along the edges, scaled and added at the targets; the first bias laid out (%c_7 … %47). -/
abbrev seg3 : List (HloOp τ sig (Elt F)) :=
  [ StableHlo.nullary main_c_7 (constantI S_ 32 0#32),
    StableHlo.unary main_c_7 main_v33 (broadcastInDim S3300000 ![] bcast_S_S3300000 : (⟨S_, .i32⟩ : BufTy).Contents (Elt F) → (⟨S3300000, .i32⟩ : BufTy).Contents (Elt F)),
    StableHlo.binary main_v3 main_v33 main_v34 (cmpi .slt : (⟨S3300000, .i32⟩ : BufTy).Contents (Elt F) → (⟨S3300000, .i32⟩ : BufTy).Contents (Elt F) → (⟨S3300000, .i1⟩ : BufTy).Contents (Elt F)),
    StableHlo.nullary main_c_8 (constantI S_ 32 100000#32),
    StableHlo.unary main_c_8 main_v35 (broadcastInDim S3300000 ![] bcast_S_S3300000 : (⟨S_, .i32⟩ : BufTy).Contents (Elt F) → (⟨S3300000, .i32⟩ : BufTy).Contents (Elt F)),
    StableHlo.binary main_v3 main_v35 main_v36 (addi : (⟨S3300000, .i32⟩ : BufTy).Contents (Elt F) → (⟨S3300000, .i32⟩ : BufTy).Contents (Elt F) → (⟨S3300000, .i32⟩ : BufTy).Contents (Elt F)),
    StableHlo.ternary main_v34 main_v36 main_v3 main_v37 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v37 main_v38 (broadcastInDim S3300000x1 ![0] bcast_S3300000_S3300000x1_0 : (⟨S3300000, .i32⟩ : BufTy).Contents (Elt F) → (⟨S3300000x1, .i32⟩ : BufTy).Contents (Elt F)),
    StableHlo.binary main_v17 main_v38 main_v39 ((fun x i => Host.gather gather_S100000x64_S3300000x1_S3300000x64_1_0_n_n_0_1_164 x i) : (⟨S100000x64, .f32⟩ : BufTy).Contents (Elt F) → (⟨S3300000x1, .i32⟩ : BufTy).Contents (Elt F) → (⟨S3300000x64, .f32⟩ : BufTy).Contents (Elt F)),
    StableHlo.unary main_v32 main_v40 (broadcastInDim S3300000x1 ![0] bcast_S3300000_S3300000x1_0 : (⟨S3300000, .f32⟩ : BufTy).Contents (Elt F) → (⟨S3300000x1, .f32⟩ : BufTy).Contents (Elt F)),
    StableHlo.unary main_v40 main_v41 (broadcastInDim S3300000x64 ![0, 1] bcast_S3300000x1_S3300000x64_0_1 : (⟨S3300000x1, .f32⟩ : BufTy).Contents (Elt F) → (⟨S3300000x64, .f32⟩ : BufTy).Contents (Elt F)),
    StableHlo.binary main_v39 main_v41 main_v42 (mulf : (⟨S3300000x64, .f32⟩ : BufTy).Contents (Elt F) → (⟨S3300000x64, .f32⟩ : BufTy).Contents (Elt F) → (⟨S3300000x64, .f32⟩ : BufTy).Contents (Elt F)),
    StableHlo.nullary main_cst_9 (constant S_ .f32 0x00000000#32),
    StableHlo.unary main_cst_9 main_v43 (broadcastInDim S100000x64 ![] bcast_S_S100000x64 : (⟨S_, .f32⟩ : BufTy).Contents (Elt F) → (⟨S100000x64, .f32⟩ : BufTy).Contents (Elt F)),
    StableHlo.unary main_v6 main_v44 (broadcastInDim S3300000x1 ![0] bcast_S3300000_S3300000x1_0 : (⟨S3300000, .i32⟩ : BufTy).Contents (Elt F) → (⟨S3300000x1, .i32⟩ : BufTy).Contents (Elt F)),
    StableHlo.ternary main_v43 main_v44 main_v42 main_v45 ((fun x i u => Host.scatterAdd scatter_S100000x64_S3300000x1_S3300000x64_1_0_0_1 x i u) : (⟨S100000x64, .f32⟩ : BufTy).Contents (Elt F) → (⟨S3300000x1, .i32⟩ : BufTy).Contents (Elt F) → (⟨S3300000x64, .f32⟩ : BufTy).Contents (Elt F) → (⟨S100000x64, .f32⟩ : BufTy).Contents (Elt F)),
    StableHlo.unary main_arg3 main_v46 (broadcastInDim S1x64 ![1] bcast_S64_S1x64_1 : (⟨S64, .f32⟩ : BufTy).Contents (Elt F) → (⟨S1x64, .f32⟩ : BufTy).Contents (Elt F)),
    StableHlo.unary main_v46 main_v47 (broadcastInDim S100000x64 ![0, 1] bcast_S1x64_S100000x64_0_1 : (⟨S1x64, .f32⟩ : BufTy).Contents (Elt F) → (⟨S100000x64, .f32⟩ : BufTy).Contents (Elt F)) ]

/-- The first bias added and ELU (%48, `elu` with `_where_0` and `_where_1` at their calls: %49). -/
abbrev seg4 : List (HloOp τ sig (Elt F)) :=
  [ StableHlo.binary main_v45 main_v47 main_v48 (addf : (⟨S100000x64, .f32⟩ : BufTy).Contents (Elt F) → (⟨S100000x64, .f32⟩ : BufTy).Contents (Elt F) → (⟨S100000x64, .f32⟩ : BufTy).Contents (Elt F)),
    StableHlo.nullary main_call1_cst (constant S_ .f32 0x00000000#32),
    StableHlo.unary main_call1_cst main_call1_v0 (broadcastInDim S100000x64 ![] bcast_S_S100000x64 : (⟨S_, .f32⟩ : BufTy).Contents (Elt F) → (⟨S100000x64, .f32⟩ : BufTy).Contents (Elt F)),
    StableHlo.binary main_v48 main_call1_v0 main_call1_v1 (cmpf .ogt : (⟨S100000x64, .f32⟩ : BufTy).Contents (Elt F) → (⟨S100000x64, .f32⟩ : BufTy).Contents (Elt F) → (⟨S100000x64, .i1⟩ : BufTy).Contents (Elt F)),
    StableHlo.nullary main_call1_cst_0 (constant S_ .f32 0x00000000#32),
    StableHlo.unary main_call1_cst_0 main_call1_v2 (broadcastInDim S100000x64 ![] bcast_S_S100000x64 : (⟨S_, .f32⟩ : BufTy).Contents (Elt F) → (⟨S100000x64, .f32⟩ : BufTy).Contents (Elt F)),
    StableHlo.binary main_v48 main_call1_v2 main_call1_v3 (cmpf .ogt : (⟨S100000x64, .f32⟩ : BufTy).Contents (Elt F) → (⟨S100000x64, .f32⟩ : BufTy).Contents (Elt F) → (⟨S100000x64, .i1⟩ : BufTy).Contents (Elt F)),
    StableHlo.nullary main_call1_cst_1 (constant S_ .f32 0x00000000#32),
    StableHlo.unary main_call1_cst_1 main_call1_call0_v0 (id : (⟨S_, .f32⟩ : BufTy).Contents (Elt F) → (⟨S_, .f32⟩ : BufTy).Contents (Elt F)),
    StableHlo.unary main_call1_call0_v0 main_call1_call0_v1 (broadcastInDim S100000x64 ![] bcast_S_S100000x64 : (⟨S_, .f32⟩ : BufTy).Contents (Elt F) → (⟨S100000x64, .f32⟩ : BufTy).Contents (Elt F)),
    StableHlo.ternary main_call1_v3 main_call1_call0_v1 main_v48 main_call1_v4 (select : (⟨S100000x64, .i1⟩ : BufTy).Contents (Elt F) → (⟨S100000x64, .f32⟩ : BufTy).Contents (Elt F) → (⟨S100000x64, .f32⟩ : BufTy).Contents (Elt F) → (⟨S100000x64, .f32⟩ : BufTy).Contents (Elt F)),
    StableHlo.unary main_call1_v4 main_call1_v5 (Host.expm1 : (⟨S100000x64, .f32⟩ : BufTy).Contents (Elt F) → (⟨S100000x64, .f32⟩ : BufTy).Contents (Elt F)),
    StableHlo.nullary main_call1_cst_2 (constant S_ .f32 0x3F800000#32),
    StableHlo.unary main_call1_cst_2 main_call1_v6 (broadcastInDim S100000x64 ![] bcast_S_S100000x64 : (⟨S_, .f32⟩ : BufTy).Contents (Elt F) → (⟨S100000x64, .f32⟩ : BufTy).Contents (Elt F)),
    StableHlo.binary main_call1_v6 main_call1_v5 main_call1_v7 (mulf : (⟨S100000x64, .f32⟩ : BufTy).Contents (Elt F) → (⟨S100000x64, .f32⟩ : BufTy).Contents (Elt F) → (⟨S100000x64, .f32⟩ : BufTy).Contents (Elt F)),
    StableHlo.ternary main_call1_v1 main_v48 main_call1_v7 main_v49 (select : (⟨S100000x64, .i1⟩ : BufTy).Contents (Elt F) → (⟨S100000x64, .f32⟩ : BufTy).Contents (Elt F) → (⟨S100000x64, .f32⟩ : BufTy).Contents (Elt F) → (⟨S100000x64, .f32⟩ : BufTy).Contents (Elt F)) ]

/-- The second projection and the per-edge product of the degree factors again (%50 … %65). -/
abbrev seg5 : List (HloOp τ sig (Elt F)) :=
  [ StableHlo.binary main_v49 main_arg4 main_v50 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.nullary main_c_10 (constantI S_ 32 0#32),
    StableHlo.unary main_c_10 main_v51 (broadcastInDim S3300000 ![] bcast_S_S3300000 : (⟨S_, .i32⟩ : BufTy).Contents (Elt F) → (⟨S3300000, .i32⟩ : BufTy).Contents (Elt F)),
    StableHlo.binary main_v3 main_v51 main_v52 (cmpi .slt : (⟨S3300000, .i32⟩ : BufTy).Contents (Elt F) → (⟨S3300000, .i32⟩ : BufTy).Contents (Elt F) → (⟨S3300000, .i1⟩ : BufTy).Contents (Elt F)),
    StableHlo.nullary main_c_11 (constantI S_ 32 100000#32),
    StableHlo.unary main_c_11 main_v53 (broadcastInDim S3300000 ![] bcast_S_S3300000 : (⟨S_, .i32⟩ : BufTy).Contents (Elt F) → (⟨S3300000, .i32⟩ : BufTy).Contents (Elt F)),
    StableHlo.binary main_v3 main_v53 main_v54 (addi : (⟨S3300000, .i32⟩ : BufTy).Contents (Elt F) → (⟨S3300000, .i32⟩ : BufTy).Contents (Elt F) → (⟨S3300000, .i32⟩ : BufTy).Contents (Elt F)),
    StableHlo.ternary main_v52 main_v54 main_v3 main_v55 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v55 main_v56 (broadcastInDim S3300000x1 ![0] bcast_S3300000_S3300000x1_0 : (⟨S3300000, .i32⟩ : BufTy).Contents (Elt F) → (⟨S3300000x1, .i32⟩ : BufTy).Contents (Elt F)),
    StableHlo.binary main_v16 main_v56 main_v57 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    StableHlo.nullary main_c_12 (constantI S_ 32 0#32),
    StableHlo.unary main_c_12 main_v58 (broadcastInDim S3300000 ![] bcast_S_S3300000 : (⟨S_, .i32⟩ : BufTy).Contents (Elt F) → (⟨S3300000, .i32⟩ : BufTy).Contents (Elt F)),
    StableHlo.binary main_v6 main_v58 main_v59 (cmpi .slt : (⟨S3300000, .i32⟩ : BufTy).Contents (Elt F) → (⟨S3300000, .i32⟩ : BufTy).Contents (Elt F) → (⟨S3300000, .i1⟩ : BufTy).Contents (Elt F)),
    StableHlo.nullary main_c_13 (constantI S_ 32 100000#32),
    StableHlo.unary main_c_13 main_v60 (broadcastInDim S3300000 ![] bcast_S_S3300000 : (⟨S_, .i32⟩ : BufTy).Contents (Elt F) → (⟨S3300000, .i32⟩ : BufTy).Contents (Elt F)),
    StableHlo.binary main_v6 main_v60 main_v61 (addi : (⟨S3300000, .i32⟩ : BufTy).Contents (Elt F) → (⟨S3300000, .i32⟩ : BufTy).Contents (Elt F) → (⟨S3300000, .i32⟩ : BufTy).Contents (Elt F)),
    StableHlo.ternary main_v59 main_v61 main_v6 main_v62 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v62 main_v63 (broadcastInDim S3300000x1 ![0] bcast_S3300000_S3300000x1_0 : (⟨S3300000, .i32⟩ : BufTy).Contents (Elt F) → (⟨S3300000x1, .i32⟩ : BufTy).Contents (Elt F)),
    StableHlo.binary main_v16 main_v63 main_v64 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    StableHlo.binary main_v57 main_v64 main_v65 (mulf : (⟨S3300000, .f32⟩ : BufTy).Contents (Elt F) → (⟨S3300000, .f32⟩ : BufTy).Contents (Elt F) → (⟨S3300000, .f32⟩ : BufTy).Contents (Elt F)) ]

/-- The second aggregation and its bias (%c_14 … %81). -/
abbrev seg6 : List (HloOp τ sig (Elt F)) :=
  [ StableHlo.nullary main_c_14 (constantI S_ 32 0#32),
    StableHlo.unary main_c_14 main_v66 (broadcastInDim S3300000 ![] bcast_S_S3300000 : (⟨S_, .i32⟩ : BufTy).Contents (Elt F) → (⟨S3300000, .i32⟩ : BufTy).Contents (Elt F)),
    StableHlo.binary main_v3 main_v66 main_v67 (cmpi .slt : (⟨S3300000, .i32⟩ : BufTy).Contents (Elt F) → (⟨S3300000, .i32⟩ : BufTy).Contents (Elt F) → (⟨S3300000, .i1⟩ : BufTy).Contents (Elt F)),
    StableHlo.nullary main_c_15 (constantI S_ 32 100000#32),
    StableHlo.unary main_c_15 main_v68 (broadcastInDim S3300000 ![] bcast_S_S3300000 : (⟨S_, .i32⟩ : BufTy).Contents (Elt F) → (⟨S3300000, .i32⟩ : BufTy).Contents (Elt F)),
    StableHlo.binary main_v3 main_v68 main_v69 (addi : (⟨S3300000, .i32⟩ : BufTy).Contents (Elt F) → (⟨S3300000, .i32⟩ : BufTy).Contents (Elt F) → (⟨S3300000, .i32⟩ : BufTy).Contents (Elt F)),
    StableHlo.ternary main_v67 main_v69 main_v3 main_v70 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v70 main_v71 (broadcastInDim S3300000x1 ![0] bcast_S3300000_S3300000x1_0 : (⟨S3300000, .i32⟩ : BufTy).Contents (Elt F) → (⟨S3300000x1, .i32⟩ : BufTy).Contents (Elt F)),
    StableHlo.binary main_v50 main_v71 main_v72 ((fun x i => Host.gather gather_S100000x64_S3300000x1_S3300000x64_1_0_n_n_0_1_164 x i) : (⟨S100000x64, .f32⟩ : BufTy).Contents (Elt F) → (⟨S3300000x1, .i32⟩ : BufTy).Contents (Elt F) → (⟨S3300000x64, .f32⟩ : BufTy).Contents (Elt F)),
    StableHlo.unary main_v65 main_v73 (broadcastInDim S3300000x1 ![0] bcast_S3300000_S3300000x1_0 : (⟨S3300000, .f32⟩ : BufTy).Contents (Elt F) → (⟨S3300000x1, .f32⟩ : BufTy).Contents (Elt F)),
    StableHlo.unary main_v73 main_v74 (broadcastInDim S3300000x64 ![0, 1] bcast_S3300000x1_S3300000x64_0_1 : (⟨S3300000x1, .f32⟩ : BufTy).Contents (Elt F) → (⟨S3300000x64, .f32⟩ : BufTy).Contents (Elt F)),
    StableHlo.binary main_v72 main_v74 main_v75 (mulf : (⟨S3300000x64, .f32⟩ : BufTy).Contents (Elt F) → (⟨S3300000x64, .f32⟩ : BufTy).Contents (Elt F) → (⟨S3300000x64, .f32⟩ : BufTy).Contents (Elt F)),
    StableHlo.nullary main_cst_16 (constant S_ .f32 0x00000000#32),
    StableHlo.unary main_cst_16 main_v76 (broadcastInDim S100000x64 ![] bcast_S_S100000x64 : (⟨S_, .f32⟩ : BufTy).Contents (Elt F) → (⟨S100000x64, .f32⟩ : BufTy).Contents (Elt F)),
    StableHlo.unary main_v6 main_v77 (broadcastInDim S3300000x1 ![0] bcast_S3300000_S3300000x1_0 : (⟨S3300000, .i32⟩ : BufTy).Contents (Elt F) → (⟨S3300000x1, .i32⟩ : BufTy).Contents (Elt F)),
    StableHlo.ternary main_v76 main_v77 main_v75 main_v78 ((fun x i u => Host.scatterAdd scatter_S100000x64_S3300000x1_S3300000x64_1_0_0_1 x i u) : (⟨S100000x64, .f32⟩ : BufTy).Contents (Elt F) → (⟨S3300000x1, .i32⟩ : BufTy).Contents (Elt F) → (⟨S3300000x64, .f32⟩ : BufTy).Contents (Elt F) → (⟨S100000x64, .f32⟩ : BufTy).Contents (Elt F)),
    StableHlo.unary main_arg5 main_v79 (broadcastInDim S1x64 ![1] bcast_S64_S1x64_1 : (⟨S64, .f32⟩ : BufTy).Contents (Elt F) → (⟨S1x64, .f32⟩ : BufTy).Contents (Elt F)),
    StableHlo.unary main_v79 main_v80 (broadcastInDim S100000x64 ![0, 1] bcast_S1x64_S100000x64_0_1 : (⟨S1x64, .f32⟩ : BufTy).Contents (Elt F) → (⟨S100000x64, .f32⟩ : BufTy).Contents (Elt F)),
    StableHlo.binary main_v78 main_v80 main_v81 (addf : (⟨S100000x64, .f32⟩ : BufTy).Contents (Elt F) → (⟨S100000x64, .f32⟩ : BufTy).Contents (Elt F) → (⟨S100000x64, .f32⟩ : BufTy).Contents (Elt F)) ]

/-- ELU after the second convolution (%82). -/
abbrev seg7 : List (HloOp τ sig (Elt F)) :=
  [ StableHlo.nullary main_call2_cst (constant S_ .f32 0x00000000#32),
    StableHlo.unary main_call2_cst main_call2_v0 (broadcastInDim S100000x64 ![] bcast_S_S100000x64 : (⟨S_, .f32⟩ : BufTy).Contents (Elt F) → (⟨S100000x64, .f32⟩ : BufTy).Contents (Elt F)),
    StableHlo.binary main_v81 main_call2_v0 main_call2_v1 (cmpf .ogt : (⟨S100000x64, .f32⟩ : BufTy).Contents (Elt F) → (⟨S100000x64, .f32⟩ : BufTy).Contents (Elt F) → (⟨S100000x64, .i1⟩ : BufTy).Contents (Elt F)),
    StableHlo.nullary main_call2_cst_0 (constant S_ .f32 0x00000000#32),
    StableHlo.unary main_call2_cst_0 main_call2_v2 (broadcastInDim S100000x64 ![] bcast_S_S100000x64 : (⟨S_, .f32⟩ : BufTy).Contents (Elt F) → (⟨S100000x64, .f32⟩ : BufTy).Contents (Elt F)),
    StableHlo.binary main_v81 main_call2_v2 main_call2_v3 (cmpf .ogt : (⟨S100000x64, .f32⟩ : BufTy).Contents (Elt F) → (⟨S100000x64, .f32⟩ : BufTy).Contents (Elt F) → (⟨S100000x64, .i1⟩ : BufTy).Contents (Elt F)),
    StableHlo.nullary main_call2_cst_1 (constant S_ .f32 0x00000000#32),
    StableHlo.unary main_call2_cst_1 main_call2_call0_v0 (id : (⟨S_, .f32⟩ : BufTy).Contents (Elt F) → (⟨S_, .f32⟩ : BufTy).Contents (Elt F)),
    StableHlo.unary main_call2_call0_v0 main_call2_call0_v1 (broadcastInDim S100000x64 ![] bcast_S_S100000x64 : (⟨S_, .f32⟩ : BufTy).Contents (Elt F) → (⟨S100000x64, .f32⟩ : BufTy).Contents (Elt F)),
    StableHlo.ternary main_call2_v3 main_call2_call0_v1 main_v81 main_call2_v4 (select : (⟨S100000x64, .i1⟩ : BufTy).Contents (Elt F) → (⟨S100000x64, .f32⟩ : BufTy).Contents (Elt F) → (⟨S100000x64, .f32⟩ : BufTy).Contents (Elt F) → (⟨S100000x64, .f32⟩ : BufTy).Contents (Elt F)),
    StableHlo.unary main_call2_v4 main_call2_v5 (Host.expm1 : (⟨S100000x64, .f32⟩ : BufTy).Contents (Elt F) → (⟨S100000x64, .f32⟩ : BufTy).Contents (Elt F)),
    StableHlo.nullary main_call2_cst_2 (constant S_ .f32 0x3F800000#32),
    StableHlo.unary main_call2_cst_2 main_call2_v6 (broadcastInDim S100000x64 ![] bcast_S_S100000x64 : (⟨S_, .f32⟩ : BufTy).Contents (Elt F) → (⟨S100000x64, .f32⟩ : BufTy).Contents (Elt F)),
    StableHlo.binary main_call2_v6 main_call2_v5 main_call2_v7 (mulf : (⟨S100000x64, .f32⟩ : BufTy).Contents (Elt F) → (⟨S100000x64, .f32⟩ : BufTy).Contents (Elt F) → (⟨S100000x64, .f32⟩ : BufTy).Contents (Elt F)),
    StableHlo.ternary main_call2_v1 main_v81 main_call2_v7 main_v82 (select : (⟨S100000x64, .i1⟩ : BufTy).Contents (Elt F) → (⟨S100000x64, .f32⟩ : BufTy).Contents (Elt F) → (⟨S100000x64, .f32⟩ : BufTy).Contents (Elt F) → (⟨S100000x64, .f32⟩ : BufTy).Contents (Elt F)) ]

/-- The first dense layer and its ELU (%83 … %87, `elu_2` with `_where_3` and `_where_4` at their calls). -/
abbrev seg8 : List (HloOp τ sig (Elt F)) :=
  [ StableHlo.binary main_v82 main_arg6 main_v83 ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)),
    StableHlo.unary main_arg7 main_v84 (broadcastInDim S1x128 ![1] bcast_S128_S1x128_1 : (⟨S128, .f32⟩ : BufTy).Contents (Elt F) → (⟨S1x128, .f32⟩ : BufTy).Contents (Elt F)),
    StableHlo.unary main_v84 main_v85 (broadcastInDim S100000x128 ![0, 1] bcast_S1x128_S100000x128_0_1 : (⟨S1x128, .f32⟩ : BufTy).Contents (Elt F) → (⟨S100000x128, .f32⟩ : BufTy).Contents (Elt F)),
    StableHlo.binary main_v83 main_v85 main_v86 (addf : (⟨S100000x128, .f32⟩ : BufTy).Contents (Elt F) → (⟨S100000x128, .f32⟩ : BufTy).Contents (Elt F) → (⟨S100000x128, .f32⟩ : BufTy).Contents (Elt F)),
    StableHlo.nullary main_call3_cst (constant S_ .f32 0x00000000#32),
    StableHlo.unary main_call3_cst main_call3_v0 (broadcastInDim S100000x128 ![] bcast_S_S100000x128 : (⟨S_, .f32⟩ : BufTy).Contents (Elt F) → (⟨S100000x128, .f32⟩ : BufTy).Contents (Elt F)),
    StableHlo.binary main_v86 main_call3_v0 main_call3_v1 (cmpf .ogt : (⟨S100000x128, .f32⟩ : BufTy).Contents (Elt F) → (⟨S100000x128, .f32⟩ : BufTy).Contents (Elt F) → (⟨S100000x128, .i1⟩ : BufTy).Contents (Elt F)),
    StableHlo.nullary main_call3_cst_0 (constant S_ .f32 0x00000000#32),
    StableHlo.unary main_call3_cst_0 main_call3_v2 (broadcastInDim S100000x128 ![] bcast_S_S100000x128 : (⟨S_, .f32⟩ : BufTy).Contents (Elt F) → (⟨S100000x128, .f32⟩ : BufTy).Contents (Elt F)),
    StableHlo.binary main_v86 main_call3_v2 main_call3_v3 (cmpf .ogt : (⟨S100000x128, .f32⟩ : BufTy).Contents (Elt F) → (⟨S100000x128, .f32⟩ : BufTy).Contents (Elt F) → (⟨S100000x128, .i1⟩ : BufTy).Contents (Elt F)),
    StableHlo.nullary main_call3_cst_1 (constant S_ .f32 0x00000000#32),
    StableHlo.unary main_call3_cst_1 main_call3_call0_v0 (id : (⟨S_, .f32⟩ : BufTy).Contents (Elt F) → (⟨S_, .f32⟩ : BufTy).Contents (Elt F)),
    StableHlo.unary main_call3_call0_v0 main_call3_call0_v1 (broadcastInDim S100000x128 ![] bcast_S_S100000x128 : (⟨S_, .f32⟩ : BufTy).Contents (Elt F) → (⟨S100000x128, .f32⟩ : BufTy).Contents (Elt F)),
    StableHlo.ternary main_call3_v3 main_call3_call0_v1 main_v86 main_call3_v4 (select : (⟨S100000x128, .i1⟩ : BufTy).Contents (Elt F) → (⟨S100000x128, .f32⟩ : BufTy).Contents (Elt F) → (⟨S100000x128, .f32⟩ : BufTy).Contents (Elt F) → (⟨S100000x128, .f32⟩ : BufTy).Contents (Elt F)),
    StableHlo.unary main_call3_v4 main_call3_v5 (Host.expm1 : (⟨S100000x128, .f32⟩ : BufTy).Contents (Elt F) → (⟨S100000x128, .f32⟩ : BufTy).Contents (Elt F)),
    StableHlo.nullary main_call3_cst_2 (constant S_ .f32 0x3F800000#32),
    StableHlo.unary main_call3_cst_2 main_call3_v6 (broadcastInDim S100000x128 ![] bcast_S_S100000x128 : (⟨S_, .f32⟩ : BufTy).Contents (Elt F) → (⟨S100000x128, .f32⟩ : BufTy).Contents (Elt F)),
    StableHlo.binary main_call3_v6 main_call3_v5 main_call3_v7 (mulf : (⟨S100000x128, .f32⟩ : BufTy).Contents (Elt F) → (⟨S100000x128, .f32⟩ : BufTy).Contents (Elt F) → (⟨S100000x128, .f32⟩ : BufTy).Contents (Elt F)),
    StableHlo.ternary main_call3_v1 main_v86 main_call3_v7 main_v87 (select : (⟨S100000x128, .i1⟩ : BufTy).Contents (Elt F) → (⟨S100000x128, .f32⟩ : BufTy).Contents (Elt F) → (⟨S100000x128, .f32⟩ : BufTy).Contents (Elt F) → (⟨S100000x128, .f32⟩ : BufTy).Contents (Elt F)) ]

/-- The second dense layer, the row maxima, the shifted exponentials (%88 … %98). -/
abbrev seg9 : List (HloOp τ sig (Elt F)) :=
  [ StableHlo.binary main_v87 main_arg8 main_v88 ((fun l r => Host.dotGeneral dot_S100000x128_S128x15_S100000x15_1_0_0_1_n_n none l r) : (⟨S100000x128, .f32⟩ : BufTy).Contents (Elt F) → (⟨S128x15, .f32⟩ : BufTy).Contents (Elt F) → (⟨S100000x15, .f32⟩ : BufTy).Contents (Elt F)),
    StableHlo.unary main_arg9 main_v89 (broadcastInDim S1x15 ![1] bcast_S15_S1x15_1 : (⟨S15, .f32⟩ : BufTy).Contents (Elt F) → (⟨S1x15, .f32⟩ : BufTy).Contents (Elt F)),
    StableHlo.unary main_v89 main_v90 (broadcastInDim S100000x15 ![0, 1] bcast_S1x15_S100000x15_0_1 : (⟨S1x15, .f32⟩ : BufTy).Contents (Elt F) → (⟨S100000x15, .f32⟩ : BufTy).Contents (Elt F)),
    StableHlo.binary main_v88 main_v90 main_v91 (addf : (⟨S100000x15, .f32⟩ : BufTy).Contents (Elt F) → (⟨S100000x15, .f32⟩ : BufTy).Contents (Elt F) → (⟨S100000x15, .f32⟩ : BufTy).Contents (Elt F)),
    StableHlo.nullary main_cst_17 (constant S_ .f32 0xFF800000#32),
    StableHlo.binary main_v91 main_cst_17 main_v92 ((fun x v => Host.reduce FloatOps.maximumf x v reducesTo_S100000x15_S100000_d1 h_S_) : (⟨S100000x15, .f32⟩ : BufTy).Contents (Elt F) → (⟨S_, .f32⟩ : BufTy).Contents (Elt F) → (⟨S100000, .f32⟩ : BufTy).Contents (Elt F)),
    StableHlo.nullary main_cst_18 (constant S_ .f32 0xFF800000#32),
    StableHlo.unary main_cst_18 main_v93 (broadcastInDim S100000 ![] bcast_S_S100000 : (⟨S_, .f32⟩ : BufTy).Contents (Elt F) → (⟨S100000, .f32⟩ : BufTy).Contents (Elt F)),
    StableHlo.binary main_v93 main_v92 main_v94 (maximumf : (⟨S100000, .f32⟩ : BufTy).Contents (Elt F) → (⟨S100000, .f32⟩ : BufTy).Contents (Elt F) → (⟨S100000, .f32⟩ : BufTy).Contents (Elt F)),
    StableHlo.unary main_v94 main_v95 (broadcastInDim S100000x1 ![0] bcast_S100000_S100000x1_0 : (⟨S100000, .f32⟩ : BufTy).Contents (Elt F) → (⟨S100000x1, .f32⟩ : BufTy).Contents (Elt F)),
    StableHlo.unary main_v95 main_v96 (broadcastInDim S100000x15 ![0, 1] bcast_S100000x1_S100000x15_0_1 : (⟨S100000x1, .f32⟩ : BufTy).Contents (Elt F) → (⟨S100000x15, .f32⟩ : BufTy).Contents (Elt F)),
    StableHlo.binary main_v91 main_v96 main_v97 (subf : (⟨S100000x15, .f32⟩ : BufTy).Contents (Elt F) → (⟨S100000x15, .f32⟩ : BufTy).Contents (Elt F) → (⟨S100000x15, .f32⟩ : BufTy).Contents (Elt F)),
    StableHlo.unary main_v97 main_v98 (Host.exp : (⟨S100000x15, .f32⟩ : BufTy).Contents (Elt F) → (⟨S100000x15, .f32⟩ : BufTy).Contents (Elt F)) ]

/-- The row sums and the quotient (%cst_19 … %102). -/
abbrev seg10 : List (HloOp τ sig (Elt F)) :=
  [ StableHlo.nullary main_cst_19 (constant S_ .f32 0x00000000#32),
    StableHlo.binary main_v98 main_cst_19 main_v99 ((fun x v => Host.reduceAdd x v reducesTo_S100000x15_S100000_d1 h_S_) : (⟨S100000x15, .f32⟩ : BufTy).Contents (Elt F) → (⟨S_, .f32⟩ : BufTy).Contents (Elt F) → (⟨S100000, .f32⟩ : BufTy).Contents (Elt F)),
    StableHlo.unary main_v99 main_v100 (broadcastInDim S100000x1 ![0] bcast_S100000_S100000x1_0 : (⟨S100000, .f32⟩ : BufTy).Contents (Elt F) → (⟨S100000x1, .f32⟩ : BufTy).Contents (Elt F)),
    StableHlo.unary main_v100 main_v101 (broadcastInDim S100000x15 ![0, 1] bcast_S100000x1_S100000x15_0_1 : (⟨S100000x1, .f32⟩ : BufTy).Contents (Elt F) → (⟨S100000x15, .f32⟩ : BufTy).Contents (Elt F)),
    StableHlo.binary main_v98 main_v101 main_v102 (Host.divf : (⟨S100000x15, .f32⟩ : BufTy).Contents (Elt F) → (⟨S100000x15, .f32⟩ : BufTy).Contents (Elt F) → (⟨S100000x15, .f32⟩ : BufTy).Contents (Elt F)) ]

/-- All of @main's operations, in order. -/
abbrev ops : List (HloOp τ sig (Elt F)) :=
  seg0 ++ seg1 ++ seg2 ++ seg3 ++ seg4 ++ seg5 ++ seg6 ++ seg7 ++ seg8 ++ seg9 ++ seg10

/-! ## @main is that line of operations -/

set_option maxRecDepth 8192 in
set_option maxHeartbeats 4000000 in
/-- The first window of @main is the first four stretches run in order: the function's definition unfolded at its call,
    both sides are one chain of steps once sequencing is reassociated. -/
theorem main_part0_eq (c : Dev nD) : main_part0 (F := F) c = seq (seg0 ++ seg1 ++ seg2 ++ seg3) := by
  simp only [main_part0, fn_where.body, List.cons_append, List.nil_append, seq, bind_assoc, pure_bind]
  rfl

set_option maxRecDepth 8192 in
set_option maxHeartbeats 4000000 in
/-- The second window is the next six stretches. -/
theorem main_part1_eq (c : Dev nD) : main_part1 (F := F) c = seq (seg4 ++ seg5 ++ seg6 ++ seg7 ++ seg8 ++ seg9) := by
  simp only [main_part1, fn_elu.body, fn_elu_2.body, fn_where_0.body, fn_where_1.body, fn_where_3.body, fn_where_4.body,
    List.cons_append, List.nil_append, seq, bind_assoc, pure_bind]
  rfl

/-- The third window is the last stretch. -/
theorem main_part2_eq (c : Dev nD) : main_part2 (F := F) c = seq seg10 := rfl

/-- @main is the whole line. -/
theorem main_eq (c : Dev nD) : main (F := F) c = seq ops := by
  rw [show (ops : List (HloOp τ sig (Elt F)))
        = (seg0 ++ seg1 ++ seg2 ++ seg3) ++ ((seg4 ++ seg5 ++ seg6 ++ seg7 ++ seg8 ++ seg9) ++ seg10) from by
      simp only [ops, List.append_assoc],
    seq_append (seg0 ++ seg1 ++ seg2 ++ seg3), seq_append (seg4 ++ seg5 ++ seg6 ++ seg7 ++ seg8 ++ seg9) seg10,
    ← main_part0_eq c, ← main_part1_eq c, ← main_part2_eq c]
  rfl

/-- No buffer of the program is scoped to a region. -/
theorem scopedRefs_eq : (Finset.univ.filter fun b : Ref sig .tc => b.isScoped) = ∅ := by decide
/-- No semaphore of the program is scoped to a region. -/
theorem scopedSems_eq : (Finset.univ.filter fun sm : SemLoc sig => sm.isScoped .tc) = ∅ := by decide

/-- Every operation of stretch 0 touches only buffers of the core that runs the program. -/
theorem seg0_sub : (seg0 : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub ..⟩
/-- Every operation of stretch 1 touches only buffers of the core that runs the program. -/
theorem seg1_sub : (seg1 : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub ..⟩
/-- Every operation of stretch 2 touches only buffers of the core that runs the program. -/
theorem seg2_sub : (seg2 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩
/-- Every operation of stretch 3 touches only buffers of the core that runs the program. -/
theorem seg3_sub : (seg3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub ..⟩
/-- Every operation of stretch 4 touches only buffers of the core that runs the program. -/
theorem seg4_sub : (seg4 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩
/-- Every operation of stretch 5 touches only buffers of the core that runs the program. -/
theorem seg5_sub : (seg5 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩
/-- Every operation of stretch 6 touches only buffers of the core that runs the program. -/
theorem seg6_sub : (seg6 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩
/-- Every operation of stretch 7 touches only buffers of the core that runs the program. -/
theorem seg7_sub : (seg7 : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩
/-- Every operation of stretch 8 touches only buffers of the core that runs the program. -/
theorem seg8_sub : (seg8 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩
/-- Every operation of stretch 9 touches only buffers of the core that runs the program. -/
theorem seg9_sub : (seg9 : List (HloOp τ sig (Elt F))).Forall fun op => op.bufs ⊆ tcRefs τ sig :=
  ⟨binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub ..⟩
/-- Every operation of stretch 10 touches only buffers of the core that runs the program. -/
theorem seg10_sub : (seg10 : List (HloOp τ sig (Elt F))).Forall fun op => op.bufs ⊆ tcRefs τ sig :=
  ⟨nullary_bufs_sub .., binary_bufs_sub .., unary_bufs_sub .., unary_bufs_sub .., binary_bufs_sub ..⟩

/-- Every operation of the whole line touches only buffers of the core that runs the program. -/
theorem ops_sub : (ops : List (HloOp τ sig (Elt F))).Forall fun op => op.bufs ⊆ tcRefs τ sig :=
  List.forall_iff_forall_mem.mpr fun op h => by
    simp only [ops, List.mem_append] at h
    rcases h with ((((((((((h | h) | h) | h) | h) | h) | h) | h) | h) | h) | h)
    exacts [List.forall_iff_forall_mem.mp seg0_sub op h, List.forall_iff_forall_mem.mp seg1_sub op h,
      List.forall_iff_forall_mem.mp seg2_sub op h, List.forall_iff_forall_mem.mp seg3_sub op h,
      List.forall_iff_forall_mem.mp seg4_sub op h, List.forall_iff_forall_mem.mp seg5_sub op h,
      List.forall_iff_forall_mem.mp seg6_sub op h, List.forall_iff_forall_mem.mp seg7_sub op h,
      List.forall_iff_forall_mem.mp seg8_sub op h, List.forall_iff_forall_mem.mp seg9_sub op h,
      List.forall_iff_forall_mem.mp seg10_sub op h]

/-- From any memory with zero counters every weakly fair execution of @main terminates, each buffer of the core at
    the fold of the operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Ops

/-! ## The contents after each stretch

`val K` is the device's contents after the first K stretches. A stretch leaves every buffer it does not write as it
was; the buffers a later stretch still reads are given, stretch by stretch, as the named stages of the result applied
to the argument arrays. -/

section Contents

variable {F : FTy → Type} [FloatOps F]

/-- The fold over two lines run one after the other. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- @main's arguments. -/
abbrev argL : List (Ref sig .tc) :=
  [main_arg0, main_arg1, main_arg2, main_arg3, main_arg4, main_arg5, main_arg6, main_arg7, main_arg8, main_arg9]

/-- The contents before the first operation. -/
def val0 (V : Valuation τ sig (Elt F)) : Valuation τ sig (Elt F) := V
/-- Before the first operation an argument holds its launch contents. -/
theorem val0_arg (V : Valuation τ sig (Elt F)) (r : Ref sig .tc) (_h : r ∈ argL) :
    val0 V (no_index (Proc.devRef .tc r)) = V (Proc.devRef .tc r) := rfl

/-- The buffers stretch 0 writes, none of them an argument. -/
abbrev seg0_W : List (Ref sig .tc) := [main_v0, main_v1, main_v2, main_v3, main_v4, main_v5, main_v6]
/-- Each operation of stretch 0 writes one buffer, and that buffer is in the list. -/
theorem seg0_writes : (seg0 : List (HloOp τ sig (Elt F))).Forall fun op =>
    op.writes ⊆ (seg0_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- No argument is among the buffers stretch 0 writes. -/
theorem seg0_args : ∀ r ∈ argL, r ∉ seg0_W := by decide
/-- The contents after the first 1 stretch. -/
def val1 (V : Valuation τ sig (Elt F)) : Valuation τ sig (Elt F) := after seg0 (val0 V)
/-- A buffer stretch 0 does not write holds after it what it held before. -/
theorem val1_keep (V : Valuation τ sig (Elt F)) (r : Ref sig .tc) (h : r ∉ seg0_W) :
    val1 V (Proc.devRef .tc r) = val0 V (Proc.devRef .tc r) :=
  after_of_writes_sub seg0 _ seg0_writes h
/-- After 1 stretch an argument still holds its launch contents: no stretch writes it. -/
theorem val1_arg (V : Valuation τ sig (Elt F)) (r : Ref sig .tc) (h : r ∈ argL) :
    val1 V (no_index (Proc.devRef .tc r)) = V (Proc.devRef .tc r) :=
  (val1_keep V r (seg0_args r h)).trans (val0_arg V r h)

/-- The buffers stretch 1 writes, none of them an argument. -/
abbrev seg1_W : List (Ref sig .tc) := [main_cst, main_v7, main_cst_0, main_v8, main_v9, main_v10, main_cst_1, main_v11, main_v12, main_cst_2, main_v13, main_v14, main_v15, main_cst_3, main_call0_v0, main_call0_v1, main_v16]
/-- Each operation of stretch 1 writes one buffer, and that buffer is in the list. -/
theorem seg1_writes : (seg1 : List (HloOp τ sig (Elt F))).Forall fun op =>
    op.writes ⊆ (seg1_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- No argument is among the buffers stretch 1 writes. -/
theorem seg1_args : ∀ r ∈ argL, r ∉ seg1_W := by decide
/-- The contents after the first 2 stretches. -/
def val2 (V : Valuation τ sig (Elt F)) : Valuation τ sig (Elt F) := after seg1 (val1 V)
/-- A buffer stretch 1 does not write holds after it what it held before. -/
theorem val2_keep (V : Valuation τ sig (Elt F)) (r : Ref sig .tc) (h : r ∉ seg1_W) :
    val2 V (Proc.devRef .tc r) = val1 V (Proc.devRef .tc r) :=
  after_of_writes_sub seg1 _ seg1_writes h
/-- After 2 stretches an argument still holds its launch contents: no stretch writes it. -/
theorem val2_arg (V : Valuation τ sig (Elt F)) (r : Ref sig .tc) (h : r ∈ argL) :
    val2 V (no_index (Proc.devRef .tc r)) = V (Proc.devRef .tc r) :=
  (val2_keep V r (seg1_args r h)).trans (val1_arg V r h)

/-- The buffers stretch 2 writes, none of them an argument. -/
abbrev seg2_W : List (Ref sig .tc) := [main_v17, main_c, main_v18, main_v19, main_c_4, main_v20, main_v21, main_v22, main_v23, main_v24, main_c_5, main_v25, main_v26, main_c_6, main_v27, main_v28, main_v29, main_v30, main_v31, main_v32]
/-- Each operation of stretch 2 writes one buffer, and that buffer is in the list. -/
theorem seg2_writes : (seg2 : List (HloOp τ sig (Elt F))).Forall fun op =>
    op.writes ⊆ (seg2_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- No argument is among the buffers stretch 2 writes. -/
theorem seg2_args : ∀ r ∈ argL, r ∉ seg2_W := by decide
/-- The contents after the first 3 stretches. -/
def val3 (V : Valuation τ sig (Elt F)) : Valuation τ sig (Elt F) := after seg2 (val2 V)
/-- A buffer stretch 2 does not write holds after it what it held before. -/
theorem val3_keep (V : Valuation τ sig (Elt F)) (r : Ref sig .tc) (h : r ∉ seg2_W) :
    val3 V (Proc.devRef .tc r) = val2 V (Proc.devRef .tc r) :=
  after_of_writes_sub seg2 _ seg2_writes h
/-- After 3 stretches an argument still holds its launch contents: no stretch writes it. -/
theorem val3_arg (V : Valuation τ sig (Elt F)) (r : Ref sig .tc) (h : r ∈ argL) :
    val3 V (no_index (Proc.devRef .tc r)) = V (Proc.devRef .tc r) :=
  (val3_keep V r (seg2_args r h)).trans (val2_arg V r h)

/-- The buffers stretch 3 writes, none of them an argument. -/
abbrev seg3_W : List (Ref sig .tc) := [main_c_7, main_v33, main_v34, main_c_8, main_v35, main_v36, main_v37, main_v38, main_v39, main_v40, main_v41, main_v42, main_cst_9, main_v43, main_v44, main_v45, main_v46, main_v47]
/-- Each operation of stretch 3 writes one buffer, and that buffer is in the list. -/
theorem seg3_writes : (seg3 : List (HloOp τ sig (Elt F))).Forall fun op =>
    op.writes ⊆ (seg3_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- No argument is among the buffers stretch 3 writes. -/
theorem seg3_args : ∀ r ∈ argL, r ∉ seg3_W := by decide
/-- The contents after the first 4 stretches. -/
def val4 (V : Valuation τ sig (Elt F)) : Valuation τ sig (Elt F) := after seg3 (val3 V)
/-- A buffer stretch 3 does not write holds after it what it held before. -/
theorem val4_keep (V : Valuation τ sig (Elt F)) (r : Ref sig .tc) (h : r ∉ seg3_W) :
    val4 V (Proc.devRef .tc r) = val3 V (Proc.devRef .tc r) :=
  after_of_writes_sub seg3 _ seg3_writes h
/-- After 4 stretches an argument still holds its launch contents: no stretch writes it. -/
theorem val4_arg (V : Valuation τ sig (Elt F)) (r : Ref sig .tc) (h : r ∈ argL) :
    val4 V (no_index (Proc.devRef .tc r)) = V (Proc.devRef .tc r) :=
  (val4_keep V r (seg3_args r h)).trans (val3_arg V r h)

/-- The buffers stretch 4 writes, none of them an argument. -/
abbrev seg4_W : List (Ref sig .tc) := [main_v48, main_call1_cst, main_call1_v0, main_call1_v1, main_call1_cst_0, main_call1_v2, main_call1_v3, main_call1_cst_1, main_call1_call0_v0, main_call1_call0_v1, main_call1_v4, main_call1_v5, main_call1_cst_2, main_call1_v6, main_call1_v7, main_v49]
/-- Each operation of stretch 4 writes one buffer, and that buffer is in the list. -/
theorem seg4_writes : (seg4 : List (HloOp τ sig (Elt F))).Forall fun op =>
    op.writes ⊆ (seg4_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- No argument is among the buffers stretch 4 writes. -/
theorem seg4_args : ∀ r ∈ argL, r ∉ seg4_W := by decide
/-- The contents after the first 5 stretches. -/
def val5 (V : Valuation τ sig (Elt F)) : Valuation τ sig (Elt F) := after seg4 (val4 V)
/-- A buffer stretch 4 does not write holds after it what it held before. -/
theorem val5_keep (V : Valuation τ sig (Elt F)) (r : Ref sig .tc) (h : r ∉ seg4_W) :
    val5 V (Proc.devRef .tc r) = val4 V (Proc.devRef .tc r) :=
  after_of_writes_sub seg4 _ seg4_writes h
/-- After 5 stretches an argument still holds its launch contents: no stretch writes it. -/
theorem val5_arg (V : Valuation τ sig (Elt F)) (r : Ref sig .tc) (h : r ∈ argL) :
    val5 V (no_index (Proc.devRef .tc r)) = V (Proc.devRef .tc r) :=
  (val5_keep V r (seg4_args r h)).trans (val4_arg V r h)

/-- The buffers stretch 5 writes, none of them an argument. -/
abbrev seg5_W : List (Ref sig .tc) := [main_v50, main_c_10, main_v51, main_v52, main_c_11, main_v53, main_v54, main_v55, main_v56, main_v57, main_c_12, main_v58, main_v59, main_c_13, main_v60, main_v61, main_v62, main_v63, main_v64, main_v65]
/-- Each operation of stretch 5 writes one buffer, and that buffer is in the list. -/
theorem seg5_writes : (seg5 : List (HloOp τ sig (Elt F))).Forall fun op =>
    op.writes ⊆ (seg5_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- No argument is among the buffers stretch 5 writes. -/
theorem seg5_args : ∀ r ∈ argL, r ∉ seg5_W := by decide
/-- The contents after the first 6 stretches. -/
def val6 (V : Valuation τ sig (Elt F)) : Valuation τ sig (Elt F) := after seg5 (val5 V)
/-- A buffer stretch 5 does not write holds after it what it held before. -/
theorem val6_keep (V : Valuation τ sig (Elt F)) (r : Ref sig .tc) (h : r ∉ seg5_W) :
    val6 V (Proc.devRef .tc r) = val5 V (Proc.devRef .tc r) :=
  after_of_writes_sub seg5 _ seg5_writes h
/-- After 6 stretches an argument still holds its launch contents: no stretch writes it. -/
theorem val6_arg (V : Valuation τ sig (Elt F)) (r : Ref sig .tc) (h : r ∈ argL) :
    val6 V (no_index (Proc.devRef .tc r)) = V (Proc.devRef .tc r) :=
  (val6_keep V r (seg5_args r h)).trans (val5_arg V r h)

/-- The buffers stretch 6 writes, none of them an argument. -/
abbrev seg6_W : List (Ref sig .tc) := [main_c_14, main_v66, main_v67, main_c_15, main_v68, main_v69, main_v70, main_v71, main_v72, main_v73, main_v74, main_v75, main_cst_16, main_v76, main_v77, main_v78, main_v79, main_v80, main_v81]
/-- Each operation of stretch 6 writes one buffer, and that buffer is in the list. -/
theorem seg6_writes : (seg6 : List (HloOp τ sig (Elt F))).Forall fun op =>
    op.writes ⊆ (seg6_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- No argument is among the buffers stretch 6 writes. -/
theorem seg6_args : ∀ r ∈ argL, r ∉ seg6_W := by decide
/-- The contents after the first 7 stretches. -/
def val7 (V : Valuation τ sig (Elt F)) : Valuation τ sig (Elt F) := after seg6 (val6 V)
/-- A buffer stretch 6 does not write holds after it what it held before. -/
theorem val7_keep (V : Valuation τ sig (Elt F)) (r : Ref sig .tc) (h : r ∉ seg6_W) :
    val7 V (Proc.devRef .tc r) = val6 V (Proc.devRef .tc r) :=
  after_of_writes_sub seg6 _ seg6_writes h
/-- After 7 stretches an argument still holds its launch contents: no stretch writes it. -/
theorem val7_arg (V : Valuation τ sig (Elt F)) (r : Ref sig .tc) (h : r ∈ argL) :
    val7 V (no_index (Proc.devRef .tc r)) = V (Proc.devRef .tc r) :=
  (val7_keep V r (seg6_args r h)).trans (val6_arg V r h)

/-- The buffers stretch 7 writes, none of them an argument. -/
abbrev seg7_W : List (Ref sig .tc) := [main_call2_cst, main_call2_v0, main_call2_v1, main_call2_cst_0, main_call2_v2, main_call2_v3, main_call2_cst_1, main_call2_call0_v0, main_call2_call0_v1, main_call2_v4, main_call2_v5, main_call2_cst_2, main_call2_v6, main_call2_v7, main_v82]
/-- Each operation of stretch 7 writes one buffer, and that buffer is in the list. -/
theorem seg7_writes : (seg7 : List (HloOp τ sig (Elt F))).Forall fun op =>
    op.writes ⊆ (seg7_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- No argument is among the buffers stretch 7 writes. -/
theorem seg7_args : ∀ r ∈ argL, r ∉ seg7_W := by decide
/-- The contents after the first 8 stretches. -/
def val8 (V : Valuation τ sig (Elt F)) : Valuation τ sig (Elt F) := after seg7 (val7 V)
/-- A buffer stretch 7 does not write holds after it what it held before. -/
theorem val8_keep (V : Valuation τ sig (Elt F)) (r : Ref sig .tc) (h : r ∉ seg7_W) :
    val8 V (Proc.devRef .tc r) = val7 V (Proc.devRef .tc r) :=
  after_of_writes_sub seg7 _ seg7_writes h
/-- After 8 stretches an argument still holds its launch contents: no stretch writes it. -/
theorem val8_arg (V : Valuation τ sig (Elt F)) (r : Ref sig .tc) (h : r ∈ argL) :
    val8 V (no_index (Proc.devRef .tc r)) = V (Proc.devRef .tc r) :=
  (val8_keep V r (seg7_args r h)).trans (val7_arg V r h)

/-- The buffers stretch 8 writes, none of them an argument. -/
abbrev seg8_W : List (Ref sig .tc) := [main_v83, main_v84, main_v85, main_v86, main_call3_cst, main_call3_v0, main_call3_v1, main_call3_cst_0, main_call3_v2, main_call3_v3, main_call3_cst_1, main_call3_call0_v0, main_call3_call0_v1, main_call3_v4, main_call3_v5, main_call3_cst_2, main_call3_v6, main_call3_v7, main_v87]
/-- Each operation of stretch 8 writes one buffer, and that buffer is in the list. -/
theorem seg8_writes : (seg8 : List (HloOp τ sig (Elt F))).Forall fun op =>
    op.writes ⊆ (seg8_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- No argument is among the buffers stretch 8 writes. -/
theorem seg8_args : ∀ r ∈ argL, r ∉ seg8_W := by decide
/-- The contents after the first 9 stretches. -/
def val9 (V : Valuation τ sig (Elt F)) : Valuation τ sig (Elt F) := after seg8 (val8 V)
/-- A buffer stretch 8 does not write holds after it what it held before. -/
theorem val9_keep (V : Valuation τ sig (Elt F)) (r : Ref sig .tc) (h : r ∉ seg8_W) :
    val9 V (Proc.devRef .tc r) = val8 V (Proc.devRef .tc r) :=
  after_of_writes_sub seg8 _ seg8_writes h
/-- After 9 stretches an argument still holds its launch contents: no stretch writes it. -/
theorem val9_arg (V : Valuation τ sig (Elt F)) (r : Ref sig .tc) (h : r ∈ argL) :
    val9 V (no_index (Proc.devRef .tc r)) = V (Proc.devRef .tc r) :=
  (val9_keep V r (seg8_args r h)).trans (val8_arg V r h)

/-- The buffers stretch 9 writes, none of them an argument. -/
abbrev seg9_W : List (Ref sig .tc) := [main_v88, main_v89, main_v90, main_v91, main_cst_17, main_v92, main_cst_18, main_v93, main_v94, main_v95, main_v96, main_v97, main_v98]
/-- Each operation of stretch 9 writes one buffer, and that buffer is in the list. -/
theorem seg9_writes : (seg9 : List (HloOp τ sig (Elt F))).Forall fun op =>
    op.writes ⊆ (seg9_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- No argument is among the buffers stretch 9 writes. -/
theorem seg9_args : ∀ r ∈ argL, r ∉ seg9_W := by decide
/-- The contents after the first 10 stretches. -/
def val10 (V : Valuation τ sig (Elt F)) : Valuation τ sig (Elt F) := after seg9 (val9 V)
/-- A buffer stretch 9 does not write holds after it what it held before. -/
theorem val10_keep (V : Valuation τ sig (Elt F)) (r : Ref sig .tc) (h : r ∉ seg9_W) :
    val10 V (Proc.devRef .tc r) = val9 V (Proc.devRef .tc r) :=
  after_of_writes_sub seg9 _ seg9_writes h
/-- After 10 stretches an argument still holds its launch contents: no stretch writes it. -/
theorem val10_arg (V : Valuation τ sig (Elt F)) (r : Ref sig .tc) (h : r ∈ argL) :
    val10 V (no_index (Proc.devRef .tc r)) = V (Proc.devRef .tc r) :=
  (val10_keep V r (seg9_args r h)).trans (val9_arg V r h)

/-- The buffers stretch 10 writes, none of them an argument. -/
abbrev seg10_W : List (Ref sig .tc) := [main_cst_19, main_v99, main_v100, main_v101, main_v102]
/-- Each operation of stretch 10 writes one buffer, and that buffer is in the list. -/
theorem seg10_writes : (seg10 : List (HloOp τ sig (Elt F))).Forall fun op =>
    op.writes ⊆ (seg10_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- No argument is among the buffers stretch 10 writes. -/
theorem seg10_args : ∀ r ∈ argL, r ∉ seg10_W := by decide
/-- The contents after the first 11 stretches. -/
def val11 (V : Valuation τ sig (Elt F)) : Valuation τ sig (Elt F) := after seg10 (val10 V)
/-- A buffer stretch 10 does not write holds after it what it held before. -/
theorem val11_keep (V : Valuation τ sig (Elt F)) (r : Ref sig .tc) (h : r ∉ seg10_W) :
    val11 V (Proc.devRef .tc r) = val10 V (Proc.devRef .tc r) :=
  after_of_writes_sub seg10 _ seg10_writes h
/-- After 11 stretches an argument still holds its launch contents: no stretch writes it. -/
theorem val11_arg (V : Valuation τ sig (Elt F)) (r : Ref sig .tc) (h : r ∈ argL) :
    val11 V (no_index (Proc.devRef .tc r)) = V (Proc.devRef .tc r) :=
  (val11_keep V r (seg10_args r h)).trans (val10_arg V r h)

/-- The whole line's fold is the last of these. -/
theorem after_ops (V : Valuation τ sig (Elt F)) : after ops V = val11 V := by
  simp only [ops, after_app]
  rfl

/-- The arguments are as launched. -/
theorem arg_eq (V : Valuation τ sig (Elt F)) (r : Ref sig .tc) (h : r ∈ argL) :
    after ops V (Proc.devRef .tc r) = V (Proc.devRef .tc r) := by
  rw [after_ops]; exact val11_arg V r h

end Contents

/-! ## The stages of the result, and each stretch read against them -/

section Values

variable (V : Valuation τ sig (Elt Ideal))

/-- The node features, as the valuation holds them (and below the other argument arrays likewise). -/
abbrev aX : FVec Ideal S100000x3 .f32 := V (Proc.devRef .tc main_arg0)
/-- The edge array: row 0 the sources, row 1 the targets. -/
abbrev aEi : IVec S2x3200000 32 := V (Proc.devRef .tc main_arg1)
/-- The first convolution's weights. -/
abbrev aW1 : FVec Ideal S3x64 .f32 := V (Proc.devRef .tc main_arg2)
/-- The first convolution's bias. -/
abbrev aB1 : FVec Ideal S64 .f32 := V (Proc.devRef .tc main_arg3)
/-- The second convolution's weights. -/
abbrev aW2 : FVec Ideal S64x64 .f32 := V (Proc.devRef .tc main_arg4)
/-- The second convolution's bias. -/
abbrev aB2 : FVec Ideal S64 .f32 := V (Proc.devRef .tc main_arg5)
/-- The first dense layer's weights. -/
abbrev aWm1 : FVec Ideal S64x128 .f32 := V (Proc.devRef .tc main_arg6)
/-- The first dense layer's bias. -/
abbrev aBm1 : FVec Ideal S128 .f32 := V (Proc.devRef .tc main_arg7)
/-- The second dense layer's weights. -/
abbrev aWm2 : FVec Ideal S128x15 .f32 := V (Proc.devRef .tc main_arg8)
/-- The second dense layer's bias. -/
abbrev aBm2 : FVec Ideal S15 .f32 := V (Proc.devRef .tc main_arg9)

attribute [local irreducible] Host.gather Host.scatterAdd Host.reduce Host.reduceAdd

/-- Per edge, the product of the degree factors at its source and at its target. -/
def normT (d : FVec Ideal S100000 .f32) (s t : IVec S3300000 32) : FVec Ideal S3300000 .f32 :=
  mulf (Host.gather gather_S100000_S3300000x1_S3300000_n_0_n_n_0_1_1 d (wrapCol s)) (Host.gather gather_S100000_S3300000x1_S3300000_n_0_n_n_0_1_1 d (wrapCol t))

/-- The rows of H carried along the edges, each scaled by its edge's factor p, added at the targets. -/
def aggT (s t : IVec S3300000 32) (H : FVec Ideal S100000x64 .f32) (p : FVec Ideal S3300000 .f32) : FVec Ideal S100000x64 .f32 :=
  Host.scatterAdd (F := Ideal) scatter_S100000x64_S3300000x1_S3300000x64_1_0_0_1
    (broadcastInDim S100000x64 ![] bcast_S_S100000x64 (constant (F := Ideal) S_ .f32 0x00000000#32))
    (broadcastInDim S3300000x1 ![0] bcast_S3300000_S3300000x1_0 t)
    (mulf (Host.gather gather_S100000x64_S3300000x1_S3300000x64_1_0_n_n_0_1_164 H (wrapCol s))
      (broadcastInDim S3300000x64 ![0, 1] bcast_S3300000x1_S3300000x64_0_1 (broadcastInDim S3300000x1 ![0] bcast_S3300000_S3300000x1_0 p)))

/-- A 64-vector laid out along every row. -/
def biasT (b : FVec Ideal S64 .f32) : FVec Ideal S100000x64 .f32 :=
  broadcastInDim S100000x64 ![0, 1] bcast_S1x64_S100000x64_0_1 (broadcastInDim S1x64 ![1] bcast_S64_S1x64_1 b)

/-- A convolution is the aggregation under the edge factors plus the bias. -/
theorem conv_stages (d : FVec Ideal S100000 .f32) (s t : IVec S3300000 32) (H : FVec Ideal S100000x64 .f32) (b : FVec Ideal S64 .f32) :
    conv d s t H b = addf (aggT s t H (normT d s t)) (biasT b) := rfl

/-- The shifted exponentials of the softmax: exp of the entry minus its row's maximum. -/
def exT (v91 : FVec Ideal S100000x15 .f32) : FVec Ideal S100000x15 .f32 :=
  Host.exp (subf v91 (broadcastInDim S100000x15 ![0, 1] bcast_S100000x1_S100000x15_0_1 (broadcastInDim S100000x1 ![0] bcast_S100000_S100000x1_0
    (maximumf (broadcastInDim S100000 ![] bcast_S_S100000 (constant (F := Ideal) S_ .f32 0xFF800000#32))
      (Host.reduce (FloatOps.maximumf (F := Ideal) (φ := .f32)) v91 (constant (F := Ideal) S_ .f32 0xFF800000#32) reducesTo_S100000x15_S100000_d1 h_S_)))))

/-- The softmax is the shifted exponentials over their row sums. -/
theorem softmaxT_stages (v91 : FVec Ideal S100000x15 .f32) :
    softmaxT v91 = Host.divf (F := Ideal) (exT v91) (broadcastInDim S100000x15 ![0, 1] bcast_S100000x1_S100000x15_0_1
      (broadcastInDim S100000x1 ![0] bcast_S100000_S100000x1_0
        (Host.reduceAdd (F := Ideal) (exT v91) (constant (F := Ideal) S_ .f32 0x00000000#32) reducesTo_S100000x15_S100000_d1 h_S_))) := rfl

/-- The edge sources with the self-loops appended (and below the further stages, each a function of the argument arrays). -/
def sV : IVec S3300000 32 := src (aEi V)
/-- The edge targets with the self-loops appended. -/
def tV : IVec S3300000 32 := dst (aEi V)
/-- The degree factor: one over the square root of the in-degree, zero where the degree is zero. -/
def dV : FVec Ideal S100000 .f32 := disT (tV V)
/-- The first projection: the node features times the first weights. -/
def xw1V : FVec Ideal S100000x64 .f32 := Host.dotGeneral (F := Ideal) dot_S100000x3_S3x64_S100000x64_1_0_0_1_n_n none (aX V) (aW1 V)
/-- The first layer: ELU of the first convolution. -/
def h1V : FVec Ideal S100000x64 .f32 := elu64 (conv (dV V) (sV V) (tV V) (xw1V V) (aB1 V))
/-- The second projection: the first layer times the second weights. -/
def hw2V : FVec Ideal S100000x64 .f32 := Host.dotGeneral (F := Ideal) dot_S100000x64_S64x64_S100000x64_1_0_0_1_n_n none (h1V V) (aW2 V)
/-- The second convolution, before its ELU. -/
def pre2V : FVec Ideal S100000x64 .f32 := conv (dV V) (sV V) (tV V) (hw2V V) (aB2 V)
/-- The second layer: ELU of the second convolution. -/
def h2V : FVec Ideal S100000x64 .f32 := elu64 (pre2V V)
/-- The first dense layer: ELU of the second layer times its weights plus its bias. -/
def h3V : FVec Ideal S100000x128 .f32 :=
  elu128 (addf (Host.dotGeneral (F := Ideal) dot_S100000x64_S64x128_S100000x128_1_0_0_1_n_n none (h2V V) (aWm1 V))
    (broadcastInDim S100000x128 ![0, 1] bcast_S1x128_S100000x128_0_1 (broadcastInDim S1x128 ![1] bcast_S128_S1x128_1 (aBm1 V))))
/-- The logits: the first dense layer times the last weights plus the last bias. -/
def lgV : FVec Ideal S100000x15 .f32 :=
  addf (Host.dotGeneral (F := Ideal) dot_S100000x128_S128x15_S100000x15_1_0_0_1_n_n none (h3V V) (aWm2 V))
    (broadcastInDim S100000x15 ![0, 1] bcast_S1x15_S100000x15_0_1 (broadcastInDim S1x15 ![1] bcast_S15_S1x15_1 (aBm2 V)))

/-- The result is the softmax of the last stage. -/
theorem term_stages : term (aX V) (aEi V) (aW1 V) (aB1 V) (aW2 V) (aB2 V) (aWm1 V) (aBm1 V) (aWm2 V) (aBm2 V) = softmaxT (lgV V) := rfl

/-! The edge ends. -/

set_option maxRecDepth 8192 in
set_option maxHeartbeats 2000000 in
/-- After 1 stretch this buffer holds the edge sources with the self-loops appended. -/
theorem val1_main_v3 : val1 V (no_index (Proc.devRef .tc main_v3)) = sV V := by
  unfold val1
  simp only [seg0]
  after_results_simp
  try simp (disch := decide) only [val0_arg]
  rfl

set_option maxRecDepth 8192 in
set_option maxHeartbeats 2000000 in
/-- After 1 stretch this buffer holds the edge targets with the self-loops appended. -/
theorem val1_main_v6 : val1 V (no_index (Proc.devRef .tc main_v6)) = tV V := by
  unfold val1
  simp only [seg0]
  after_results_simp
  try simp (disch := decide) only [val0_arg]
  rfl

/-! The degree factor. -/

set_option maxRecDepth 8192 in
set_option maxHeartbeats 2000000 in
/-- After 2 stretches this buffer holds the degree factor of the targets. -/
theorem val2_main_v16 : val2 V (no_index (Proc.devRef .tc main_v16)) = dV V := by
  unfold val2
  simp only [seg1]
  after_results_simp
  try simp (disch := decide) only [val1_main_v6]
  rfl
/-- After 2 stretches this buffer holds the edge sources with the self-loops appended. -/
theorem val2_main_v3 : val2 V (no_index (Proc.devRef .tc main_v3)) = sV V :=
  (val2_keep V main_v3 (by decide)).trans (val1_main_v3 V)
/-- After 2 stretches this buffer holds the edge targets with the self-loops appended. -/
theorem val2_main_v6 : val2 V (no_index (Proc.devRef .tc main_v6)) = tV V :=
  (val2_keep V main_v6 (by decide)).trans (val1_main_v6 V)

/-! The first projection and the edge factors. -/

set_option maxRecDepth 8192 in
set_option maxHeartbeats 2000000 in
/-- After 3 stretches this buffer holds the first projection, the features times the first weights. -/
theorem val3_main_v17 : val3 V (no_index (Proc.devRef .tc main_v17)) = xw1V V := by
  unfold val3
  simp only [seg2]
  after_results_simp
  try simp (disch := decide) only [val2_arg]
  rfl

set_option maxRecDepth 8192 in
set_option maxHeartbeats 2000000 in
/-- After 3 stretches this buffer holds per edge, the product of the degree factors at its two ends. -/
theorem val3_main_v32 : val3 V (no_index (Proc.devRef .tc main_v32)) = normT (dV V) (sV V) (tV V) := by
  unfold val3
  simp only [seg2]
  after_results_simp
  try simp (disch := decide) only [val2_main_v3, val2_main_v6, val2_main_v16]
  rfl
/-- After 3 stretches this buffer holds the edge sources with the self-loops appended. -/
theorem val3_main_v3 : val3 V (no_index (Proc.devRef .tc main_v3)) = sV V :=
  (val3_keep V main_v3 (by decide)).trans (val2_main_v3 V)
/-- After 3 stretches this buffer holds the edge targets with the self-loops appended. -/
theorem val3_main_v6 : val3 V (no_index (Proc.devRef .tc main_v6)) = tV V :=
  (val3_keep V main_v6 (by decide)).trans (val2_main_v6 V)
/-- After 3 stretches this buffer holds the degree factor of the targets. -/
theorem val3_main_v16 : val3 V (no_index (Proc.devRef .tc main_v16)) = dV V :=
  (val3_keep V main_v16 (by decide)).trans (val2_main_v16 V)

/-! The first aggregation, and the first bias laid out. -/

set_option maxRecDepth 8192 in
set_option maxHeartbeats 2000000 in
/-- After 4 stretches this buffer holds the first aggregation: the projected rows carried along the edges, scaled, added at the targets. -/
theorem val4_main_v45 : val4 V (no_index (Proc.devRef .tc main_v45)) = aggT (sV V) (tV V) (xw1V V) (normT (dV V) (sV V) (tV V)) := by
  unfold val4
  simp only [seg3]
  after_results_simp
  try simp (disch := decide) only [val3_main_v3, val3_main_v6, val3_main_v17, val3_main_v32]
  rfl

set_option maxRecDepth 8192 in
set_option maxHeartbeats 2000000 in
/-- After 4 stretches this buffer holds the first bias laid out along every row. -/
theorem val4_main_v47 : val4 V (no_index (Proc.devRef .tc main_v47)) = biasT (aB1 V) := by
  unfold val4
  simp only [seg3]
  after_results_simp
  try simp (disch := decide) only [val3_arg]
  rfl
/-- After 4 stretches this buffer holds the edge sources with the self-loops appended. -/
theorem val4_main_v3 : val4 V (no_index (Proc.devRef .tc main_v3)) = sV V :=
  (val4_keep V main_v3 (by decide)).trans (val3_main_v3 V)
/-- After 4 stretches this buffer holds the edge targets with the self-loops appended. -/
theorem val4_main_v6 : val4 V (no_index (Proc.devRef .tc main_v6)) = tV V :=
  (val4_keep V main_v6 (by decide)).trans (val3_main_v6 V)
/-- After 4 stretches this buffer holds the degree factor of the targets. -/
theorem val4_main_v16 : val4 V (no_index (Proc.devRef .tc main_v16)) = dV V :=
  (val4_keep V main_v16 (by decide)).trans (val3_main_v16 V)

/-! The first layer. -/

set_option maxRecDepth 8192 in
set_option maxHeartbeats 2000000 in
/-- After 5 stretches this buffer holds the first layer's output, ELU of the first convolution. -/
theorem val5_main_v49 : val5 V (no_index (Proc.devRef .tc main_v49)) = h1V V := by
  unfold val5
  simp only [seg4]
  after_results_simp
  try simp (disch := decide) only [val4_main_v45, val4_main_v47]
  rfl
/-- After 5 stretches this buffer holds the edge sources with the self-loops appended. -/
theorem val5_main_v3 : val5 V (no_index (Proc.devRef .tc main_v3)) = sV V :=
  (val5_keep V main_v3 (by decide)).trans (val4_main_v3 V)
/-- After 5 stretches this buffer holds the edge targets with the self-loops appended. -/
theorem val5_main_v6 : val5 V (no_index (Proc.devRef .tc main_v6)) = tV V :=
  (val5_keep V main_v6 (by decide)).trans (val4_main_v6 V)
/-- After 5 stretches this buffer holds the degree factor of the targets. -/
theorem val5_main_v16 : val5 V (no_index (Proc.devRef .tc main_v16)) = dV V :=
  (val5_keep V main_v16 (by decide)).trans (val4_main_v16 V)

/-! The second projection and the edge factors again. -/

set_option maxRecDepth 8192 in
set_option maxHeartbeats 2000000 in
/-- After 6 stretches this buffer holds the second projection, the first layer times the second weights. -/
theorem val6_main_v50 : val6 V (no_index (Proc.devRef .tc main_v50)) = hw2V V := by
  unfold val6
  simp only [seg5]
  after_results_simp
  try simp (disch := decide) only [val5_arg, val5_main_v49]
  rfl

set_option maxRecDepth 8192 in
set_option maxHeartbeats 2000000 in
/-- After 6 stretches this buffer holds per edge, the product of the degree factors at its two ends, computed a second time. -/
theorem val6_main_v65 : val6 V (no_index (Proc.devRef .tc main_v65)) = normT (dV V) (sV V) (tV V) := by
  unfold val6
  simp only [seg5]
  after_results_simp
  try simp (disch := decide) only [val5_main_v3, val5_main_v6, val5_main_v16]
  rfl
/-- After 6 stretches this buffer holds the edge sources with the self-loops appended. -/
theorem val6_main_v3 : val6 V (no_index (Proc.devRef .tc main_v3)) = sV V :=
  (val6_keep V main_v3 (by decide)).trans (val5_main_v3 V)
/-- After 6 stretches this buffer holds the edge targets with the self-loops appended. -/
theorem val6_main_v6 : val6 V (no_index (Proc.devRef .tc main_v6)) = tV V :=
  (val6_keep V main_v6 (by decide)).trans (val5_main_v6 V)

/-! The second convolution. -/

set_option maxRecDepth 8192 in
set_option maxHeartbeats 2000000 in
/-- After 7 stretches this buffer holds the second convolution before its ELU. -/
theorem val7_main_v81 : val7 V (no_index (Proc.devRef .tc main_v81)) = pre2V V := by
  unfold val7
  simp only [seg6]
  after_results_simp
  try simp (disch := decide) only [val6_arg, val6_main_v3, val6_main_v6, val6_main_v50, val6_main_v65]
  rfl

/-! The second layer. -/

set_option maxRecDepth 8192 in
set_option maxHeartbeats 2000000 in
/-- After 8 stretches this buffer holds the second layer's output. -/
theorem val8_main_v82 : val8 V (no_index (Proc.devRef .tc main_v82)) = h2V V := by
  unfold val8
  simp only [seg7]
  after_results_simp
  try simp (disch := decide) only [val7_main_v81]
  rfl

/-! The first dense layer. -/

set_option maxRecDepth 8192 in
set_option maxHeartbeats 2000000 in
/-- After 9 stretches this buffer holds the first dense layer's output after its ELU. -/
theorem val9_main_v87 : val9 V (no_index (Proc.devRef .tc main_v87)) = h3V V := by
  unfold val9
  simp only [seg8]
  after_results_simp
  try simp (disch := decide) only [val8_arg, val8_main_v82]
  rfl

/-! The second dense layer and the shifted exponentials. -/

set_option maxRecDepth 8192 in
set_option maxHeartbeats 2000000 in
/-- After 10 stretches this buffer holds the exponentials of the logits shifted by their row maxima. -/
theorem val10_main_v98 : val10 V (no_index (Proc.devRef .tc main_v98)) = exT (lgV V) := by
  unfold val10
  simp only [seg9]
  after_results_simp
  try simp (disch := decide) only [val9_arg, val9_main_v87]
  rfl

/-! The quotient: the result. -/

set_option maxRecDepth 8192 in
set_option maxHeartbeats 2000000 in
/-- After 11 stretches this buffer holds the result: the row softmax of the logits, which is the composed term. -/
theorem val11_main_v102 : val11 V (no_index (Proc.devRef .tc main_v102)) = term (aX V) (aEi V) (aW1 V) (aB1 V) (aW2 V) (aB2 V) (aWm1 V) (aBm1 V) (aWm2 V) (aBm2 V) := by
  unfold val11
  simp only [seg10]
  after_results_simp
  try simp (disch := decide) only [val10_main_v98]
  rw [term_stages, softmaxT_stages]

/-- The result buffer after the whole line is the composed term of the arguments. -/
theorem out_eq : after ops V (Proc.devRef .tc main_v102)
    = term (aX V) (aEi V) (aW1 V) (aB1 V) (aW2 V) (aB2 V) (aWm1 V) (aBm1 V) (aWm2 V) (aBm2 V) := by
  rw [after_ops]; exact val11_main_v102 V

end Values

end Run

open Run

variable (m : (ℓ : Loc nD τ sig) → Buf (Elt Ideal) ℓ) (ρ : Dev nD → PrngReg)

/-- Every weakly fair execution of the reference terminates, its result buffer at the composed operations of the
    arguments and the arguments as launched. -/
theorem run :
    θ_run (defs (F := Ideal)) (onTc (τ := τ) (main (F := Ideal))) ⟨m, fun _ => 0, ρ⟩ (fun r => ∀ c : Dev nD,
      r.2.mem ((c.tc : Thread nD τ).loc main_v102)
          = term (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
              (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)) :=
  (θ_run _ _ _).mono (fun r h c =>
    ⟨(h c main_v102).trans (out_eq _),
      (h c main_arg0).trans (arg_eq _ main_arg0 (by decide)), (h c main_arg1).trans (arg_eq _ main_arg1 (by decide)),
      (h c main_arg2).trans (arg_eq _ main_arg2 (by decide)), (h c main_arg3).trans (arg_eq _ main_arg3 (by decide)),
      (h c main_arg4).trans (arg_eq _ main_arg4 (by decide)), (h c main_arg5).trans (arg_eq _ main_arg5 (by decide)),
      (h c main_arg6).trans (arg_eq _ main_arg6 (by decide)), (h c main_arg7).trans (arg_eq _ main_arg7 (by decide)),
      (h c main_arg8).trans (arg_eq _ main_arg8 (by decide)), (h c main_arg9).trans (arg_eq _ main_arg9 (by decide))⟩)
    (run_main m ρ)

end Cert.ReferenceIdeal.RV

end
-- ==== Proof.RefConv.lean ====
import proofs.«407343_j65274912965021_3_alg».proof.Proof.RefTerm
import proofs.«407343_j65274912965021_3_alg».proof.Proof.LibRead

noncomputable section

namespace Cert.ReferenceIdeal.RV

open Idealize.ShloMosaic Idealize.ShloMosaic.ValueIdx
open Cert.ReferenceIdeal Cert.ReferenceIdeal.Gen

/-- The scalar accumulating scatter's dimension numbers are the specification's, list by list. -/
theorem s1_rec : scatter_S100000_S3300000x1_S3300000_n_0_0_1 = Cert.Spec.s1 := rfl
/-- The row accumulating scatter's dimension numbers are the specification's. -/
theorem s64_rec : scatter_S100000x64_S3300000x1_S3300000x64_1_0_0_1 = Cert.Spec.s64 := rfl
/-- The scalar gather's dimension numbers are the specification's. -/
theorem g1_rec : gather_S100000_S3300000x1_S3300000_n_0_n_n_0_1_1 = Cert.Spec.g1 := rfl
/-- The row gather's dimension numbers are the specification's. -/
theorem g64_rec : gather_S100000x64_S3300000x1_S3300000x64_1_0_n_n_0_1_164 = Cert.Spec.g64 := rfl

/-- The bit pattern of 0 broadcast from a scalar is 0 everywhere. -/
theorem splat0 (s : Shape) (h : S_.BroadcastsInDim s (![] : Fin 0 → Fin s.rank)) :
    broadcastInDim s ![] h (constant (F := Ideal) S_ .f32 0x00000000#32) = fun _ => (0 : EReal) :=
  (Cert.Spec.splat_read s h _).trans (funext fun _ => Ideal.ofBits_zero_f32)
/-- The bit pattern 0x3F800000 is 1, so its broadcast from a scalar is 1 everywhere. -/
theorem splat1 (s : Shape) (h : S_.BroadcastsInDim s (![] : Fin 0 → Fin s.rank)) :
    broadcastInDim s ![] h (constant (F := Ideal) S_ .f32 0x3F800000#32) = fun _ => (1 : EReal) :=
  (Cert.Spec.splat_read s h _).trans (funext fun _ => Cert.Spec.ofBits_one_f32)

/-- The wrapped index column is the wrap of negative indices laid out as one column. -/
theorem wrapCol_eq (v : IVec S3300000 32) : wrapCol v = Cert.Spec.col1 (Cert.Spec.wrapNeg v) :=
  (Cert.Spec.col1_read bcast_S3300000_S3300000x1_0 _).trans (congrArg Cert.Spec.col1
    (Cert.Spec.wrapNeg_read v _ _ (Cert.Spec.splatI_read _ _ _) (Cert.Spec.splatI_read _ _ _)))

/-- The degree factor the program computes is the specification's, of the degree counted at the targets. -/
theorem disT_eq (t : IVec S3300000 32) : disT t = Cert.Spec.disF (Cert.Spec.deg (Cert.Spec.col1 t)) := by
  have hdeg : Host.scatterAdd (F := Ideal) scatter_S100000_S3300000x1_S3300000_n_0_0_1
      (broadcastInDim S100000 ![] bcast_S_S100000 (constant (F := Ideal) S_ .f32 0x00000000#32))
      (broadcastInDim S3300000x1 ![0] bcast_S3300000_S3300000x1_0 t)
      (broadcastInDim S3300000 ![] bcast_S_S3300000 (constant (F := Ideal) S_ .f32 0x3F800000#32))
      = Cert.Spec.deg (Cert.Spec.col1 t) := by
    rw [splat0, splat1, Cert.Spec.col1_read, s1_rec]
    rfl
  unfold disT
  dsimp only
  rw [hdeg]
  exact Cert.Spec.dis_read _ _ _ _ (splat0 _ _) (splat1 _ _) (splat0 _ _)

/-- The carried rows times the broadcast product of the two gathered factors, entry by entry. -/
theorem upd_eq (r : FVec Ideal S3300000x64 .f32) (g0 g1 : FVec Ideal S3300000 .f32) :
    (mulf r fun j => mulf g0 g1 (ix1 (j 0))) = fun j => r j * (g0 (ix1 (j 0)) * g1 (ix1 (j 0))) := rfl
/-- Over the extended reals the accumulating scatter is, at each element, the starting value plus the sum of the updates that land there. -/
theorem scatterAdd64_ideal (x : FVec Ideal S100000x64 .f32) (i : IVec S3300000x1 32) (u : FVec Ideal S3300000x64 .f32) :
    Host.scatterAdd (F := Ideal) Cert.Spec.s64 x i u = Ideal.hostScatterAdd Cert.Spec.s64 x i u := rfl
/-- Adding a vector broadcast down the columns is adding it to every row. -/
theorem addf_bias (A : FVec Ideal S100000x64 .f32) (b : FVec Ideal S64 .f32) :
    addf A (fun j => b (ix1 (j 1))) = Cert.Spec.addRow A b := rfl

/-- One convolution of the program is the specification's aggregation with both end-point factors, plus the bias. -/
theorem conv_eq (d : FVec Ideal S100000 .f32) (s t : IVec S3300000 32) (H : FVec Ideal S100000x64 .f32) (b : FVec Ideal S64 .f32) :
    conv d s t H b = Cert.Spec.addRow (Cert.Spec.aggR (Cert.Spec.col1 (Cert.Spec.wrapNeg s)) (Cert.Spec.col1 (Cert.Spec.wrapNeg t)) (Cert.Spec.col1 t) d H) b := by
  have hz : broadcastInDim S100000x64 ![] bcast_S_S100000x64 (constant (F := Ideal) S_ .f32 0x00000000#32) = fun _ => (0 : EReal) :=
    splat0 _ _
  have htc : broadcastInDim S3300000x1 ![0] bcast_S3300000_S3300000x1_0 t = Cert.Spec.col1 t := Cert.Spec.col1_read _ _
  have hb : broadcastInDim S100000x64 ![0, 1] bcast_S1x64_S100000x64_0_1 (broadcastInDim S1x64 ![1] bcast_S64_S1x64_1 b)
      = fun j => b (ix1 (j 1)) :=
    (Cert.Spec.bcast_row_read bcast_S1x64_S100000x64_0_1 _).trans
      (funext fun j => congrFun (Cert.Spec.bcast_vec_row_read bcast_S64_S1x64_1 b) (ix2 0 (j 1)))
  have hp : ∀ p : FVec Ideal S3300000 .f32,
      broadcastInDim S3300000x64 ![0, 1] bcast_S3300000x1_S3300000x64_0_1 (broadcastInDim S3300000x1 ![0] bcast_S3300000_S3300000x1_0 p)
        = fun j => p (ix1 (j 0)) := fun p =>
    (Cert.Spec.bcast_col_read bcast_S3300000x1_S3300000x64_0_1 _).trans
      (funext fun j => congrFun (Cert.Spec.bcast_vec_col_read bcast_S3300000_S3300000x1_0 p) (ix2 (j 0) 0))
  unfold conv
  dsimp only
  rw [hz, htc, hb, hp, wrapCol_eq, wrapCol_eq, s64_rec, g64_rec, g1_rec, upd_eq, scatterAdd64_ideal, addf_bias]
  unfold Cert.Spec.aggR
  rfl

end Cert.ReferenceIdeal.RV

end
-- ==== Proof.RefPieces.lean ====
import proofs.«407343_j65274912965021_3_alg».proof.Proof.Gen.ReferenceIdeal
import proofs.«407343_j65274912965021_3_alg».proof.Proof.Spec
import proofs.«407343_j65274912965021_3_alg».proof.Proof.LibRead
import proofs.«407343_j65274912965021_3_alg».proof.Proof.LibAlg
import Idealize.ShloMosaic.PureOps.Ideal.Laws
import Idealize.ShloMosaic.PureOps.Reduce
import Idealize.ShloMosaic.Lib.ValueIdx
import Idealize.ShloMosaic.Lib.Pipeline.Value

noncomputable section

namespace Cert.ReferenceIdeal.RV

open Idealize.ShloMosaic Idealize.ShloMosaic.ValueIdx
open Cert.ReferenceIdeal Cert.ReferenceIdeal.Gen

/-! ### The [100000, 3] × [3, 64] product -/

/-- At result index j and any contraction position the left operand is read in row j 0: its free axis comes first in the result. -/
theorem dot3_lhs0 (j : S100000x64.Idx) (c : dot_S100000x3_S3x64_S100000x64_1_0_0_1_n_n.contr.Idx) :
    (dot_S100000x3_S3x64_S100000x64_1_0_0_1_n_n.lhsIdx j c 0).val = (j 0).val := rfl
/-- At result index j and any contraction position the right operand is read in column j 1: its free axis comes second in the result. -/
theorem dot3_rhs1 (j : S100000x64.Idx) (c : dot_S100000x3_S3x64_S100000x64_1_0_0_1_n_n.contr.Idx) :
    (dot_S100000x3_S3x64_S100000x64_1_0_0_1_n_n.rhsIdx j c 1).val = (j 1).val := rfl
/-- At result (p, q) and contracted coordinate l the left operand is read at (p, l): the row as above, the column because the
    one contracted axis of the left operand reads l. -/
theorem dot3_lhs (p : Fin 100000) (q : Fin 64) (l : Fin 3) :
    dot_S100000x3_S3x64_S100000x64_1_0_0_1_n_n.lhsIdx (ix2 p q) ((contrEquiv1 dot_S100000x3_S3x64_S100000x64_1_0_0_1_n_n 3 rfl rfl).symm l) = ix2 p l := by
  funext a
  apply Fin.ext
  match a with
  | ⟨0, _⟩ => exact dot3_lhs0 _ _
  | ⟨1, _⟩ =>
    exact (dot_S100000x3_S3x64_S100000x64_1_0_0_1_n_n.lhsIdx_val_of_single rfl _ _).trans
      (contrEquiv1_symm_val dot_S100000x3_S3x64_S100000x64_1_0_0_1_n_n 3 rfl rfl l)
/-- At result (p, q) and contracted coordinate l the right operand is read at (l, q): the row is its one contracted axis, which
    reads l, the column as above. -/
theorem dot3_rhs (p : Fin 100000) (q : Fin 64) (l : Fin 3) :
    dot_S100000x3_S3x64_S100000x64_1_0_0_1_n_n.rhsIdx (ix2 p q) ((contrEquiv1 dot_S100000x3_S3x64_S100000x64_1_0_0_1_n_n 3 rfl rfl).symm l) = ix2 l q := by
  funext a
  apply Fin.ext
  match a with
  | ⟨0, _⟩ =>
    exact (dot_S100000x3_S3x64_S100000x64_1_0_0_1_n_n.rhsIdx_val_of_single rfl _ _).trans
      (contrEquiv1_symm_val dot_S100000x3_S3x64_S100000x64_1_0_0_1_n_n 3 rfl rfl l)
  | ⟨1, _⟩ => exact dot3_rhs1 _ _

/-- The product is rows times columns: entry (p, q) is the sum over the contraction index of the operands' entries multiplied,
    and re-indexing that sum by the contracted coordinate l gives the sum over l of X (p, l) · W (l, q). -/
theorem dot3_eq (X : FVec Ideal S100000x3 .f32) (W : FVec Ideal S3x64 .f32) :
    Host.dotGeneral (F := Ideal) dot_S100000x3_S3x64_S100000x64_1_0_0_1_n_n none X W = Cert.Spec.mm X W := by
  funext j
  obtain ⟨p, q, rfl⟩ : ∃ p q, j = ix2 p q := ⟨j 0, j 1, eq_ix2 j⟩
  simp only [Host.dotGeneral]
  rw [Ideal.dotGeneral_apply]
  show _ = ∑ l : Fin 3, X (ix2 p l) * W (ix2 l q)
  rw [← Equiv.sum_comp (contrEquiv1 dot_S100000x3_S3x64_S100000x64_1_0_0_1_n_n 3 rfl rfl).symm]
  refine Finset.sum_congr rfl (fun l _ => ?_)
  rw [dot3_lhs p q l, dot3_rhs p q l]

/-! ### The [100000, 64] × [64, 64] product -/

/-- At result index j and any contraction position the left operand is read in row j 0: its free axis comes first in the result. -/
theorem dot64_lhs0 (j : S100000x64.Idx) (c : dot_S100000x64_S64x64_S100000x64_1_0_0_1_n_n.contr.Idx) :
    (dot_S100000x64_S64x64_S100000x64_1_0_0_1_n_n.lhsIdx j c 0).val = (j 0).val := rfl
/-- At result index j and any contraction position the right operand is read in column j 1: its free axis comes second in the result. -/
theorem dot64_rhs1 (j : S100000x64.Idx) (c : dot_S100000x64_S64x64_S100000x64_1_0_0_1_n_n.contr.Idx) :
    (dot_S100000x64_S64x64_S100000x64_1_0_0_1_n_n.rhsIdx j c 1).val = (j 1).val := rfl
/-- At result (p, q) and contracted coordinate l the left operand is read at (p, l): the row as above, the column because the
    one contracted axis of the left operand reads l. -/
theorem dot64_lhs (p : Fin 100000) (q : Fin 64) (l : Fin 64) :
    dot_S100000x64_S64x64_S100000x64_1_0_0_1_n_n.lhsIdx (ix2 p q) ((contrEquiv1 dot_S100000x64_S64x64_S100000x64_1_0_0_1_n_n 64 rfl rfl).symm l) = ix2 p l := by
  funext a
  apply Fin.ext
  match a with
  | ⟨0, _⟩ => exact dot64_lhs0 _ _
  | ⟨1, _⟩ =>
    exact (dot_S100000x64_S64x64_S100000x64_1_0_0_1_n_n.lhsIdx_val_of_single rfl _ _).trans
      (contrEquiv1_symm_val dot_S100000x64_S64x64_S100000x64_1_0_0_1_n_n 64 rfl rfl l)
/-- At result (p, q) and contracted coordinate l the right operand is read at (l, q): the row is its one contracted axis, which
    reads l, the column as above. -/
theorem dot64_rhs (p : Fin 100000) (q : Fin 64) (l : Fin 64) :
    dot_S100000x64_S64x64_S100000x64_1_0_0_1_n_n.rhsIdx (ix2 p q) ((contrEquiv1 dot_S100000x64_S64x64_S100000x64_1_0_0_1_n_n 64 rfl rfl).symm l) = ix2 l q := by
  funext a
  apply Fin.ext
  match a with
  | ⟨0, _⟩ =>
    exact (dot_S100000x64_S64x64_S100000x64_1_0_0_1_n_n.rhsIdx_val_of_single rfl _ _).trans
      (contrEquiv1_symm_val dot_S100000x64_S64x64_S100000x64_1_0_0_1_n_n 64 rfl rfl l)
  | ⟨1, _⟩ => exact dot64_rhs1 _ _

/-- The product is rows times columns: entry (p, q) is the sum over the contraction index of the operands' entries multiplied,
    and re-indexing that sum by the contracted coordinate l gives the sum over l of X (p, l) · W (l, q). -/
theorem dot64_eq (X : FVec Ideal S100000x64 .f32) (W : FVec Ideal S64x64 .f32) :
    Host.dotGeneral (F := Ideal) dot_S100000x64_S64x64_S100000x64_1_0_0_1_n_n none X W = Cert.Spec.mm X W := by
  funext j
  obtain ⟨p, q, rfl⟩ : ∃ p q, j = ix2 p q := ⟨j 0, j 1, eq_ix2 j⟩
  simp only [Host.dotGeneral]
  rw [Ideal.dotGeneral_apply]
  show _ = ∑ l : Fin 64, X (ix2 p l) * W (ix2 l q)
  rw [← Equiv.sum_comp (contrEquiv1 dot_S100000x64_S64x64_S100000x64_1_0_0_1_n_n 64 rfl rfl).symm]
  refine Finset.sum_congr rfl (fun l _ => ?_)
  rw [dot64_lhs p q l, dot64_rhs p q l]

/-! ### The [100000, 64] × [64, 128] product -/

/-- At result index j and any contraction position the left operand is read in row j 0: its free axis comes first in the result. -/
theorem dot64x128_lhs0 (j : S100000x128.Idx) (c : dot_S100000x64_S64x128_S100000x128_1_0_0_1_n_n.contr.Idx) :
    (dot_S100000x64_S64x128_S100000x128_1_0_0_1_n_n.lhsIdx j c 0).val = (j 0).val := rfl
/-- At result index j and any contraction position the right operand is read in column j 1: its free axis comes second in the result. -/
theorem dot64x128_rhs1 (j : S100000x128.Idx) (c : dot_S100000x64_S64x128_S100000x128_1_0_0_1_n_n.contr.Idx) :
    (dot_S100000x64_S64x128_S100000x128_1_0_0_1_n_n.rhsIdx j c 1).val = (j 1).val := rfl
/-- At result (p, q) and contracted coordinate l the left operand is read at (p, l): the row as above, the column because the
    one contracted axis of the left operand reads l. -/
theorem dot64x128_lhs (p : Fin 100000) (q : Fin 128) (l : Fin 64) :
    dot_S100000x64_S64x128_S100000x128_1_0_0_1_n_n.lhsIdx (ix2 p q) ((contrEquiv1 dot_S100000x64_S64x128_S100000x128_1_0_0_1_n_n 64 rfl rfl).symm l) = ix2 p l := by
  funext a
  apply Fin.ext
  match a with
  | ⟨0, _⟩ => exact dot64x128_lhs0 _ _
  | ⟨1, _⟩ =>
    exact (dot_S100000x64_S64x128_S100000x128_1_0_0_1_n_n.lhsIdx_val_of_single rfl _ _).trans
      (contrEquiv1_symm_val dot_S100000x64_S64x128_S100000x128_1_0_0_1_n_n 64 rfl rfl l)
/-- At result (p, q) and contracted coordinate l the right operand is read at (l, q): the row is its one contracted axis, which
    reads l, the column as above. -/
theorem dot64x128_rhs (p : Fin 100000) (q : Fin 128) (l : Fin 64) :
    dot_S100000x64_S64x128_S100000x128_1_0_0_1_n_n.rhsIdx (ix2 p q) ((contrEquiv1 dot_S100000x64_S64x128_S100000x128_1_0_0_1_n_n 64 rfl rfl).symm l) = ix2 l q := by
  funext a
  apply Fin.ext
  match a with
  | ⟨0, _⟩ =>
    exact (dot_S100000x64_S64x128_S100000x128_1_0_0_1_n_n.rhsIdx_val_of_single rfl _ _).trans
      (contrEquiv1_symm_val dot_S100000x64_S64x128_S100000x128_1_0_0_1_n_n 64 rfl rfl l)
  | ⟨1, _⟩ => exact dot64x128_rhs1 _ _

/-- The product is rows times columns: entry (p, q) is the sum over the contraction index of the operands' entries multiplied,
    and re-indexing that sum by the contracted coordinate l gives the sum over l of X (p, l) · W (l, q). -/
theorem dot64x128_eq (X : FVec Ideal S100000x64 .f32) (W : FVec Ideal S64x128 .f32) :
    Host.dotGeneral (F := Ideal) dot_S100000x64_S64x128_S100000x128_1_0_0_1_n_n none X W = Cert.Spec.mm X W := by
  funext j
  obtain ⟨p, q, rfl⟩ : ∃ p q, j = ix2 p q := ⟨j 0, j 1, eq_ix2 j⟩
  simp only [Host.dotGeneral]
  rw [Ideal.dotGeneral_apply]
  show _ = ∑ l : Fin 64, X (ix2 p l) * W (ix2 l q)
  rw [← Equiv.sum_comp (contrEquiv1 dot_S100000x64_S64x128_S100000x128_1_0_0_1_n_n 64 rfl rfl).symm]
  refine Finset.sum_congr rfl (fun l _ => ?_)
  rw [dot64x128_lhs p q l, dot64x128_rhs p q l]

/-! ### The [100000, 128] × [128, 15] product -/

/-- At result index j and any contraction position the left operand is read in row j 0: its free axis comes first in the result. -/
theorem dot128x15_lhs0 (j : S100000x15.Idx) (c : dot_S100000x128_S128x15_S100000x15_1_0_0_1_n_n.contr.Idx) :
    (dot_S100000x128_S128x15_S100000x15_1_0_0_1_n_n.lhsIdx j c 0).val = (j 0).val := rfl
/-- At result index j and any contraction position the right operand is read in column j 1: its free axis comes second in the result. -/
theorem dot128x15_rhs1 (j : S100000x15.Idx) (c : dot_S100000x128_S128x15_S100000x15_1_0_0_1_n_n.contr.Idx) :
    (dot_S100000x128_S128x15_S100000x15_1_0_0_1_n_n.rhsIdx j c 1).val = (j 1).val := rfl
/-- At result (p, q) and contracted coordinate l the left operand is read at (p, l): the row as above, the column because the
    one contracted axis of the left operand reads l. -/
theorem dot128x15_lhs (p : Fin 100000) (q : Fin 15) (l : Fin 128) :
    dot_S100000x128_S128x15_S100000x15_1_0_0_1_n_n.lhsIdx (ix2 p q) ((contrEquiv1 dot_S100000x128_S128x15_S100000x15_1_0_0_1_n_n 128 rfl rfl).symm l) = ix2 p l := by
  funext a
  apply Fin.ext
  match a with
  | ⟨0, _⟩ => exact dot128x15_lhs0 _ _
  | ⟨1, _⟩ =>
    exact (dot_S100000x128_S128x15_S100000x15_1_0_0_1_n_n.lhsIdx_val_of_single rfl _ _).trans
      (contrEquiv1_symm_val dot_S100000x128_S128x15_S100000x15_1_0_0_1_n_n 128 rfl rfl l)
/-- At result (p, q) and contracted coordinate l the right operand is read at (l, q): the row is its one contracted axis, which
    reads l, the column as above. -/
theorem dot128x15_rhs (p : Fin 100000) (q : Fin 15) (l : Fin 128) :
    dot_S100000x128_S128x15_S100000x15_1_0_0_1_n_n.rhsIdx (ix2 p q) ((contrEquiv1 dot_S100000x128_S128x15_S100000x15_1_0_0_1_n_n 128 rfl rfl).symm l) = ix2 l q := by
  funext a
  apply Fin.ext
  match a with
  | ⟨0, _⟩ =>
    exact (dot_S100000x128_S128x15_S100000x15_1_0_0_1_n_n.rhsIdx_val_of_single rfl _ _).trans
      (contrEquiv1_symm_val dot_S100000x128_S128x15_S100000x15_1_0_0_1_n_n 128 rfl rfl l)
  | ⟨1, _⟩ => exact dot128x15_rhs1 _ _

/-- The product is rows times columns: entry (p, q) is the sum over the contraction index of the operands' entries multiplied,
    and re-indexing that sum by the contracted coordinate l gives the sum over l of X (p, l) · W (l, q). -/
theorem dot128x15_eq (X : FVec Ideal S100000x128 .f32) (W : FVec Ideal S128x15 .f32) :
    Host.dotGeneral (F := Ideal) dot_S100000x128_S128x15_S100000x15_1_0_0_1_n_n none X W = Cert.Spec.mm X W := by
  funext j
  obtain ⟨p, q, rfl⟩ : ∃ p q, j = ix2 p q := ⟨j 0, j 1, eq_ix2 j⟩
  simp only [Host.dotGeneral]
  rw [Ideal.dotGeneral_apply]
  show _ = ∑ l : Fin 128, X (ix2 p l) * W (ix2 l q)
  rw [← Equiv.sum_comp (contrEquiv1 dot_S100000x128_S128x15_S100000x15_1_0_0_1_n_n 128 rfl rfl).symm]
  refine Finset.sum_congr rfl (fun l _ => ?_)
  rw [dot128x15_lhs p q l, dot128x15_rhs p q l]

/-! ### The softmax tail -/

/-- The row maximum: the reduction with max over axis 1 started from the pattern of −∞ is the fold of max over the row's 15
    entries started from ⊥, entry c of row i being the reduced index (i, c). -/
theorem reduceMax_read (H : FVec Ideal S100000x15 .f32) :
    Host.reduce (FloatOps.maximumf (F := Ideal) (φ := .f32)) H (constant (F := Ideal) S_ .f32 0xFF800000#32)
        reducesTo_S100000x15_S100000_d1 h_S_
      = fun i => Cert.Spec.rowMax H (i 0) := by
  funext i
  have h : S100000x15.Reduces [1] S100000 := by decide
  rw [Host.reduce_eq_fold_single _ H _ reducesTo_S100000x15_S100000_d1 h h_S_ i]
  show Finset.fold max (Ideal.ofBits .f32 0xFF800000#32) (H ∘ h.lift i) (Finset.univ : Finset (Fin 15))
    = Finset.fold max ⊥ (fun c => H (ix2 (i 0) c)) (Finset.univ : Finset (Fin 15))
  rw [Cert.Spec.ofBits_negInf_f32]
  congr 1
  funext c
  show H (h.lift i c) = H (ix2 (i 0) c)
  congr 1
  funext a
  apply Fin.ext
  match a with
  | ⟨0, _⟩ => rfl
  | ⟨1, _⟩ => rfl

/-- The row sum: the reduction with + over axis 1 started from 0 is 0 plus the sum over the row's 15 entries. -/
theorem reduceAdd_read (E : FVec Ideal S100000x15 .f32) :
    Host.reduceAdd (F := Ideal) E (constant (F := Ideal) S_ .f32 0x00000000#32) reducesTo_S100000x15_S100000_d1 h_S_
      = fun i => ∑ c : Fin 15, E (ix2 (i 0) c) := by
  funext i
  have h : S100000x15.Reduces [1] S100000 := by decide
  show Ideal.hostReduceAdd reducesTo_S100000x15_S100000_d1 E (Ideal.ofBits .f32 0x00000000#32) i = _
  rw [Ideal.hostReduceAdd_single _ h, Ideal.ofBits_zero_f32, zero_add]
  show ∑ c : Fin 15, E (h.lift i c) = ∑ c : Fin 15, E (ix2 (i 0) c)
  refine Finset.sum_congr rfl (fun c _ => ?_)
  congr 1
  funext a
  apply Fin.ext
  match a with
  | ⟨0, _⟩ => rfl
  | ⟨1, _⟩ => rfl

/-- The maximum with a row of −∞ changes nothing. -/
theorem max_negInf_read (v : FVec Ideal S100000 .f32) :
    maximumf (F := Ideal) (broadcastInDim S100000 ![] bcast_S_S100000 (constant (F := Ideal) S_ .f32 0xFF800000#32)) v = v := by
  rw [Cert.Spec.splat_read S100000 bcast_S_S100000]
  funext i
  show max (Ideal.ofBits .f32 0xFF800000#32) (v i) = v i
  rw [Cert.Spec.ofBits_negInf_f32]
  exact max_eq_right bot_le

/-- A per-row value laid out as a column and carried along the row reads the row's value at every entry. -/
theorem rowBcast_read (v : FVec Ideal S100000 .f32) :
    broadcastInDim S100000x15 ![0, 1] bcast_S100000x1_S100000x15_0_1
        (broadcastInDim S100000x1 ![0] bcast_S100000_S100000x1_0 v)
      = fun j => v (ix1 (j 0)) := by
  rw [Cert.Spec.bcast_vec_col_read (n := 100000) bcast_S100000_S100000x1_0 v,
    Cert.Spec.bcast_col_read (n := 100000) (k := 15) bcast_S100000x1_S100000x15_0_1]

/-- The reference's last operations: the row maximum from −∞ (and once more against a row of −∞), the
    exponential of the difference, the row sum from 0, the quotient. -/
def softmaxOps (v91 : FVec Ideal S100000x15 .f32) : FVec Ideal S100000x15 .f32 :=
  have cst_17 : FVec Ideal S_ .f32 := constant (F := Ideal) S_ .f32 0xFF800000#32
  have v92 : FVec Ideal S100000 .f32 := Host.reduce (FloatOps.maximumf (F := Ideal) (φ := .f32)) v91 cst_17 reducesTo_S100000x15_S100000_d1 h_S_
  have cst_18 : FVec Ideal S_ .f32 := constant (F := Ideal) S_ .f32 0xFF800000#32
  have v93 : FVec Ideal S100000 .f32 := broadcastInDim S100000 ![] bcast_S_S100000 cst_18
  have v94 : FVec Ideal S100000 .f32 := maximumf v93 v92
  have v95 : FVec Ideal S100000x1 .f32 := broadcastInDim S100000x1 ![0] bcast_S100000_S100000x1_0 v94
  have v96 : FVec Ideal S100000x15 .f32 := broadcastInDim S100000x15 ![0, 1] bcast_S100000x1_S100000x15_0_1 v95
  have v97 : FVec Ideal S100000x15 .f32 := subf v91 v96
  have v98 : FVec Ideal S100000x15 .f32 := Host.exp v97
  have cst_19 : FVec Ideal S_ .f32 := constant (F := Ideal) S_ .f32 0x00000000#32
  have v99 : FVec Ideal S100000 .f32 := Host.reduceAdd (F := Ideal) v98 cst_19 reducesTo_S100000x15_S100000_d1 h_S_
  have v100 : FVec Ideal S100000x1 .f32 := broadcastInDim S100000x1 ![0] bcast_S100000_S100000x1_0 v99
  have v101 : FVec Ideal S100000x15 .f32 := broadcastInDim S100000x15 ![0, 1] bcast_S100000x1_S100000x15_0_1 v100
  Host.divf v98 v101

/-- Those operations are the row softmax shifted by the row's maximum. -/
theorem softmaxOps_eq (H : FVec Ideal S100000x15 .f32) : softmaxOps H = Cert.Spec.softmax H := by
  unfold softmaxOps
  simp only [reduceMax_read, reduceAdd_read]
  rw [max_negInf_read]
  rw [rowBcast_read]
  funext j
  rfl

end Cert.ReferenceIdeal.RV

end
-- ==== Proof.RefRead.lean ====
import proofs.«407343_j65274912965021_3_alg».proof.Defs
import proofs.«407343_j65274912965021_3_alg».proof.Proof.Gen.ReferenceIdeal
import proofs.«407343_j65274912965021_3_alg».proof.Proof.Spec
import proofs.«407343_j65274912965021_3_alg».proof.Proof.RefTerm
import proofs.«407343_j65274912965021_3_alg».proof.Proof.RefConv
import proofs.«407343_j65274912965021_3_alg».proof.Proof.RefPieces
import proofs.«407343_j65274912965021_3_alg».proof.Proof.LibRead
import proofs.«407343_j65274912965021_3_alg».proof.Proof.LibAlg
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RV

open Idealize.ShloMosaic Idealize.ShloMosaic.ValueIdx Idealize.ShloMosaic.TcCoe Idealize.SL.Sem
open Cert.ReferenceIdeal Cert.ReferenceIdeal.Gen

/-- The bit pattern of 0 broadcast from a scalar reads 0 at every index. -/
theorem splat_zero (s : Shape) (h : (⟨0, ![]⟩ : Shape).BroadcastsInDim s (![] : Fin 0 → Fin s.rank)) (j : s.Idx) :
    broadcastInDim s ![] h (constant (F := Ideal) (⟨0, ![]⟩ : Shape) .f32 0x00000000#32) j = 0 :=
  (congrFun (Cert.Spec.splat_read s h _) j).trans Ideal.ofBits_zero_f32
/-- The bit pattern 0x3F800000 is 1, so its broadcast from a scalar reads 1 at every index. -/
theorem splat_one (s : Shape) (h : (⟨0, ![]⟩ : Shape).BroadcastsInDim s (![] : Fin 0 → Fin s.rank)) (j : s.Idx) :
    broadcastInDim s ![] h (constant (F := Ideal) (⟨0, ![]⟩ : Shape) .f32 0x3F800000#32) j = 1 :=
  (congrFun (Cert.Spec.splat_read s h _) j).trans Cert.Spec.ofBits_one_f32

/-- ELU on one entry as the program spells it, the constants named: both comparisons are with 0, the dead branch's argument
    is replaced by 0, the slope is 1. -/
theorem elu_scalar (v z z2 z3 o : EReal) (hz : z = 0) (hz2 : z2 = 0) (hz3 : z3 = 0) (ho : o = 1) :
    Scalar.select (Ideal.cmp .ogt v z) v (o * (Ideal.exp (Scalar.select (Ideal.cmp .ogt v z2) z3 v) - 1)) = Cert.Spec.elu v := by
  subst hz hz2 hz3 ho
  show Scalar.select (BitVec.ofBool (decide ((0 : EReal) < v))) v
      (1 * (Ideal.exp (Scalar.select (BitVec.ofBool (decide ((0 : EReal) < v))) 0 v) - 1)) = Cert.Spec.elu v
  rw [Cert.Spec.select_ofBool_decide, Cert.Spec.select_ofBool_decide]
  exact Cert.Spec.elu_ref v

/-- The program's ELU on a [100000, 64] array is the specification's, entry by entry: each constant it broadcasts is 0 or 1. -/
theorem elu64_eq (X : FVec Ideal S100000x64 .f32) : elu64 X = Cert.Spec.eluAll X := by
  funext j
  exact elu_scalar (X j) _ _ _ _ (splat_zero _ _ j) (splat_zero _ _ j) (splat_zero _ _ j) (splat_one _ _ j)
/-- The same on a [100000, 128] array. -/
theorem elu128_eq (X : FVec Ideal S100000x128 .f32) : elu128 X = Cert.Spec.eluAll X := by
  funext j
  exact elu_scalar (X j) _ _ _ _ (splat_zero _ _ j) (splat_zero _ _ j) (splat_zero _ _ j) (splat_one _ _ j)

section Layout
open Cert.Spec

/-- A vector broadcast to one row and then down the columns reads the vector at the column. -/
theorem bcast2_row {α : Type} {n k : Nat} (h1 : (A1 k).BroadcastsInDim (A2 1 k) (![1] : Fin 1 → Fin (A2 1 k).rank))
    (h2 : (A2 1 k).BroadcastsInDim (A2 n k) (![0, 1] : Fin 2 → Fin (A2 n k).rank)) (b : (A1 k).Idx → α) :
    broadcastInDim (A2 n k) ![0, 1] h2 (broadcastInDim (A2 1 k) ![1] h1 b) = fun j => b (ix1 (j 1)) := by
  rw [bcast_vec_row_read, bcast_row_read]; rfl

/-- Adding a vector that was broadcast to one row and then down the columns is adding it to every row. -/
theorem addBias_eq {n k : Nat} (h1 : (A1 k).BroadcastsInDim (A2 1 k) (![1] : Fin 1 → Fin (A2 1 k).rank))
    (h2 : (A2 1 k).BroadcastsInDim (A2 n k) (![0, 1] : Fin 2 → Fin (A2 n k).rank)) (X : FVec Ideal (A2 n k) .f32)
    (b : FVec Ideal (A1 k) .f32) :
    addf X (broadcastInDim (A2 n k) ![0, 1] h2 (broadcastInDim (A2 1 k) ![1] h1 b)) = addRow X b := by
  rw [bcast2_row]; rfl

end Layout

/-- The program's last operations are the row softmax shifted by the row's maximum. -/
theorem softmaxT_eq (H : FVec Ideal S100000x15 .f32) : softmaxT H = Cert.Spec.softmax H :=
  (show softmaxT H = softmaxOps H from rfl).trans (softmaxOps_eq H)

/-- The reference's composed operations are the specification's: the degree factor, two convolutions each followed by ELU,
    two dense layers with their biases, and the row softmax, each piece equal to its counterpart. -/
theorem term_eq (x : FVec Ideal S100000x3 .f32) (ei : IVec S2x3200000 32) (W1 : FVec Ideal S3x64 .f32) (b1 : FVec Ideal S64 .f32)
    (W2 : FVec Ideal S64x64 .f32) (b2 : FVec Ideal S64 .f32) (Wm1 : FVec Ideal S64x128 .f32) (bm1 : FVec Ideal S128 .f32)
    (Wm2 : FVec Ideal S128x15 .f32) (bm2 : FVec Ideal S15 .f32) :
    term x ei W1 b1 W2 b2 Wm1 bm1 Wm2 bm2
      = Cert.Spec.OutR x W1 b1 W2 b2 Wm1 bm1 Wm2 bm2 (Cert.Spec.col1 (Cert.Spec.wrapNeg (src ei)))
          (Cert.Spec.col1 (Cert.Spec.wrapNeg (dst ei))) (Cert.Spec.col1 (dst ei)) := by
  unfold term Cert.Spec.OutR
  simp only [disT_eq, conv_eq, elu64_eq, elu128_eq, dot3_eq, dot64_eq, dot64x128_eq, dot128x15_eq, softmaxT_eq]
  rw [addBias_eq bcast_S128_S1x128_1 bcast_S1x128_S100000x128_0_1, addBias_eq bcast_S15_S1x15_1 bcast_S1x15_S100000x15_0_1]

end Cert.ReferenceIdeal.RV

end
-- ==== Proof.lean ====
/-
  The certificate's claims.

  The kernel program and the reference compute a two-layer graph convolution, two dense layers and a row softmax over
  100000 nodes and 3300000 edges (the input's edges and one self-loop per node). Both scale a carried row by the
  inverse square roots of the degrees at the edge's two ends; the reference does it edge by edge, the kernel once per
  source row before the rows are carried and once per target row after the sums are formed. The degree factors are real
  numbers that are not negative, so multiplying by one distributes over any sum of extended reals, and every edge that
  lands on a node has that node as its target: the two results are one function of the arguments, with no condition on
  the inputs. The three frames are the programs' runs with the result dropped; the idealization rewrote nothing.
-/
import proofs.«407343_j65274912965021_3_alg».proof.Defs
import proofs.«407343_j65274912965021_3_alg».proof.Proof.Gen.Kernel
import proofs.«407343_j65274912965021_3_alg».proof.Proof.Gen.Kernel.Frame
import proofs.«407343_j65274912965021_3_alg».proof.Proof.Gen.KernelIdeal
import proofs.«407343_j65274912965021_3_alg».proof.Proof.Gen.KernelIdeal.Frame
import proofs.«407343_j65274912965021_3_alg».proof.Proof.Gen.ReferenceIdeal
import proofs.«407343_j65274912965021_3_alg».proof.Proof.Gen.Pre_finite_inputs
import proofs.«407343_j65274912965021_3_alg».proof.Proof.Spec
import proofs.«407343_j65274912965021_3_alg».proof.Proof.Bridge
import proofs.«407343_j65274912965021_3_alg».proof.Proof.KRun
import proofs.«407343_j65274912965021_3_alg».proof.Proof.KHost
import proofs.«407343_j65274912965021_3_alg».proof.Proof.RefRun
import proofs.«407343_j65274912965021_3_alg».proof.Proof.RefRead
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RV.run m ρ)

/-- Both programs build the self-loop edge lists by the same operations. -/
theorem src_eq (ei : IVec Cert.KernelIdeal.S2x3200000 32) : Cert.KernelIdeal.KV.src ei = Cert.ReferenceIdeal.RV.src ei := rfl
theorem dst_eq (ei : IVec Cert.KernelIdeal.S2x3200000 32) : Cert.KernelIdeal.KV.dst ei = Cert.ReferenceIdeal.RV.dst ei := rfl

/-- From memories that agree on the arguments the two programs end with one result: the kernel's run leaves the
    kernel-order function of the arguments, the reference's run the reference-order one, and these are equal. -/
theorem algebraic : Cert.algebraic_KernelIdeal_ReferenceIdeal := by
  intro m ρ m' ρ' _ hagree
  refine ⟨fun c => Cert.Spec.OutK (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))
      (Cert.Spec.col1 (Cert.Spec.wrapNeg (Cert.KernelIdeal.KV.src (m ((c.tc : Thread Cert.KernelIdeal.nD Cert.KernelIdeal.τ).loc Cert.KernelIdeal.main_arg1)))))
      (Cert.Spec.col1 (Cert.KernelIdeal.KV.dst (m ((c.tc : Thread Cert.KernelIdeal.nD Cert.KernelIdeal.τ).loc Cert.KernelIdeal.main_arg1)))), ?_, ?_⟩
  · exact (θ_run Cert.KernelIdeal.defs _ _).mono
      (fun _ h c => ⟨(h c).1.trans (Cert.KernelIdeal.KV.value m ρ c), (h c).2⟩) (Cert.KernelIdeal.KV.run_value m ρ)
  · refine (θ_run Cert.ReferenceIdeal.defs _ _).mono (fun _ h c => ⟨(h c).1.trans ?_, (h c).2⟩)
      (Cert.ReferenceIdeal.RV.run m' ρ')
    obtain ⟨h0, h1, h2, h3, h4, h5, h6, h7, h8, h9⟩ := hagree c
    rw [h0, h1, h2, h3, h4, h5, h6, h7, h8, h9, Cert.ReferenceIdeal.RV.term_eq, ← src_eq, ← dst_eq]
    exact (Cert.Spec.OutK_eq_OutR _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
